-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S512x4096 32) (main_arg2 : IVec S32x512 32) (main_arg3 : FVec F S32x4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x4096 .f32 := Host.absf main_arg3
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S32x512x1 : Shape := ⟨3, ![32, 512, 1]⟩
abbrev S1x1x8 : Shape := ⟨3, ![1, 1, 8]⟩
abbrev S32x512x8 : Shape := ⟨3, ![32, 512, 8]⟩
abbrev S1x4096 : Shape := ⟨2, ![1, 4096]⟩
abbrev S8192x4096 : Shape := ⟨2, ![8192, 4096]⟩
abbrev S256x4096 : Shape := ⟨2, ![256, 4096]⟩
abbrev S512x2048 : Shape := ⟨2, ![512, 2048]⟩
abbrev S32x2048 : Shape := ⟨2, ![32, 2048]⟩
abbrev S1x2048 : Shape := ⟨2, ![1, 2048]⟩
abbrev S256x2048 : Shape := ⟨2, ![256, 2048]⟩
abbrev S4096x2048 : Shape := ⟨2, ![4096, 2048]⟩
abbrev S1x8x1 : Shape := ⟨3, ![1, 8, 1]⟩
abbrev S16x2048 : Shape := ⟨2, ![16, 2048]⟩
abbrev S16x1x2048 : Shape := ⟨3, ![16, 1, 2048]⟩
abbrev S16x8x2048 : Shape := ⟨3, ![16, 8, 2048]⟩
abbrev S128x2048 : Shape := ⟨2, ![128, 2048]⟩
abbrev S256x128 : Shape := ⟨2, ![256, 128]⟩

abbrev nBuf : Space → Nat
  | .hbm => 27
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S32x512x1, .i32⟩
  | .hbm, ⟨10, _⟩ => ⟨S1x1x8, .i32⟩
  | .hbm, ⟨11, _⟩ => ⟨S32x512x8, .i32⟩
  | .hbm, ⟨12, _⟩ => ⟨S32x512x8, .i32⟩
  | .hbm, ⟨13, _⟩ => ⟨S32x512x8, .i32⟩
  | .hbm, ⟨14, _⟩ => ⟨S_, .i32⟩
  | .hbm, ⟨15, _⟩ => ⟨S32x512x8, .i32⟩
  | .hbm, ⟨16, _⟩ => ⟨S32x512x8, .i32⟩
  | .hbm, ⟨17, _⟩ => ⟨S32x4096, .i32⟩
  | .hbm, ⟨18, _⟩ => ⟨S_, .i32⟩
  | .hbm, ⟨19, _⟩ => ⟨S32x4096, .i32⟩
  | .hbm, ⟨20, _⟩ => ⟨S32x4096, .i32⟩
  | .hbm, ⟨21, _⟩ => ⟨S32x4096, .f32⟩
  | .hbm, ⟨22, _⟩ => ⟨S32x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S512x2048, .i32⟩
  | .local _ .vmem, ⟨3, _⟩ => ⟨S32x2048, .f32⟩
  | .local _ .vmem, ⟨4, _⟩ => ⟨S32x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S4096x2048, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_1 : BitVec 32 := 0#32
  let v5 : BitVec 1 := Scalar.cmpi .ne v4 c0_i32_1
  v5

def k0_cond2 (i : grid0.Coords) : BitVec 1 :=
  let arg1 : BitVec 32 := BitVec.ofNat 32 (i 1).val
  let c0_i32_2 : BitVec 32 := 0#32
  let v6 : BitVec 1 := Scalar.cmpi .ne arg1 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8 : S_.BroadcastsInDim S8 (![] : Fin 0 → Fin S8.rank)
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S_S32x4096 : S_.BroadcastsInDim S32x4096 (![] : Fin 0 → Fin S32x4096.rank)
  shapeCasts_S4096_S1x4096 : S4096.ShapeCasts S1x4096
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  iota_S1x8x1_d1_w32 : S1x8x1.Iotas .tc 32 [1]
  inb_S512x2048_S16x2048_0_0 : ∀ a, (![0, 0] : Fin 2 → Nat) a + S16x2048.size a ≤ S512x2048.size a
  h_S16x2048 : 0 < S16x2048.numel
  shapeCasts_S16x2048_S16x1x2048 : S16x2048.ShapeCasts S16x1x2048
  broadcasts_S16x1x2048_S16x8x2048 : S16x1x2048.Broadcasts S16x8x2048
  broadcasts_S1x8x1_S16x8x2048 : S1x8x1.Broadcasts S16x8x2048
  shapeCasts_S16x8x2048_S128x2048 : S16x8x2048.ShapeCasts S128x2048
  inb_S32x2048_S1x2048_0_0 : ∀ a, (![0, 0] : Fin 2 → Nat) a + S1x2048.size a ≤ S32x2048.size a
  h_S1x2048 : 0 < S1x2048.numel
  shapeCasts_S1x2048_S1x2048 : S1x2048.ShapeCasts S1x2048
  broadcasts_S1x2048_S128x2048 : S1x2048.Broadcasts S128x2048
  inb_S4096x2048_S128x2048_0_0 : ∀ a, (![0, 0] : Fin 2 → Nat) a + S128x2048.size a ≤ S4096x2048.size a
  h_S128x2048 : 0 < S128x2048.numel
  shapeCasts_S128x2048_S128x2048 : S128x2048.ShapeCasts S128x2048
  packedbf16_S4096x2048_S128x2048_0_0 : (Rect.unit (s := S4096x2048) ![0, 0] S128x2048.size inb_S4096x2048_S128x2048_0_0).PackedRows (EltTy.packing .bf16)
  slices_S256x4096_o0_0_S256x128 : S256x4096.Slices ![0, 0] S256x128
  shapeCasts_S256x2048_S256x2048 : S256x2048.ShapeCasts S256x2048
  inb_S512x2048_S16x2048_16_0 : ∀ a, (![16, 0] : Fin 2 → Nat) a + S16x2048.size a ≤ S512x2048.size a
  inb_S32x2048_S1x2048_1_0 : ∀ a, (![1, 0] : Fin 2 → Nat) a + S1x2048.size a ≤ S32x2048.size a
  inb_S4096x2048_S128x2048_128_0 : ∀ a, (![128, 0] : Fin 2 → Nat) a + S128x2048.size a ≤ S4096x2048.size a
  packedbf16_S4096x2048_S128x2048_128_0 : (Rect.unit (s := S4096x2048) ![128, 0] S128x2048.size inb_S4096x2048_S128x2048_128_0).PackedRows (EltTy.packing .bf16)
  slices_S256x4096_o0_128_S256x128 : S256x4096.Slices ![0, 128] S256x128
  inb_S512x2048_S16x2048_32_0 : ∀ a, (![32, 0] : Fin 2 → Nat) a + S16x2048.size a ≤ S512x2048.size a
  inb_S32x2048_S1x2048_2_0 : ∀ a, (![2, 0] : Fin 2 → Nat) a + S1x2048.size a ≤ S32x2048.size a
  inb_S4096x2048_S128x2048_256_0 : ∀ a, (![256, 0] : Fin 2 → Nat) a + S128x2048.size a ≤ S4096x2048.size a
  packedbf16_S4096x2048_S128x2048_256_0 : (Rect.unit (s := S4096x2048) ![256, 0] S128x2048.size inb_S4096x2048_S128x2048_256_0).PackedRows (EltTy.packing .bf16)
  slices_S256x4096_o0_256_S256x128 : S256x4096.Slices ![0, 256] S256x128
  inb_S512x2048_S16x2048_48_0 : ∀ a, (![48, 0] : Fin 2 → Nat) a + S16x2048.size a ≤ S512x2048.size a
  inb_S32x2048_S1x2048_3_0 : ∀ a, (![3, 0] : Fin 2 → Nat) a + S1x2048.size a ≤ S32x2048.size a
  inb_S4096x2048_S128x2048_384_0 : ∀ a, (![384, 0] : Fin 2 → Nat) a + S128x2048.size a ≤ S4096x2048.size a
  packedbf16_S4096x2048_S128x2048_384_0 : (Rect.unit (s := S4096x2048) ![384, 0] S128x2048.size inb_S4096x2048_S128x2048_384_0).PackedRows (EltTy.packing .bf16)
  slices_S256x4096_o0_384_S256x128 : S256x4096.Slices ![0, 384] S256x128
  inb_S512x2048_S16x2048_64_0 : ∀ a, (![64, 0] : Fin 2 → Nat) a + S16x2048.size a ≤ S512x2048.size a
  inb_S32x2048_S1x2048_4_0 : ∀ a, (![4, 0] : Fin 2 → Nat) a + S1x2048.size a ≤ S32x2048.size a
  inb_S4096x2048_S128x2048_512_0 : ∀ a, (![512, 0] : Fin 2 → Nat) a + S128x2048.size a ≤ S4096x2048.size a
  packedbf16_S4096x2048_S128x2048_512_0 : (Rect.unit (s := S4096x2048) ![512, 0] S128x2048.size inb_S4096x2048_S128x2048_512_0).PackedRows (EltTy.packing .bf16)
  slices_S256x4096_o0_512_S256x128 : S256x4096.Slices ![0, 512] S256x128
  inb_S512x2048_S16x2048_80_0 : ∀ a, (![80, 0] : Fin 2 → Nat) a + S16x2048.size a ≤ S512x2048.size a
  inb_S32x2048_S1x2048_5_0 : ∀ a, (![5, 0] : Fin 2 → Nat) a + S1x2048.size a ≤ S32x2048.size a
  inb_S4096x2048_S128x2048_640_0 : ∀ a, (![640, 0] : Fin 2 → Nat) a + S128x2048.size a ≤ S4096x2048.size a
  packedbf16_S4096x2048_S128x2048_640_0 : (Rect.unit (s := S4096x2048) ![640, 0] S128x2048.size inb_S4096x2048_S128x2048_640_0).PackedRows (EltTy.packing .bf16)
  slices_S256x4096_o0_640_S256x128 : S256x4096.Slices ![0, 640] S256x128
  inb_S512x2048_S16x2048_96_0 : ∀ a, (![96, 0] : Fin 2 → Nat) a + S16x2048.size a ≤ S512x2048.size a
  inb_S32x2048_S1x2048_6_0 : ∀ a, (![6, 0] : Fin 2 → Nat) a + S1x2048.size a ≤ S32x2048.size a
  inb_S4096x2048_S128x2048_768_0 : ∀ a, (![768, 0] : Fin 2 → Nat) a + S128x2048.size a ≤ S4096x2048.size a
  packedbf16_S4096x2048_S128x2048_768_0 : (Rect.unit (s := S4096x2048) ![768, 0] S128x2048.size inb_S4096x2048_S128x2048_768_0).PackedRows (EltTy.packing .bf16)
  slices_S256x4096_o0_768_S256x128 : S256x4096.Slices ![0, 768] S256x128
  inb_S512x2048_S16x2048_112_0 : ∀ a, (![112, 0] : Fin 2 → Nat) a + S16x2048.size a ≤ S512x2048.size a
  inb_S32x2048_S1x2048_7_0 : ∀ a, (![7, 0] : Fin 2 → Nat) a + S1x2048.size a ≤ S32x2048.size a
  inb_S4096x2048_S128x2048_896_0 : ∀ a, (![896, 0] : Fin 2 → Nat) a + S128x2048.size a ≤ S4096x2048.size a
  packedbf16_S4096x2048_S128x2048_896_0 : (Rect.unit (s := S4096x2048) ![896, 0] S128x2048.size inb_S4096x2048_S128x2048_896_0).PackedRows (EltTy.packing .bf16)
  slices_S256x4096_o0_896_S256x128 : S256x4096.Slices ![0, 896] S256x128
  inb_S512x2048_S16x2048_128_0 : ∀ a, (![128, 0] : Fin 2 → Nat) a + S16x2048.size a ≤ S512x2048.size a
  inb_S32x2048_S1x2048_8_0 : ∀ a, (![8, 0] : Fin 2 → Nat) a + S1x2048.size a ≤ S32x2048.size a
  inb_S4096x2048_S128x2048_1024_0 : ∀ a, (![1024, 0] : Fin 2 → Nat) a + S128x2048.size a ≤ S4096x2048.size a
  packedbf16_S4096x2048_S128x2048_1024_0 : (Rect.unit (s := S4096x2048) ![1024, 0] S128x2048.size inb_S4096x2048_S128x2048_1024_0).PackedRows (EltTy.packing .bf16)
  slices_S256x4096_o0_1024_S256x128 : S256x4096.Slices ![0, 1024] S256x128
  inb_S512x2048_S16x2048_144_0 : ∀ a, (![144, 0] : Fin 2 → Nat) a + S16x2048.size a ≤ S512x2048.size a
  inb_S32x2048_S1x2048_9_0 : ∀ a, (![9, 0] : Fin 2 → Nat) a + S1x2048.size a ≤ S32x2048.size a
  inb_S4096x2048_S128x2048_1152_0 : ∀ a, (![1152, 0] : Fin 2 → Nat) a + S128x2048.size a ≤ S4096x2048.size a
  packedbf16_S4096x2048_S128x2048_1152_0 : (Rect.unit (s := S4096x2048) ![1152, 0] S128x2048.size inb_S4096x2048_S128x2048_1152_0).PackedRows (EltTy.packing .bf16)
  slices_S256x4096_o0_1152_S256x128 : S256x4096.Slices ![0, 1152] S256x128
  inb_S512x2048_S16x2048_160_0 : ∀ a, (![160, 0] : Fin 2 → Nat) a + S16x2048.size a ≤ S512x2048.size a
  inb_S32x2048_S1x2048_10_0 : ∀ a, (![10, 0] : Fin 2 → Nat) a + S1x2048.size a ≤ S32x2048.size a
  inb_S4096x2048_S128x2048_1280_0 : ∀ a, (![1280, 0] : Fin 2 → Nat) a + S128x2048.size a ≤ S4096x2048.size a
  packedbf16_S4096x2048_S128x2048_1280_0 : (Rect.unit (s := S4096x2048) ![1280, 0] S128x2048.size inb_S4096x2048_S128x2048_1280_0).PackedRows (EltTy.packing .bf16)
  slices_S256x4096_o0_1280_S256x128 : S256x4096.Slices ![0, 1280] S256x128
  inb_S512x2048_S16x2048_176_0 : ∀ a, (![176, 0] : Fin 2 → Nat) a + S16x2048.size a ≤ S512x2048.size a
  inb_S32x2048_S1x2048_11_0 : ∀ a, (![11, 0] : Fin 2 → Nat) a + S1x2048.size a ≤ S32x2048.size a
  inb_S4096x2048_S128x2048_1408_0 : ∀ a, (![1408, 0] : Fin 2 → Nat) a + S128x2048.size a ≤ S4096x2048.size a
  packedbf16_S4096x2048_S128x2048_1408_0 : (Rect.unit (s := S4096x2048) ![1408, 0] S128x2048.size inb_S4096x2048_S128x2048_1408_0).PackedRows (EltTy.packing .bf16)
  slices_S256x4096_o0_1408_S256x128 : S256x4096.Slices ![0, 1408] S256x128
  inb_S512x2048_S16x2048_192_0 : ∀ a, (![192, 0] : Fin 2 → Nat) a + S16x2048.size a ≤ S512x2048.size a
  inb_S32x2048_S1x2048_12_0 : ∀ a, (![12, 0] : Fin 2 → Nat) a + S1x2048.size a ≤ S32x2048.size a
  inb_S4096x2048_S128x2048_1536_0 : ∀ a, (![1536, 0] : Fin 2 → Nat) a + S128x2048.size a ≤ S4096x2048.size a
  packedbf16_S4096x2048_S128x2048_1536_0 : (Rect.unit (s := S4096x2048) ![1536, 0] S128x2048.size inb_S4096x2048_S128x2048_1536_0).PackedRows (EltTy.packing .bf16)
  slices_S256x4096_o0_1536_S256x128 : S256x4096.Slices ![0, 1536] S256x128
  inb_S512x2048_S16x2048_208_0 : ∀ a, (![208, 0] : Fin 2 → Nat) a + S16x2048.size a ≤ S512x2048.size a
  inb_S32x2048_S1x2048_13_0 : ∀ a, (![13, 0] : Fin 2 → Nat) a + S1x2048.size a ≤ S32x2048.size a
  inb_S4096x2048_S128x2048_1664_0 : ∀ a, (![1664, 0] : Fin 2 → Nat) a + S128x2048.size a ≤ S4096x2048.size a
  packedbf16_S4096x2048_S128x2048_1664_0 : (Rect.unit (s := S4096x2048) ![1664, 0] S128x2048.size inb_S4096x2048_S128x2048_1664_0).PackedRows (EltTy.packing .bf16)
  slices_S256x4096_o0_1664_S256x128 : S256x4096.Slices ![0, 1664] S256x128
  inb_S512x2048_S16x2048_224_0 : ∀ a, (![224, 0] : Fin 2 → Nat) a + S16x2048.size a ≤ S512x2048.size a
  inb_S32x2048_S1x2048_14_0 : ∀ a, (![14, 0] : Fin 2 → Nat) a + S1x2048.size a ≤ S32x2048.size a
  inb_S4096x2048_S128x2048_1792_0 : ∀ a, (![1792, 0] : Fin 2 → Nat) a + S128x2048.size a ≤ S4096x2048.size a
  packedbf16_S4096x2048_S128x2048_1792_0 : (Rect.unit (s := S4096x2048) ![1792, 0] S128x2048.size inb_S4096x2048_S128x2048_1792_0).PackedRows (EltTy.packing .bf16)
  slices_S256x4096_o0_1792_S256x128 : S256x4096.Slices ![0, 1792] S256x128
  inb_S512x2048_S16x2048_240_0 : ∀ a, (![240, 0] : Fin 2 → Nat) a + S16x2048.size a ≤ S512x2048.size a
  inb_S32x2048_S1x2048_15_0 : ∀ a, (![15, 0] : Fin 2 → Nat) a + S1x2048.size a ≤ S32x2048.size a
  inb_S4096x2048_S128x2048_1920_0 : ∀ a, (![1920, 0] : Fin 2 → Nat) a + S128x2048.size a ≤ S4096x2048.size a
  packedbf16_S4096x2048_S128x2048_1920_0 : (Rect.unit (s := S4096x2048) ![1920, 0] S128x2048.size inb_S4096x2048_S128x2048_1920_0).PackedRows (EltTy.packing .bf16)
  slices_S256x4096_o0_1920_S256x128 : S256x4096.Slices ![0, 1920] S256x128
  inb_S512x2048_S16x2048_256_0 : ∀ a, (![256, 0] : Fin 2 → Nat) a + S16x2048.size a ≤ S512x2048.size a
  inb_S32x2048_S1x2048_16_0 : ∀ a, (![16, 0] : Fin 2 → Nat) a + S1x2048.size a ≤ S32x2048.size a
  inb_S4096x2048_S128x2048_2048_0 : ∀ a, (![2048, 0] : Fin 2 → Nat) a + S128x2048.size a ≤ S4096x2048.size a
  packedbf16_S4096x2048_S128x2048_2048_0 : (Rect.unit (s := S4096x2048) ![2048, 0] S128x2048.size inb_S4096x2048_S128x2048_2048_0).PackedRows (EltTy.packing .bf16)
  slices_S256x4096_o0_2048_S256x128 : S256x4096.Slices ![0, 2048] S256x128
  inb_S512x2048_S16x2048_272_0 : ∀ a, (![272, 0] : Fin 2 → Nat) a + S16x2048.size a ≤ S512x2048.size a
  inb_S32x2048_S1x2048_17_0 : ∀ a, (![17, 0] : Fin 2 → Nat) a + S1x2048.size a ≤ S32x2048.size a
  inb_S4096x2048_S128x2048_2176_0 : ∀ a, (![2176, 0] : Fin 2 → Nat) a + S128x2048.size a ≤ S4096x2048.size a
  packedbf16_S4096x2048_S128x2048_2176_0 : (Rect.unit (s := S4096x2048) ![2176, 0] S128x2048.size inb_S4096x2048_S128x2048_2176_0).PackedRows (EltTy.packing .bf16)
  slices_S256x4096_o0_2176_S256x128 : S256x4096.Slices ![0, 2176] S256x128
  inb_S512x2048_S16x2048_288_0 : ∀ a, (![288, 0] : Fin 2 → Nat) a + S16x2048.size a ≤ S512x2048.size a
  inb_S32x2048_S1x2048_18_0 : ∀ a, (![18, 0] : Fin 2 → Nat) a + S1x2048.size a ≤ S32x2048.size a
  inb_S4096x2048_S128x2048_2304_0 : ∀ a, (![2304, 0] : Fin 2 → Nat) a + S128x2048.size a ≤ S4096x2048.size a
  packedbf16_S4096x2048_S128x2048_2304_0 : (Rect.unit (s := S4096x2048) ![2304, 0] S128x2048.size inb_S4096x2048_S128x2048_2304_0).PackedRows (EltTy.packing .bf16)
  slices_S256x4096_o0_2304_S256x128 : S256x4096.Slices ![0, 2304] S256x128
  inb_S512x2048_S16x2048_304_0 : ∀ a, (![304, 0] : Fin 2 → Nat) a + S16x2048.size a ≤ S512x2048.size a
  inb_S32x2048_S1x2048_19_0 : ∀ a, (![19, 0] : Fin 2 → Nat) a + S1x2048.size a ≤ S32x2048.size a
  inb_S4096x2048_S128x2048_2432_0 : ∀ a, (![2432, 0] : Fin 2 → Nat) a + S128x2048.size a ≤ S4096x2048.size a
  packedbf16_S4096x2048_S128x2048_2432_0 : (Rect.unit (s := S4096x2048) ![2432, 0] S128x2048.size inb_S4096x2048_S128x2048_2432_0).PackedRows (EltTy.packing .bf16)
  slices_S256x4096_o0_2432_S256x128 : S256x4096.Slices ![0, 2432] S256x128
  inb_S512x2048_S16x2048_320_0 : ∀ a, (![320, 0] : Fin 2 → Nat) a + S16x2048.size a ≤ S512x2048.size a
  inb_S32x2048_S1x2048_20_0 : ∀ a, (![20, 0] : Fin 2 → Nat) a + S1x2048.size a ≤ S32x2048.size a
  inb_S4096x2048_S128x2048_2560_0 : ∀ a, (![2560, 0] : Fin 2 → Nat) a + S128x2048.size a ≤ S4096x2048.size a
  packedbf16_S4096x2048_S128x2048_2560_0 : (Rect.unit (s := S4096x2048) ![2560, 0] S128x2048.size inb_S4096x2048_S128x2048_2560_0).PackedRows (EltTy.packing .bf16)
  slices_S256x4096_o0_2560_S256x128 : S256x4096.Slices ![0, 2560] S256x128
  inb_S512x2048_S16x2048_336_0 : ∀ a, (![336, 0] : Fin 2 → Nat) a + S16x2048.size a ≤ S512x2048.size a
  inb_S32x2048_S1x2048_21_0 : ∀ a, (![21, 0] : Fin 2 → Nat) a + S1x2048.size a ≤ S32x2048.size a
  inb_S4096x2048_S128x2048_2688_0 : ∀ a, (![2688, 0] : Fin 2 → Nat) a + S128x2048.size a ≤ S4096x2048.size a
  packedbf16_S4096x2048_S128x2048_2688_0 : (Rect.unit (s := S4096x2048) ![2688, 0] S128x2048.size inb_S4096x2048_S128x2048_2688_0).PackedRows (EltTy.packing .bf16)
  slices_S256x4096_o0_2688_S256x128 : S256x4096.Slices ![0, 2688] S256x128
  inb_S512x2048_S16x2048_352_0 : ∀ a, (![352, 0] : Fin 2 → Nat) a + S16x2048.size a ≤ S512x2048.size a
  inb_S32x2048_S1x2048_22_0 : ∀ a, (![22, 0] : Fin 2 → Nat) a + S1x2048.size a ≤ S32x2048.size a
  inb_S4096x2048_S128x2048_2816_0 : ∀ a, (![2816, 0] : Fin 2 → Nat) a + S128x2048.size a ≤ S4096x2048.size a
  packedbf16_S4096x2048_S128x2048_2816_0 : (Rect.unit (s := S4096x2048) ![2816, 0] S128x2048.size inb_S4096x2048_S128x2048_2816_0).PackedRows (EltTy.packing .bf16)
  slices_S256x4096_o0_2816_S256x128 : S256x4096.Slices ![0, 2816] S256x128
  inb_S512x2048_S16x2048_368_0 : ∀ a, (![368, 0] : Fin 2 → Nat) a + S16x2048.size a ≤ S512x2048.size a
  inb_S32x2048_S1x2048_23_0 : ∀ a, (![23, 0] : Fin 2 → Nat) a + S1x2048.size a ≤ S32x2048.size a
  inb_S4096x2048_S128x2048_2944_0 : ∀ a, (![2944, 0] : Fin 2 → Nat) a + S128x2048.size a ≤ S4096x2048.size a
  packedbf16_S4096x2048_S128x2048_2944_0 : (Rect.unit (s := S4096x2048) ![2944, 0] S128x2048.size inb_S4096x2048_S128x2048_2944_0).PackedRows (EltTy.packing .bf16)
  slices_S256x4096_o0_2944_S256x128 : S256x4096.Slices ![0, 2944] S256x128
  inb_S512x2048_S16x2048_384_0 : ∀ a, (![384, 0] : Fin 2 → Nat) a + S16x2048.size a ≤ S512x2048.size a
  inb_S32x2048_S1x2048_24_0 : ∀ a, (![24, 0] : Fin 2 → Nat) a + S1x2048.size a ≤ S32x2048.size a
  inb_S4096x2048_S128x2048_3072_0 : ∀ a, (![3072, 0] : Fin 2 → Nat) a + S128x2048.size a ≤ S4096x2048.size a
  packedbf16_S4096x2048_S128x2048_3072_0 : (Rect.unit (s := S4096x2048) ![3072, 0] S128x2048.size inb_S4096x2048_S128x2048_3072_0).PackedRows (EltTy.packing .bf16)
  slices_S256x4096_o0_3072_S256x128 : S256x4096.Slices ![0, 3072] S256x128
  inb_S512x2048_S16x2048_400_0 : ∀ a, (![400, 0] : Fin 2 → Nat) a + S16x2048.size a ≤ S512x2048.size a
  inb_S32x2048_S1x2048_25_0 : ∀ a, (![25, 0] : Fin 2 → Nat) a + S1x2048.size a ≤ S32x2048.size a
  inb_S4096x2048_S128x2048_3200_0 : ∀ a, (![3200, 0] : Fin 2 → Nat) a + S128x2048.size a ≤ S4096x2048.size a
  packedbf16_S4096x2048_S128x2048_3200_0 : (Rect.unit (s := S4096x2048) ![3200, 0] S128x2048.size inb_S4096x2048_S128x2048_3200_0).PackedRows (EltTy.packing .bf16)
  slices_S256x4096_o0_3200_S256x128 : S256x4096.Slices ![0, 3200] S256x128
  inb_S512x2048_S16x2048_416_0 : ∀ a, (![416, 0] : Fin 2 → Nat) a + S16x2048.size a ≤ S512x2048.size a
  inb_S32x2048_S1x2048_26_0 : ∀ a, (![26, 0] : Fin 2 → Nat) a + S1x2048.size a ≤ S32x2048.size a
  inb_S4096x2048_S128x2048_3328_0 : ∀ a, (![3328, 0] : Fin 2 → Nat) a + S128x2048.size a ≤ S4096x2048.size a
  packedbf16_S4096x2048_S128x2048_3328_0 : (Rect.unit (s := S4096x2048) ![3328, 0] S128x2048.size inb_S4096x2048_S128x2048_3328_0).PackedRows (EltTy.packing .bf16)
  slices_S256x4096_o0_3328_S256x128 : S256x4096.Slices ![0, 3328] S256x128
  inb_S512x2048_S16x2048_432_0 : ∀ a, (![432, 0] : Fin 2 → Nat) a + S16x2048.size a ≤ S512x2048.size a
  inb_S32x2048_S1x2048_27_0 : ∀ a, (![27, 0] : Fin 2 → Nat) a + S1x2048.size a ≤ S32x2048.size a
  inb_S4096x2048_S128x2048_3456_0 : ∀ a, (![3456, 0] : Fin 2 → Nat) a + S128x2048.size a ≤ S4096x2048.size a
  packedbf16_S4096x2048_S128x2048_3456_0 : (Rect.unit (s := S4096x2048) ![3456, 0] S128x2048.size inb_S4096x2048_S128x2048_3456_0).PackedRows (EltTy.packing .bf16)
  slices_S256x4096_o0_3456_S256x128 : S256x4096.Slices ![0, 3456] S256x128
  inb_S512x2048_S16x2048_448_0 : ∀ a, (![448, 0] : Fin 2 → Nat) a + S16x2048.size a ≤ S512x2048.size a
  inb_S32x2048_S1x2048_28_0 : ∀ a, (![28, 0] : Fin 2 → Nat) a + S1x2048.size a ≤ S32x2048.size a
  inb_S4096x2048_S128x2048_3584_0 : ∀ a, (![3584, 0] : Fin 2 → Nat) a + S128x2048.size a ≤ S4096x2048.size a
  packedbf16_S4096x2048_S128x2048_3584_0 : (Rect.unit (s := S4096x2048) ![3584, 0] S128x2048.size inb_S4096x2048_S128x2048_3584_0).PackedRows (EltTy.packing .bf16)
  slices_S256x4096_o0_3584_S256x128 : S256x4096.Slices ![0, 3584] S256x128
  inb_S512x2048_S16x2048_464_0 : ∀ a, (![464, 0] : Fin 2 → Nat) a + S16x2048.size a ≤ S512x2048.size a
  inb_S32x2048_S1x2048_29_0 : ∀ a, (![29, 0] : Fin 2 → Nat) a + S1x2048.size a ≤ S32x2048.size a
  inb_S4096x2048_S128x2048_3712_0 : ∀ a, (![3712, 0] : Fin 2 → Nat) a + S128x2048.size a ≤ S4096x2048.size a
  packedbf16_S4096x2048_S128x2048_3712_0 : (Rect.unit (s := S4096x2048) ![3712, 0] S128x2048.size inb_S4096x2048_S128x2048_3712_0).PackedRows (EltTy.packing .bf16)
  slices_S256x4096_o0_3712_S256x128 : S256x4096.Slices ![0, 3712] S256x128
  inb_S512x2048_S16x2048_480_0 : ∀ a, (![480, 0] : Fin 2 → Nat) a + S16x2048.size a ≤ S512x2048.size a
  inb_S32x2048_S1x2048_30_0 : ∀ a, (![30, 0] : Fin 2 → Nat) a + S1x2048.size a ≤ S32x2048.size a
  inb_S4096x2048_S128x2048_3840_0 : ∀ a, (![3840, 0] : Fin 2 → Nat) a + S128x2048.size a ≤ S4096x2048.size a
  packedbf16_S4096x2048_S128x2048_3840_0 : (Rect.unit (s := S4096x2048) ![3840, 0] S128x2048.size inb_S4096x2048_S128x2048_3840_0).PackedRows (EltTy.packing .bf16)
  slices_S256x4096_o0_3840_S256x128 : S256x4096.Slices ![0, 3840] S256x128
  inb_S512x2048_S16x2048_496_0 : ∀ a, (![496, 0] : Fin 2 → Nat) a + S16x2048.size a ≤ S512x2048.size a
  inb_S32x2048_S1x2048_31_0 : ∀ a, (![31, 0] : Fin 2 → Nat) a + S1x2048.size a ≤ S32x2048.size a
  inb_S4096x2048_S128x2048_3968_0 : ∀ a, (![3968, 0] : Fin 2 → Nat) a + S128x2048.size a ≤ S4096x2048.size a
  packedbf16_S4096x2048_S128x2048_3968_0 : (Rect.unit (s := S4096x2048) ![3968, 0] S128x2048.size inb_S4096x2048_S128x2048_3968_0).PackedRows (EltTy.packing .bf16)
  slices_S256x4096_o0_3968_S256x128 : S256x4096.Slices ![0, 3968] S256x128
  inb_S1x2048_S1x2048_0_0 : ∀ a, (![0, 0] : Fin 2 → Nat) a + S1x2048.size a ≤ S1x2048.size a
  broadcasts_S1x2048_S256x2048 : S1x2048.Broadcasts S256x2048
  inb_S4096x2048_S4096x2048_0_0 : ∀ a, (![0, 0] : Fin 2 → Nat) a + S4096x2048.size a ≤ S4096x2048.size a
  h_S4096x2048 : 0 < S4096x2048.numel
  shapeCasts_S8192x4096_S4x2048x4096 : S8192x4096.ShapeCasts S4x2048x4096
  dot_S256x128_S128x2048_S256x2048_1_0_0_1_n_n_wf : DotDims.WF S256x128 S128x2048 S256x2048 [1] [0] [0] [1] [] []
  dot_S256x4096_S4096x2048_S256x2048_1_0_0_1_n_n_wf : DotDims.WF S256x4096 S4096x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x4096.size a
  hwx0_1 : ∀ i : grid0.Coords, EltTy.bits .i32 = 32 ∨ (Rect.block (s := S512x4096) S512x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x2048.size a ≤ S32x4096.size a
  hwx0_2 : ∀ i : grid0.Coords, EltTy.bits .f32 = 32 ∨ (Rect.block (s := S32x4096) S32x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x2048.size a ≤ S32x4096.size a
  hwx0_3 : ∀ i : grid0.Coords, EltTy.bits .f32 = 32 ∨ (Rect.block (s := S32x4096) S32x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x4096.size a
  hwx0_5 : ∀ i : grid0.Coords, EltTy.bits .f32 = 32 ∨ (Rect.block (s := S8192x4096) S256x2048.size (cc0_transform_5 i) (hinb0_5 i)).WholeWords (EltTy.packing .f32)

variable [Facts₀]

def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf

abbrev win0_0 : Pipeline.Window sig grid0 :=
  Pipeline.Window.ofSpec (Memref.whole main_v16) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S32x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x512x1 : Shape := ⟨3, ![32, 512, 1]⟩
abbrev S1x1x8 : Shape := ⟨3, ![1, 1, 8]⟩
abbrev S32x512x8 : Shape := ⟨3, ![32, 512, 8]⟩
abbrev S4096x1 : Shape := ⟨2, ![4096, 1]⟩
abbrev S1x1x4096 : Shape := ⟨3, ![1, 1, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x4096, .i32⟩
  | .hbm, ⟨10, _⟩ => ⟨S1x8x1, .i32⟩
  | .hbm, ⟨11, _⟩ => ⟨S512x8x4096, .i32⟩
  | .hbm, ⟨12, _⟩ => ⟨S512x8x4096, .i32⟩
  | .hbm, ⟨13, _⟩ => ⟨S512x8x4096, .i32⟩
  | .hbm, ⟨14, _⟩ => ⟨S_, .i32⟩
  | .hbm, ⟨15, _⟩ => ⟨S512x8x4096, .i32⟩
  | .hbm, ⟨16, _⟩ => ⟨S512x8x4096, .i32⟩
  | .hbm, ⟨17, _⟩ => ⟨S4096x4096, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S32x512x1, .i32⟩
  | .hbm, ⟨23, _⟩ => ⟨S1x1x8, .i32⟩
  | .hbm, ⟨24, _⟩ => ⟨S32x512x8, .i32⟩
  | .hbm, ⟨25, _⟩ => ⟨S32x512x8, .i32⟩
  | .hbm, ⟨26, _⟩ => ⟨S32x512x8, .i32⟩
  | .hbm, ⟨27, _⟩ => ⟨S_, .i32⟩
  | .hbm, ⟨28, _⟩ => ⟨S32x512x8, .i32⟩
  | .hbm, ⟨29, _⟩ => ⟨S32x512x8, .i32⟩
  | .hbm, ⟨30, _⟩ => ⟨S32x4096, .i32⟩
  | .hbm, ⟨31, _⟩ => ⟨S_, .i32⟩
  | .hbm, ⟨32, _⟩ => ⟨S32x4096, .i32⟩
  | .hbm, ⟨33, _⟩ => ⟨S32x4096, .i32⟩
  | .hbm, ⟨34, _⟩ => ⟨S4096, .i32⟩
  | .hbm, ⟨35, _⟩ => ⟨S_, .i32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096x4096, .f32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S4096x1, .i32⟩
  | .hbm, ⟨70, _⟩ => ⟨S4096x4096, .i32⟩
  | .hbm, ⟨71, _⟩ => ⟨S4096x4096, .i32⟩
  | .hbm, ⟨72, _⟩ => ⟨S4096x4096, .f32⟩
  | .hbm, ⟨73, _⟩ => ⟨S4096x4096, .f32⟩
  | .hbm, ⟨74, _⟩ => ⟨S4x2048x4096, .f32⟩
  | .hbm, ⟨75, _⟩ => ⟨S1x1x4096, .f32⟩
  | .hbm, ⟨76, _⟩ => ⟨S4x2048x4096, .f32⟩
  | .hbm, ⟨77, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_c_8 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S_S32x4096 : S_.BroadcastsInDim S32x4096 (![] : Fin 0 → Fin S32x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S32x4096_S4096x1_S4096x4096_1_0_n_n_0_1_14096_wf : GatherDims.WF S32x4096 S4096x1 S4096x4096 [1] [0] [] [0] [] 1 ![1, 4096]
  dot_S4x2048x4096_S4096x4096_S4x2048x4096_2_0_01_1_n_n_wf : DotDims.WF S4x2048x4096 S4096x4096 S4x2048x4096 [2] [0] [0, 1] [1] [] []

variable [Facts₀]

def gather_S32x4096_S4096x1_S4096x4096_1_0_n_n_0_1_14096 : GatherDims S32x4096 S4096x1 S4096x4096 where
  offsetDims := [1]
  collapsedSliceDims := [0]
  operandBatchingDims := []
  startIndicesBatchingDims := []
  startIndexMap := [0]
  indexVectorDim := 1
  sliceSizes := ![1, 4096]
  wf := gather_S32x4096_S4096x1_S4096x4096_1_0_n_n_0_1_14096_wf
def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.BBody.lean ====
import proofs.«401313_j39213051412616_3_alg».proof.Proof.Gen.Kernel.Skeleton
import proofs.«401313_j39213051412616_3_alg».proof.Proof.Gen.Kernel.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branches of the body, over the grid

The body branches twice on the second grid coordinate m: the first branch (m = 0) dequantises the weight tile into
the scratch and accumulates the product group by group; the second (m ≠ 0) multiplies by the scratch as the
point m = 0 of the same column tile left it. The grid runs m fastest, 32 values per column tile. -/

/-- The first branch is taken. -/
abbrev condA (i : grid0.Coords) : Prop := k0_cond1 i = 1#1
/-- The second branch is taken. -/
abbrev condB (i : grid0.Coords) : Prop := k0_cond2 i = 1#1

/-- The first branch is taken exactly at the points whose position is a multiple of 32. -/
theorem hcondA : ∀ t : Fin cfg0.N, condA (grid0.coords t) ↔ t.val % 32 = 0 :=
  (by decide +kernel : ∀ t : Fin grid0.N, condA (grid0.coords t) ↔ t.val % 32 = 0)
/-- The second branch is taken at all the other points. -/
theorem hcondB : ∀ t : Fin cfg0.N, condB (grid0.coords t) ↔ ¬ t.val % 32 = 0 :=
  (by decide +kernel : ∀ t : Fin grid0.N, condB (grid0.coords t) ↔ ¬ t.val % 32 = 0)

/-- No window is idle at any point: the inputs never are, and the output is stored at every point (one of the two
    branches is always taken). -/
theorem live0 : ∀ (w : Fin 6) (t : Fin cfg0.N), cfg0.idle w (grid0.coords t) = false := by decide +kernel

/-! ## The memrefs the body is called with -/

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
/-- The scratch: a whole scoped buffer of the kernel's own, carried from point to point. -/
abbrev scM : Memref sig .tc .vmem S4096x2048 .bf16 := Memref.whole cc0_scratch0
/-- The scratch as a view: what it holds is stated through it. -/
abbrev VS : View sig .tc .vmem S4096x2048 .bf16 := scM.view
/-- One staging buffer of the output window, through which its contents are stated. -/
abbrev VO : View sig .tc .vmem S256x2048 .f32 := (Memref.whole cc0_stg5_0 : Memref sig .tc .vmem S256x2048 .f32).view

/-- The region's invariant as the launch hands it over: the scratch owned at some contents, the generator register
    at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.BRunA.lean ====
import proofs.«401313_j39213051412616_3_alg».proof.Proof.BBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The body at a point of the first branch (m = 0), on whole staging memrefs: the five inputs at their
    contents, the output buffer and the scratch at anything. It runs to the end, the inputs as they were; the
    scratch with 32 stores written, one slab of 128 rows per group (the group's dequantised weights); the output
    buffer with 34 stores written, each over the whole block: zero, then after each group the block read back
    plus that group's partial product, last the block read back plus the bias row. -/
noncomputable def kernelRunA (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i)
    (x0 : Vec F S256x4096 .f32) (x1 : Vec F S512x2048 .i32) (x2 : Vec F S32x2048 .f32) (x3 : Vec F S32x2048 .f32) (x4 : Vec F S1x2048 .f32) :
    Σ' (L5 : List (View.Piece (Elt F) S256x2048 .f32)), { LS : List (View.Piece (Elt F) S4096x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg2 harg2 arg3 harg3 arg4 harg4 arg5 harg5 arg6 harg6 arg7 harg7 arg8 harg8) K } := by
  refine ⟨?_, ?_, fun E K => ?run⟩
  case run =>
    simp only [cc0__matmul_kernel_eq_skeleton]; unfold cc0__matmul_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Hand

end
-- ==== Proof.BRunB.lean ====
import proofs.«401313_j39213051412616_3_alg».proof.Proof.BBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point of the second branch (m ≠ 0), on whole staging memrefs: the five inputs at their
    contents, the output buffer at anything, the scratch at the contents xs the points before left. It runs to
    the end, the inputs and the scratch as they were, the output buffer with one store written: the product of
    the input block with the scratch, plus the bias row. -/
noncomputable def kernelRunB (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : ¬condA i) (hc2 : condB i)
    (x0 : Vec F S256x4096 .f32) (x1 : Vec F S512x2048 .i32) (x2 : Vec F S32x2048 .f32) (x3 : Vec F S32x2048 .f32) (x4 : Vec F S1x2048 .f32)
    (xs : Vec F S4096x2048 .bf16) :
    { L5 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xs) -∗ K ⟨⟩))
          ⊢ wp frame (wpE (defs₀ (F := F)) Variants.none c none) E (cc0__matmul_kernel i arg2 harg2 arg3 harg3 arg4 harg4 arg5 harg5 arg6 harg6 arg7 harg7 arg8 harg8) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS

end Cert.Kernel.Hand

end
-- ==== Proof.BData.lean ====
import proofs.«401313_j39213051412616_3_alg».proof.Proof.BRunA
import proofs.«401313_j39213051412616_3_alg».proof.Proof.BRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch leaves in the output buffer and in the scratch -/

/-- The first branch's stores into the output buffer cover it (each of them is the whole block). -/
theorem coverA5 (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i) (x0 : Vec F S256x4096 .f32) (x1 : Vec F S512x2048 .i32) (x2 : Vec F S32x2048 .f32) (x3 : Vec F S32x2048 .f32) (x4 : Vec F S1x2048 .f32) (y : S256x2048.Idx) :
    ∃ pc ∈ (kernelRunA c i arg2 harg2 arg3 harg3 arg4 harg4 arg5 harg5 arg6 harg6 arg7 harg7 arg8 harg8 hc1 hc2 x0 x1 x2 x3 x4).1, y ∈ pc.1.set :=
  View.cover_of_tiledL (kernelRunA c i arg2 harg2 arg3 harg3 arg4 harg4 arg5 harg5 arg6 harg6 arg7 harg7 arg8 harg8 hc1 hc2 x0 x1 x2 x3 x4).1 S256x2048.size (by sl_kernel_rfl) y

/-- The first branch's stores into the scratch tile it: 32 slabs of 128 rows. -/
theorem coverAS (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i) (x0 : Vec F S256x4096 .f32) (x1 : Vec F S512x2048 .i32) (x2 : Vec F S32x2048 .f32) (x3 : Vec F S32x2048 .f32) (x4 : Vec F S1x2048 .f32) (y : S4096x2048.Idx) :
    ∃ pc ∈ (kernelRunA c i arg2 harg2 arg3 harg3 arg4 harg4 arg5 harg5 arg6 harg6 arg7 harg7 arg8 harg8 hc1 hc2 x0 x1 x2 x3 x4).2.1, y ∈ pc.1.set :=
  View.cover_of_tiledL (kernelRunA c i arg2 harg2 arg3 harg3 arg4 harg4 arg5 harg5 arg6 harg6 arg7 harg7 arg8 harg8 hc1 hc2 x0 x1 x2 x3 x4).2.1 S128x2048.size (by sl_kernel_rfl) y

/-- The second branch's one store into the output buffer covers it. -/
theorem coverB5 (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : ¬condA i) (hc2 : condB i) (x0 : Vec F S256x4096 .f32) (x1 : Vec F S512x2048 .i32) (x2 : Vec F S32x2048 .f32) (x3 : Vec F S32x2048 .f32) (x4 : Vec F S1x2048 .f32) (xs : Vec F S4096x2048 .bf16) (y : S256x2048.Idx) :
    ∃ pc ∈ (kernelRunB c i arg2 harg2 arg3 harg3 arg4 harg4 arg5 harg5 arg6 harg6 arg7 harg7 arg8 harg8 hc1 hc2 x0 x1 x2 x3 x4 xs).1, y ∈ pc.1.set :=
  View.cover_of_tiledL (kernelRunB c i arg2 harg2 arg3 harg3 arg4 harg4 arg5 harg5 arg6 harg6 arg7 harg7 arg8 harg8 hc1 hc2 x0 x1 x2 x3 x4 xs).1 S256x2048.size (by sl_kernel_rfl) y

/-- What the first branch leaves in the output buffer: its stores read back. -/
def outA (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i) (x0 : Vec F S256x4096 .f32) (x1 : Vec F S512x2048 .i32) (x2 : Vec F S32x2048 .f32) (x3 : Vec F S32x2048 .f32) (x4 : Vec F S1x2048 .f32) : Vec F S256x2048 .f32 :=
  VO.read (Elt F) (VO.writes (Elt F) VO.junk (kernelRunA c i arg2 harg2 arg3 harg3 arg4 harg4 arg5 harg5 arg6 harg6 arg7 harg7 arg8 harg8 hc1 hc2 x0 x1 x2 x3 x4).1)

/-- What the first branch leaves in the scratch: its stores read back. -/
def soutA (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i) (x0 : Vec F S256x4096 .f32) (x1 : Vec F S512x2048 .i32) (x2 : Vec F S32x2048 .f32) (x3 : Vec F S32x2048 .f32) (x4 : Vec F S1x2048 .f32) : Vec F S4096x2048 .bf16 :=
  VS.read (Elt F) (VS.writes (Elt F) VS.junk (kernelRunA c i arg2 harg2 arg3 harg3 arg4 harg4 arg5 harg5 arg6 harg6 arg7 harg7 arg8 harg8 hc1 hc2 x0 x1 x2 x3 x4).2.1)

/-- What the second branch leaves in the output buffer, the scratch holding xs: its store read back. -/
def outB (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : ¬condA i) (hc2 : condB i) (x0 : Vec F S256x4096 .f32) (x1 : Vec F S512x2048 .i32) (x2 : Vec F S32x2048 .f32) (x3 : Vec F S32x2048 .f32) (x4 : Vec F S1x2048 .f32) (xs : Vec F S4096x2048 .bf16) : Vec F S256x2048 .f32 :=
  VO.read (Elt F) (VO.writes (Elt F) VO.junk (kernelRunB c i arg2 harg2 arg3 harg3 arg4 harg4 arg5 harg5 arg6 harg6 arg7 harg7 arg8 harg8 hc1 hc2 x0 x1 x2 x3 x4 xs).1)

/-! ## Point by point -/

/-- What the output buffer and the scratch hold after the body at position n: at a multiple of 32 the first
    branch's results; elsewhere the second branch's output over the scratch the point before left, and that same
    scratch (the second branch stores nothing into it). -/
def outsAt (c : Dev nD) : (n : ℕ) → n < cfg0.N → Vec F S256x2048 .f32 × Vec F S4096x2048 .bf16
  | 0, hn => (outA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM (Memref.isWhole_whole _) ((hcondA ⟨0, hn⟩).mpr (Nat.zero_mod _)) (fun h => (hcondB ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩),
              soutA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM (Memref.isWhole_whole _) ((hcondA ⟨0, hn⟩).mpr (Nat.zero_mod _)) (fun h => (hcondB ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 32 = 0 then
      (outA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM (Memref.isWhole_whole _) ((hcondA ⟨n + 1, hn⟩).mpr h0) (fun h => (hcondB ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       soutA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM (Memref.isWhole_whole _) ((hcondA ⟨n + 1, hn⟩).mpr h0) (fun h => (hcondB ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (outB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM (Memref.isWhole_whole _) (fun h => h0 ((hcondA ⟨n + 1, hn⟩).mp h)) ((hcondB ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2,
       (outsAt c n (Nat.lt_of_succ_lt hn)).2)

/-- At a point of the first branch. -/
theorem outsAt_A (c : Dev nD) (t : Fin cfg0.N) (h0 : t.val % 32 = 0) :
    outsAt m c t.val t.isLt = (outA c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) ((hcondA t).mpr h0) (fun h => (hcondB t).mp h h0) (iblk m c 0 t) (iblk m c 1 t) (iblk m c 2 t) (iblk m c 3 t) (iblk m c 4 t),
      soutA c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) ((hcondA t).mpr h0) (fun h => (hcondB t).mp h h0) (iblk m c 0 t) (iblk m c 1 t) (iblk m c 2 t) (iblk m c 3 t) (iblk m c 4 t)) := by
  obtain ⟨n, hn⟩ := t
  cases n with
  | zero => exact rfl
  | succ n => exact (dif_pos h0).trans rfl

/-- At a point of the second branch: over what the point before left in the scratch. -/
theorem outsAt_B (c : Dev nD) (t : Fin cfg0.N) (h0 : ¬t.val % 32 = 0) :
    outsAt m c t.val t.isLt = (outB c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => h0 ((hcondA t).mp h)) ((hcondB t).mpr h0) (iblk m c 0 t) (iblk m c 1 t) (iblk m c 2 t) (iblk m c 3 t) (iblk m c 4 t) (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: before the first point what the launch hands over (the scratch at
    anything); afterwards the scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The proof data of the one pipeline on core c: the arrays as the region finds them; after the body at point t
    each input's buffer at its block and the output's at the point's result; the invariant PhiS; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Kernel.Hand

end
-- ==== Proof.BFrame.lean ====
import proofs.«401313_j39213051412616_3_alg».proof.Proof.BData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, what the core owes, and each window's current
    staging buffer at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the position says which branch is taken. At a
    multiple of 32 the first branch runs from the scratch at anything and leaves it at its 32 slabs; elsewhere the
    second branch runs from the scratch at what the point before left and leaves it so. The core owes nothing
    throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [live0 0 t], after0_0]
  rw [show (dats m 0 c).leavesExact 1 t = owns (c : Thread nD τ) (ms0_1 t) fullShare ((dats m 0 c).after 1 t) from by
    unfold Dat.leavesExact; rw [live0 1 t], after0_1]
  rw [show (dats m 0 c).leavesExact 2 t = owns (c : Thread nD τ) (ms0_2 t) fullShare ((dats m 0 c).after 2 t) from by
    unfold Dat.leavesExact; rw [live0 2 t], after0_2]
  rw [show (dats m 0 c).leavesExact 3 t = owns (c : Thread nD τ) (ms0_3 t) fullShare ((dats m 0 c).after 3 t) from by
    unfold Dat.leavesExact; rw [live0 3 t], after0_3]
  rw [show (dats m 0 c).leavesExact 4 t = owns (c : Thread nD τ) (ms0_4 t) fullShare ((dats m 0 c).after 4 t) from by
    unfold Dat.leavesExact; rw [live0 4 t], after0_4]
  rw [show (dats m 0 c).leavesExact 5 t = owns (c : Thread nD τ) (ms0_5 t) fullShare ((dats m 0 c).after 5 t) from by
    unfold Dat.leavesExact; rw [live0 5 t], after0_5]
  by_cases h0 : t.val % 32 = 0
  · rw [outsAt_A m c t h0]
    unfold outA soutA; (try dsimp only)
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩⟩
      iapply ((kernelRunA c (grid0.coords t) _ _ _ _ _ _ _ _ _ _ _ _ _ _ ((hcondA t).mpr h0) (fun h => (hcondB t).mp h h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverAS c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 c _ _ _ _ _ _ _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((kernelRunA c (grid0.coords t) _ _ _ _ _ _ _ _ _ _ _ _ _ _ ((hcondA t).mpr h0) (fun h => (hcondB t).mp h h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverAS c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 c _ _ _ _ _ _ _ _ _ _ _ _ _ _ _ _ _ _ _ _ _ _)
  · have hz : t.val ≠ 0 := fun h => h0 (by rw [h])
    rw [outsAt_B m c t h0]
    unfold outB; (try dsimp only)
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ _ _ (fun h => h0 ((hcondA t).mp h)) ((hcondB t).mpr h0) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB5 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of the program terminates, and every final state
    has every array of the pipeline at what the library computes from the proof data and every other unscoped
    buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KBody.lean ====
import proofs.«401313_j39213051412616_3_alg».proof.Proof.Gen.KernelIdeal.Skeleton
import proofs.«401313_j39213051412616_3_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branches of the body, over the grid

The body branches twice on the second grid coordinate m: the first branch (m = 0) dequantises the weight tile into
the scratch and accumulates the product group by group; the second (m ≠ 0) multiplies by the scratch as the
point m = 0 of the same column tile left it. The grid runs m fastest, 32 values per column tile. -/

/-- The first branch is taken. -/
abbrev condA (i : grid0.Coords) : Prop := k0_cond1 i = 1#1
/-- The second branch is taken. -/
abbrev condB (i : grid0.Coords) : Prop := k0_cond2 i = 1#1

/-- The first branch is taken exactly at the points whose position is a multiple of 32. -/
theorem hcondA : ∀ t : Fin cfg0.N, condA (grid0.coords t) ↔ t.val % 32 = 0 :=
  (by decide +kernel : ∀ t : Fin grid0.N, condA (grid0.coords t) ↔ t.val % 32 = 0)
/-- The second branch is taken at all the other points. -/
theorem hcondB : ∀ t : Fin cfg0.N, condB (grid0.coords t) ↔ ¬ t.val % 32 = 0 :=
  (by decide +kernel : ∀ t : Fin grid0.N, condB (grid0.coords t) ↔ ¬ t.val % 32 = 0)

/-- No window is idle at any point: the inputs never are, and the output is stored at every point (one of the two
    branches is always taken). -/
theorem live0 : ∀ (w : Fin 6) (t : Fin cfg0.N), cfg0.idle w (grid0.coords t) = false := by decide +kernel

/-! ## The memrefs the body is called with -/

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
/-- The scratch: a whole scoped buffer of the kernel's own, carried from point to point. -/
abbrev scM : Memref sig .tc .vmem S4096x2048 .bf16 := Memref.whole cc0_scratch0
/-- The scratch as a view: what it holds is stated through it. -/
abbrev VS : View sig .tc .vmem S4096x2048 .bf16 := scM.view
/-- One staging buffer of the output window, through which its contents are stated. -/
abbrev VO : View sig .tc .vmem S256x2048 .f32 := (Memref.whole cc0_stg5_0 : Memref sig .tc .vmem S256x2048 .f32).view

/-- The region's invariant as the launch hands it over: the scratch owned at some contents, the generator register
    at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KRunA.lean ====
import proofs.«401313_j39213051412616_3_alg».proof.Proof.KBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The body at a point of the first branch (m = 0), on whole staging memrefs: the five inputs at their
    contents, the output buffer and the scratch at anything. It runs to the end, the inputs as they were; the
    scratch with 32 stores written, one slab of 128 rows per group (the group's dequantised weights); the output
    buffer with 34 stores written, each over the whole block: zero, then after each group the block read back
    plus that group's partial product, last the block read back plus the bias row. -/
noncomputable def kernelRunA (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i)
    (x0 : Vec F S256x4096 .f32) (x1 : Vec F S512x2048 .i32) (x2 : Vec F S32x2048 .f32) (x3 : Vec F S32x2048 .f32) (x4 : Vec F S1x2048 .f32) :
    Σ' (L5 : List (View.Piece (Elt F) S256x2048 .f32)), { LS : List (View.Piece (Elt F) S4096x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg2 harg2 arg3 harg3 arg4 harg4 arg5 harg5 arg6 harg6 arg7 harg7 arg8 harg8) K } := by
  refine ⟨?_, ?_, fun E K => ?run⟩
  case run =>
    simp only [cc0__matmul_kernel_eq_skeleton]; unfold cc0__matmul_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Hand

end
-- ==== Proof.KRunB.lean ====
import proofs.«401313_j39213051412616_3_alg».proof.Proof.KBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of the second branch (m ≠ 0), on whole staging memrefs: the five inputs at their
    contents, the output buffer at anything, the scratch at the contents xs the points before left. It runs to
    the end, the inputs and the scratch as they were, the output buffer with one store written: the product of
    the input block with the scratch, plus the bias row. -/
noncomputable def kernelRunB (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : ¬condA i) (hc2 : condB i)
    (x0 : Vec F S256x4096 .f32) (x1 : Vec F S512x2048 .i32) (x2 : Vec F S32x2048 .f32) (x3 : Vec F S32x2048 .f32) (x4 : Vec F S1x2048 .f32)
    (xs : Vec F S4096x2048 .bf16) :
    { L5 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xs) -∗ K ⟨⟩))
          ⊢ wp frame (wpE (defs₀ (F := F)) Variants.none c none) E (cc0__matmul_kernel i arg2 harg2 arg3 harg3 arg4 harg4 arg5 harg5 arg6 harg6 arg7 harg7 arg8 harg8) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS

end Cert.KernelIdeal.Hand

end
-- ==== Proof.KData.lean ====
import proofs.«401313_j39213051412616_3_alg».proof.Proof.KRunA
import proofs.«401313_j39213051412616_3_alg».proof.Proof.KRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch leaves in the output buffer and in the scratch -/

/-- The first branch's stores into the output buffer cover it (each of them is the whole block). -/
theorem coverA5 (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i) (x0 : Vec F S256x4096 .f32) (x1 : Vec F S512x2048 .i32) (x2 : Vec F S32x2048 .f32) (x3 : Vec F S32x2048 .f32) (x4 : Vec F S1x2048 .f32) (y : S256x2048.Idx) :
    ∃ pc ∈ (kernelRunA c i arg2 harg2 arg3 harg3 arg4 harg4 arg5 harg5 arg6 harg6 arg7 harg7 arg8 harg8 hc1 hc2 x0 x1 x2 x3 x4).1, y ∈ pc.1.set :=
  View.cover_of_tiledL (kernelRunA c i arg2 harg2 arg3 harg3 arg4 harg4 arg5 harg5 arg6 harg6 arg7 harg7 arg8 harg8 hc1 hc2 x0 x1 x2 x3 x4).1 S256x2048.size (by sl_kernel_rfl) y

/-- The first branch's stores into the scratch tile it: 32 slabs of 128 rows. -/
theorem coverAS (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i) (x0 : Vec F S256x4096 .f32) (x1 : Vec F S512x2048 .i32) (x2 : Vec F S32x2048 .f32) (x3 : Vec F S32x2048 .f32) (x4 : Vec F S1x2048 .f32) (y : S4096x2048.Idx) :
    ∃ pc ∈ (kernelRunA c i arg2 harg2 arg3 harg3 arg4 harg4 arg5 harg5 arg6 harg6 arg7 harg7 arg8 harg8 hc1 hc2 x0 x1 x2 x3 x4).2.1, y ∈ pc.1.set :=
  View.cover_of_tiledL (kernelRunA c i arg2 harg2 arg3 harg3 arg4 harg4 arg5 harg5 arg6 harg6 arg7 harg7 arg8 harg8 hc1 hc2 x0 x1 x2 x3 x4).2.1 S128x2048.size (by sl_kernel_rfl) y

/-- The second branch's one store into the output buffer covers it. -/
theorem coverB5 (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : ¬condA i) (hc2 : condB i) (x0 : Vec F S256x4096 .f32) (x1 : Vec F S512x2048 .i32) (x2 : Vec F S32x2048 .f32) (x3 : Vec F S32x2048 .f32) (x4 : Vec F S1x2048 .f32) (xs : Vec F S4096x2048 .bf16) (y : S256x2048.Idx) :
    ∃ pc ∈ (kernelRunB c i arg2 harg2 arg3 harg3 arg4 harg4 arg5 harg5 arg6 harg6 arg7 harg7 arg8 harg8 hc1 hc2 x0 x1 x2 x3 x4 xs).1, y ∈ pc.1.set :=
  View.cover_of_tiledL (kernelRunB c i arg2 harg2 arg3 harg3 arg4 harg4 arg5 harg5 arg6 harg6 arg7 harg7 arg8 harg8 hc1 hc2 x0 x1 x2 x3 x4 xs).1 S256x2048.size (by sl_kernel_rfl) y

/-- What the first branch leaves in the output buffer: its stores read back. -/
def outA (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i) (x0 : Vec F S256x4096 .f32) (x1 : Vec F S512x2048 .i32) (x2 : Vec F S32x2048 .f32) (x3 : Vec F S32x2048 .f32) (x4 : Vec F S1x2048 .f32) : Vec F S256x2048 .f32 :=
  VO.read (Elt F) (VO.writes (Elt F) VO.junk (kernelRunA c i arg2 harg2 arg3 harg3 arg4 harg4 arg5 harg5 arg6 harg6 arg7 harg7 arg8 harg8 hc1 hc2 x0 x1 x2 x3 x4).1)

/-- What the first branch leaves in the scratch: its stores read back. -/
def soutA (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i) (x0 : Vec F S256x4096 .f32) (x1 : Vec F S512x2048 .i32) (x2 : Vec F S32x2048 .f32) (x3 : Vec F S32x2048 .f32) (x4 : Vec F S1x2048 .f32) : Vec F S4096x2048 .bf16 :=
  VS.read (Elt F) (VS.writes (Elt F) VS.junk (kernelRunA c i arg2 harg2 arg3 harg3 arg4 harg4 arg5 harg5 arg6 harg6 arg7 harg7 arg8 harg8 hc1 hc2 x0 x1 x2 x3 x4).2.1)

/-- What the second branch leaves in the output buffer, the scratch holding xs: its store read back. -/
def outB (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : ¬condA i) (hc2 : condB i) (x0 : Vec F S256x4096 .f32) (x1 : Vec F S512x2048 .i32) (x2 : Vec F S32x2048 .f32) (x3 : Vec F S32x2048 .f32) (x4 : Vec F S1x2048 .f32) (xs : Vec F S4096x2048 .bf16) : Vec F S256x2048 .f32 :=
  VO.read (Elt F) (VO.writes (Elt F) VO.junk (kernelRunB c i arg2 harg2 arg3 harg3 arg4 harg4 arg5 harg5 arg6 harg6 arg7 harg7 arg8 harg8 hc1 hc2 x0 x1 x2 x3 x4 xs).1)

/-! ## Point by point -/

/-- What the output buffer and the scratch hold after the body at position n: at a multiple of 32 the first
    branch's results; elsewhere the second branch's output over the scratch the point before left, and that same
    scratch (the second branch stores nothing into it). -/
def outsAt (c : Dev nD) : (n : ℕ) → n < cfg0.N → Vec F S256x2048 .f32 × Vec F S4096x2048 .bf16
  | 0, hn => (outA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM (Memref.isWhole_whole _) ((hcondA ⟨0, hn⟩).mpr (Nat.zero_mod _)) (fun h => (hcondB ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩),
              soutA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM (Memref.isWhole_whole _) ((hcondA ⟨0, hn⟩).mpr (Nat.zero_mod _)) (fun h => (hcondB ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 32 = 0 then
      (outA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM (Memref.isWhole_whole _) ((hcondA ⟨n + 1, hn⟩).mpr h0) (fun h => (hcondB ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       soutA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM (Memref.isWhole_whole _) ((hcondA ⟨n + 1, hn⟩).mpr h0) (fun h => (hcondB ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (outB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM (Memref.isWhole_whole _) (fun h => h0 ((hcondA ⟨n + 1, hn⟩).mp h)) ((hcondB ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2,
       (outsAt c n (Nat.lt_of_succ_lt hn)).2)

/-- At a point of the first branch. -/
theorem outsAt_A (c : Dev nD) (t : Fin cfg0.N) (h0 : t.val % 32 = 0) :
    outsAt m c t.val t.isLt = (outA c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) ((hcondA t).mpr h0) (fun h => (hcondB t).mp h h0) (iblk m c 0 t) (iblk m c 1 t) (iblk m c 2 t) (iblk m c 3 t) (iblk m c 4 t),
      soutA c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) ((hcondA t).mpr h0) (fun h => (hcondB t).mp h h0) (iblk m c 0 t) (iblk m c 1 t) (iblk m c 2 t) (iblk m c 3 t) (iblk m c 4 t)) := by
  obtain ⟨n, hn⟩ := t
  cases n with
  | zero => exact rfl
  | succ n => exact (dif_pos h0).trans rfl

/-- At a point of the second branch: over what the point before left in the scratch. -/
theorem outsAt_B (c : Dev nD) (t : Fin cfg0.N) (h0 : ¬t.val % 32 = 0) :
    outsAt m c t.val t.isLt = (outB c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => h0 ((hcondA t).mp h)) ((hcondB t).mpr h0) (iblk m c 0 t) (iblk m c 1 t) (iblk m c 2 t) (iblk m c 3 t) (iblk m c 4 t) (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: before the first point what the launch hands over (the scratch at
    anything); afterwards the scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The proof data of the one pipeline on core c: the arrays as the region finds them; after the body at point t
    each input's buffer at its block and the output's at the point's result; the invariant PhiS; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Hand

end
-- ==== Proof.KFrame.lean ====
import proofs.«401313_j39213051412616_3_alg».proof.Proof.KData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, what the core owes, and each window's current
    staging buffer at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the position says which branch is taken. At a
    multiple of 32 the first branch runs from the scratch at anything and leaves it at its 32 slabs; elsewhere the
    second branch runs from the scratch at what the point before left and leaves it so. The core owes nothing
    throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [live0 0 t], after0_0]
  rw [show (dats m 0 c).leavesExact 1 t = owns (c : Thread nD τ) (ms0_1 t) fullShare ((dats m 0 c).after 1 t) from by
    unfold Dat.leavesExact; rw [live0 1 t], after0_1]
  rw [show (dats m 0 c).leavesExact 2 t = owns (c : Thread nD τ) (ms0_2 t) fullShare ((dats m 0 c).after 2 t) from by
    unfold Dat.leavesExact; rw [live0 2 t], after0_2]
  rw [show (dats m 0 c).leavesExact 3 t = owns (c : Thread nD τ) (ms0_3 t) fullShare ((dats m 0 c).after 3 t) from by
    unfold Dat.leavesExact; rw [live0 3 t], after0_3]
  rw [show (dats m 0 c).leavesExact 4 t = owns (c : Thread nD τ) (ms0_4 t) fullShare ((dats m 0 c).after 4 t) from by
    unfold Dat.leavesExact; rw [live0 4 t], after0_4]
  rw [show (dats m 0 c).leavesExact 5 t = owns (c : Thread nD τ) (ms0_5 t) fullShare ((dats m 0 c).after 5 t) from by
    unfold Dat.leavesExact; rw [live0 5 t], after0_5]
  by_cases h0 : t.val % 32 = 0
  · rw [outsAt_A m c t h0]
    unfold outA soutA; (try dsimp only)
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩⟩
      iapply ((kernelRunA c (grid0.coords t) _ _ _ _ _ _ _ _ _ _ _ _ _ _ ((hcondA t).mpr h0) (fun h => (hcondB t).mp h h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverAS c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 c _ _ _ _ _ _ _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((kernelRunA c (grid0.coords t) _ _ _ _ _ _ _ _ _ _ _ _ _ _ ((hcondA t).mpr h0) (fun h => (hcondB t).mp h h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverAS c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 c _ _ _ _ _ _ _ _ _ _ _ _ _ _ _ _ _ _ _ _ _ _)
  · have hz : t.val ≠ 0 := fun h => h0 (by rw [h])
    rw [outsAt_B m c t h0]
    unfold outB; (try dsimp only)
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ _ _ (fun h => h0 ((hcondA t).mp h)) ((hcondB t).mpr h0) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB5 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of the program terminates, and every final state
    has every array of the pipeline at what the library computes from the proof data and every other unscoped
    buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KSpec.lean ====
import proofs.«401313_j39213051412616_3_alg».proof.Proof.KData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the first branch computes, group by group

Group g of the 32 reads 16 packed rows of the weight block (rows 16g .. 16g+15), row g of the scale block and
row g of the scaled-zero block, and dequantises them to 128 rows of weights; these are stored as rows
128g .. 128g+127 of the scratch, and the product of columns 128g .. 128g+127 of the input block with them is
added to the output block, which starts from zero. After the last group the bias row is added. -/

theorem hz2 : (![0, 0] : Fin 2 → Nat) = fun _ => 0 := funext fun a => by fin_cases a <;> rfl

/-- A load of the whole block after a list of stores whose LAST one is a store of the whole block reads that
    store's payload. -/
theorem readCov_cons_whole {sg : RefSig} {κ : Kind} {sp : Space} {S : Shape} {e : EltTy}
    (v : View sg κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem chunkInb (g : Fin 32) : ∀ a, (![16 * g.val, 0] : Fin 2 → Nat) a + S16x2048.size a ≤ S512x2048.size a := by
  intro a; have := g.isLt; fin_cases a <;> simp <;> omega
theorem rowInb (g : Fin 32) : ∀ a, (![g.val, 0] : Fin 2 → Nat) a + S1x2048.size a ≤ S32x2048.size a := by
  intro a; have := g.isLt; fin_cases a <;> simp <;> omega
theorem slabInb (g : Fin 32) : ∀ a, (![128 * g.val, 0] : Fin 2 → Nat) a + S128x2048.size a ≤ S4096x2048.size a := by
  intro a; have := g.isLt; fin_cases a <;> simp <;> omega
theorem colsEv (g : Fin 32) : S256x4096.Slices ![0, 128 * g.val] S256x128 := by
  refine ⟨rfl, fun a => ?_⟩; have := g.isLt; fin_cases a <;> simp <;> omega

/-- Group g's 128 rows of dequantised weights, from the weight block x1, the scaled-zero block x2 and the
    scale block x3. -/
def Wblk (x1 : Vec F S512x2048 .i32) (x2 x3 : Vec F S32x2048 .f32) (g : Fin 32) : FVec F S128x2048 .bf16 :=
  k0_pay7 (View.ld x1 (Rect.unit ![16 * g.val, 0] S16x2048.size (chunkInb g)))
    (View.ld x3 (Rect.unit ![g.val, 0] S1x2048.size (rowInb g)))
    (View.ld x2 (Rect.unit ![g.val, 0] S1x2048.size (rowInb g)))

/-- The scratch's stores of the first branch, last first: slab g at group g's weights. -/
def slabs (x1 : Vec F S512x2048 .i32) (x2 x3 : Vec F S32x2048 .f32) : List (View.Piece (Elt F) S4096x2048 .bf16) :=
  (List.finRange 32).reverse.map fun g =>
    (⟨Rect.unit ![128 * g.val, 0] S128x2048.size (slabInb g),
      shapeCast S128x2048 (Wblk x1 x2 x3 g) shapeCasts_S128x2048_S128x2048⟩ : View.Piece (Elt F) S4096x2048 .bf16)

/-- The output block after the first n groups: zero, then group after group the block plus the product of the
    group's columns of the input block x0 with the group's weights. -/
def accN (x0 : Vec F S256x4096 .f32) (x1 : Vec F S512x2048 .i32) (x2 x3 : Vec F S32x2048 .f32) : ℕ → FVec F S256x2048 .f32
  | 0 => k0_pay5
  | n + 1 =>
    if h : n < 32 then
      addf (shapeCast S256x2048 (accN x0 x1 x2 x3 n) shapeCasts_S256x2048_S256x2048)
        (matmul dot_S256x128_S128x2048_S256x2048_1_0_0_1_n_n none
          (extractStridedSlice S256x128 ![0, 128 * n] (k0_pay1 x0) (colsEv ⟨n, h⟩))
          (Wblk x1 x2 x3 ⟨n, h⟩) (constant S256x2048 .f32 0x00000000#32))
    else accN x0 x1 x2 x3 n

/-- What the first branch leaves in the output block: all 32 groups accumulated, plus the bias row x4. -/
def outAfun (x0 : Vec F S256x4096 .f32) (x1 : Vec F S512x2048 .i32) (x2 x3 : Vec F S32x2048 .f32) (x4 : Vec F S1x2048 .f32) :
    FVec F S256x2048 .f32 :=
  k0_pay3 (accN x0 x1 x2 x3 32) x4

end Cert.KernelIdeal.Hand

end
-- ==== Proof.KAcc.lean ====
import proofs.«401313_j39213051412616_3_alg».proof.Proof.KSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The block read back after the first store (the zero fill) is the accumulator before any group. -/
theorem v36_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v36 (F := F) c arg7 = accN x0 x1 x2 x3 0 := by
  unfold kernelRunA.sl.v36 kernelRunA.sl.H5_1
  exact readCov_cons_whole _ hz2 _ _ _

/-- The block read back after store 2 is the accumulator after 1 group(s): the store's payload is the block read
    back before it plus the group's product. -/
theorem v63_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v63 c arg2 harg2 arg3 harg3 arg4 harg4 arg5 harg5 arg7 x0 x1 x2 x3 = accN x0 x1 x2 x3 1 := by
  unfold kernelRunA.sl.v63 kernelRunA.sl.H5_2
  rw [readCov_cons_whole _ hz2]
  simp only [v36_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 3 is the accumulator after 2 group(s): the store's payload is the block read
    back before it plus the group's product. -/
theorem v90_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v90 c arg2 harg2 arg3 harg3 arg4 harg4 arg5 harg5 arg7 x0 x1 x2 x3 = accN x0 x1 x2 x3 2 := by
  unfold kernelRunA.sl.v90 kernelRunA.sl.H5_3
  rw [readCov_cons_whole _ hz2]
  simp only [v63_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 4 is the accumulator after 3 group(s): the store's payload is the block read
    back before it plus the group's product. -/
theorem v117_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v117 c arg2 harg2 arg3 harg3 arg4 harg4 arg5 harg5 arg7 x0 x1 x2 x3 = accN x0 x1 x2 x3 3 := by
  unfold kernelRunA.sl.v117 kernelRunA.sl.H5_4
  rw [readCov_cons_whole _ hz2]
  simp only [v90_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 5 is the accumulator after 4 group(s): the store's payload is the block read
    back before it plus the group's product. -/
theorem v144_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v144 c arg2 harg2 arg3 harg3 arg4 harg4 arg5 harg5 arg7 x0 x1 x2 x3 = accN x0 x1 x2 x3 4 := by
  unfold kernelRunA.sl.v144 kernelRunA.sl.H5_5
  rw [readCov_cons_whole _ hz2]
  simp only [v117_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 6 is the accumulator after 5 group(s): the store's payload is the block read
    back before it plus the group's product. -/
theorem v171_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v171 c arg2 harg2 arg3 harg3 arg4 harg4 arg5 harg5 arg7 x0 x1 x2 x3 = accN x0 x1 x2 x3 5 := by
  unfold kernelRunA.sl.v171 kernelRunA.sl.H5_6
  rw [readCov_cons_whole _ hz2]
  simp only [v144_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 7 is the accumulator after 6 group(s): the store's payload is the block read
    back before it plus the group's product. -/
theorem v198_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v198 c arg2 harg2 arg3 harg3 arg4 harg4 arg5 harg5 arg7 x0 x1 x2 x3 = accN x0 x1 x2 x3 6 := by
  unfold kernelRunA.sl.v198 kernelRunA.sl.H5_7
  rw [readCov_cons_whole _ hz2]
  simp only [v171_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 8 is the accumulator after 7 group(s): the store's payload is the block read
    back before it plus the group's product. -/
theorem v225_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v225 c arg2 harg2 arg3 harg3 arg4 harg4 arg5 harg5 arg7 x0 x1 x2 x3 = accN x0 x1 x2 x3 7 := by
  unfold kernelRunA.sl.v225 kernelRunA.sl.H5_8
  rw [readCov_cons_whole _ hz2]
  simp only [v198_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 9 is the accumulator after 8 group(s): the store's payload is the block read
    back before it plus the group's product. -/
theorem v252_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v252 c arg2 harg2 arg3 harg3 arg4 harg4 arg5 harg5 arg7 x0 x1 x2 x3 = accN x0 x1 x2 x3 8 := by
  unfold kernelRunA.sl.v252 kernelRunA.sl.H5_9
  rw [readCov_cons_whole _ hz2]
  simp only [v225_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 10 is the accumulator after 9 group(s): the store's payload is the block read
    back before it plus the group's product. -/
theorem v279_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v279 c arg2 harg2 arg3 harg3 arg4 harg4 arg5 harg5 arg7 x0 x1 x2 x3 = accN x0 x1 x2 x3 9 := by
  unfold kernelRunA.sl.v279 kernelRunA.sl.H5_10
  rw [readCov_cons_whole _ hz2]
  simp only [v252_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 11 is the accumulator after 10 group(s): the store's payload is the block read
    back before it plus the group's product. -/
theorem v306_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v306 c arg2 harg2 arg3 harg3 arg4 harg4 arg5 harg5 arg7 x0 x1 x2 x3 = accN x0 x1 x2 x3 10 := by
  unfold kernelRunA.sl.v306 kernelRunA.sl.H5_11
  rw [readCov_cons_whole _ hz2]
  simp only [v279_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 12 is the accumulator after 11 group(s): the store's payload is the block read
    back before it plus the group's product. -/
theorem v333_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v333 c arg2 harg2 arg3 harg3 arg4 harg4 arg5 harg5 arg7 x0 x1 x2 x3 = accN x0 x1 x2 x3 11 := by
  unfold kernelRunA.sl.v333 kernelRunA.sl.H5_12
  rw [readCov_cons_whole _ hz2]
  simp only [v306_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 13 is the accumulator after 12 group(s): the store's payload is the block read
    back before it plus the group's product. -/
theorem v360_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v360 c arg2 harg2 arg3 harg3 arg4 harg4 arg5 harg5 arg7 x0 x1 x2 x3 = accN x0 x1 x2 x3 12 := by
  unfold kernelRunA.sl.v360 kernelRunA.sl.H5_13
  rw [readCov_cons_whole _ hz2]
  simp only [v333_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 14 is the accumulator after 13 group(s): the store's payload is the block read
    back before it plus the group's product. -/
theorem v387_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v387 c arg2 harg2 arg3 harg3 arg4 harg4 arg5 harg5 arg7 x0 x1 x2 x3 = accN x0 x1 x2 x3 13 := by
  unfold kernelRunA.sl.v387 kernelRunA.sl.H5_14
  rw [readCov_cons_whole _ hz2]
  simp only [v360_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 15 is the accumulator after 14 group(s): the store's payload is the block read
    back before it plus the group's product. -/
theorem v414_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v414 c arg2 harg2 arg3 harg3 arg4 harg4 arg5 harg5 arg7 x0 x1 x2 x3 = accN x0 x1 x2 x3 14 := by
  unfold kernelRunA.sl.v414 kernelRunA.sl.H5_15
  rw [readCov_cons_whole _ hz2]
  simp only [v387_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 16 is the accumulator after 15 group(s): the store's payload is the block read
    back before it plus the group's product. -/
theorem v441_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v441 c arg2 harg2 arg3 harg3 arg4 harg4 arg5 harg5 arg7 x0 x1 x2 x3 = accN x0 x1 x2 x3 15 := by
  unfold kernelRunA.sl.v441 kernelRunA.sl.H5_16
  rw [readCov_cons_whole _ hz2]
  simp only [v414_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 17 is the accumulator after 16 group(s): the store's payload is the block read
    back before it plus the group's product. -/
theorem v468_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v468 c arg2 harg2 arg3 harg3 arg4 harg4 arg5 harg5 arg7 x0 x1 x2 x3 = accN x0 x1 x2 x3 16 := by
  unfold kernelRunA.sl.v468 kernelRunA.sl.H5_17
  rw [readCov_cons_whole _ hz2]
  simp only [v441_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 18 is the accumulator after 17 group(s): the store's payload is the block read
    back before it plus the group's product. -/
theorem v495_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v495 c arg2 harg2 arg3 harg3 arg4 harg4 arg5 harg5 arg7 x0 x1 x2 x3 = accN x0 x1 x2 x3 17 := by
  unfold kernelRunA.sl.v495 kernelRunA.sl.H5_18
  rw [readCov_cons_whole _ hz2]
  simp only [v468_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 19 is the accumulator after 18 group(s): the store's payload is the block read
    back before it plus the group's product. -/
theorem v522_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v522 c arg2 harg2 arg3 harg3 arg4 harg4 arg5 harg5 arg7 x0 x1 x2 x3 = accN x0 x1 x2 x3 18 := by
  unfold kernelRunA.sl.v522 kernelRunA.sl.H5_19
  rw [readCov_cons_whole _ hz2]
  simp only [v495_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 20 is the accumulator after 19 group(s): the store's payload is the block read
    back before it plus the group's product. -/
theorem v549_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v549 c arg2 harg2 arg3 harg3 arg4 harg4 arg5 harg5 arg7 x0 x1 x2 x3 = accN x0 x1 x2 x3 19 := by
  unfold kernelRunA.sl.v549 kernelRunA.sl.H5_20
  rw [readCov_cons_whole _ hz2]
  simp only [v522_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 21 is the accumulator after 20 group(s): the store's payload is the block read
    back before it plus the group's product. -/
theorem v576_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v576 c arg2 harg2 arg3 harg3 arg4 harg4 arg5 harg5 arg7 x0 x1 x2 x3 = accN x0 x1 x2 x3 20 := by
  unfold kernelRunA.sl.v576 kernelRunA.sl.H5_21
  rw [readCov_cons_whole _ hz2]
  simp only [v549_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 22 is the accumulator after 21 group(s): the store's payload is the block read
    back before it plus the group's product. -/
theorem v603_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v603 c arg2 harg2 arg3 harg3 arg4 harg4 arg5 harg5 arg7 x0 x1 x2 x3 = accN x0 x1 x2 x3 21 := by
  unfold kernelRunA.sl.v603 kernelRunA.sl.H5_22
  rw [readCov_cons_whole _ hz2]
  simp only [v576_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 23 is the accumulator after 22 group(s): the store's payload is the block read
    back before it plus the group's product. -/
theorem v630_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v630 c arg2 harg2 arg3 harg3 arg4 harg4 arg5 harg5 arg7 x0 x1 x2 x3 = accN x0 x1 x2 x3 22 := by
  unfold kernelRunA.sl.v630 kernelRunA.sl.H5_23
  rw [readCov_cons_whole _ hz2]
  simp only [v603_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 24 is the accumulator after 23 group(s): the store's payload is the block read
    back before it plus the group's product. -/
theorem v657_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v657 c arg2 harg2 arg3 harg3 arg4 harg4 arg5 harg5 arg7 x0 x1 x2 x3 = accN x0 x1 x2 x3 23 := by
  unfold kernelRunA.sl.v657 kernelRunA.sl.H5_24
  rw [readCov_cons_whole _ hz2]
  simp only [v630_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 25 is the accumulator after 24 group(s): the store's payload is the block read
    back before it plus the group's product. -/
theorem v684_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v684 c arg2 harg2 arg3 harg3 arg4 harg4 arg5 harg5 arg7 x0 x1 x2 x3 = accN x0 x1 x2 x3 24 := by
  unfold kernelRunA.sl.v684 kernelRunA.sl.H5_25
  rw [readCov_cons_whole _ hz2]
  simp only [v657_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 26 is the accumulator after 25 group(s): the store's payload is the block read
    back before it plus the group's product. -/
theorem v711_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v711 c arg2 harg2 arg3 harg3 arg4 harg4 arg5 harg5 arg7 x0 x1 x2 x3 = accN x0 x1 x2 x3 25 := by
  unfold kernelRunA.sl.v711 kernelRunA.sl.H5_26
  rw [readCov_cons_whole _ hz2]
  simp only [v684_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 27 is the accumulator after 26 group(s): the store's payload is the block read
    back before it plus the group's product. -/
theorem v738_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v738 c arg2 harg2 arg3 harg3 arg4 harg4 arg5 harg5 arg7 x0 x1 x2 x3 = accN x0 x1 x2 x3 26 := by
  unfold kernelRunA.sl.v738 kernelRunA.sl.H5_27
  rw [readCov_cons_whole _ hz2]
  simp only [v711_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 28 is the accumulator after 27 group(s): the store's payload is the block read
    back before it plus the group's product. -/
theorem v765_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v765 c arg2 harg2 arg3 harg3 arg4 harg4 arg5 harg5 arg7 x0 x1 x2 x3 = accN x0 x1 x2 x3 27 := by
  unfold kernelRunA.sl.v765 kernelRunA.sl.H5_28
  rw [readCov_cons_whole _ hz2]
  simp only [v738_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 29 is the accumulator after 28 group(s): the store's payload is the block read
    back before it plus the group's product. -/
theorem v792_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v792 c arg2 harg2 arg3 harg3 arg4 harg4 arg5 harg5 arg7 x0 x1 x2 x3 = accN x0 x1 x2 x3 28 := by
  unfold kernelRunA.sl.v792 kernelRunA.sl.H5_29
  rw [readCov_cons_whole _ hz2]
  simp only [v765_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 30 is the accumulator after 29 group(s): the store's payload is the block read
    back before it plus the group's product. -/
theorem v819_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v819 c arg2 harg2 arg3 harg3 arg4 harg4 arg5 harg5 arg7 x0 x1 x2 x3 = accN x0 x1 x2 x3 29 := by
  unfold kernelRunA.sl.v819 kernelRunA.sl.H5_30
  rw [readCov_cons_whole _ hz2]
  simp only [v792_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 31 is the accumulator after 30 group(s): the store's payload is the block read
    back before it plus the group's product. -/
theorem v846_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v846 c arg2 harg2 arg3 harg3 arg4 harg4 arg5 harg5 arg7 x0 x1 x2 x3 = accN x0 x1 x2 x3 30 := by
  unfold kernelRunA.sl.v846 kernelRunA.sl.H5_31
  rw [readCov_cons_whole _ hz2]
  simp only [v819_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 32 is the accumulator after 31 group(s): the store's payload is the block read
    back before it plus the group's product. -/
theorem v873_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v873 c arg2 harg2 arg3 harg3 arg4 harg4 arg5 harg5 arg7 x0 x1 x2 x3 = accN x0 x1 x2 x3 31 := by
  unfold kernelRunA.sl.v873 kernelRunA.sl.H5_32
  rw [readCov_cons_whole _ hz2]
  simp only [v846_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

/-- The block read back after store 33 is the accumulator after 32 group(s): the store's payload is the block read
    back before it plus the group's product. -/
theorem v878_eq (c : Dev nD) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg7 : Memref sig .tc .vmem S256x2048 .f32) (x0 : Vec F S256x4096 .f32) (x1 : Vec F S512x2048 .i32) (x2 x3 : Vec F S32x2048 .f32) : kernelRunA.sl.v878 c arg2 harg2 arg3 harg3 arg4 harg4 arg5 harg5 arg7 x0 x1 x2 x3 = accN x0 x1 x2 x3 32 := by
  unfold kernelRunA.sl.v878 kernelRunA.sl.H5_33
  rw [readCov_cons_whole _ hz2]
  simp only [v873_eq c arg2 harg2 arg3 harg3 arg4 harg4 arg5 harg5 arg7 x0 x1 x2 x3, kernelRunA.sl.r, kernelRunA.sl.cst_361, kernelRunA.sl.r_1, kernelRunA.sl.r_2, kernelRunA.sl.r_3, kernelRunA.sl.r_4, kernelRunA.sl.r_5, kernelRunA.sl.r_6, kernelRunA.sl.r_7, kernelRunA.sl.r_8, kernelRunA.sl.r_9, kernelRunA.sl.r_10, kernelRunA.sl.r_11, kernelRunA.sl.r_12, kernelRunA.sl.r_13, kernelRunA.sl.r_14, kernelRunA.sl.r_15, kernelRunA.sl.r_16, kernelRunA.sl.r_17, kernelRunA.sl.r_18, kernelRunA.sl.r_19, kernelRunA.sl.r_20, kernelRunA.sl.r_21, kernelRunA.sl.r_22, kernelRunA.sl.r_23, kernelRunA.sl.r_24, kernelRunA.sl.r_25, kernelRunA.sl.r_26, kernelRunA.sl.r_27, kernelRunA.sl.r_28, kernelRunA.sl.r_29, kernelRunA.sl.r_30, kernelRunA.sl.r_31, kernelRunA.sl.r_32, kernelRunA.sl.r_33, kernelRunA.sl.r_34, kernelRunA.sl.r_35, kernelRunA.sl.r_36, kernelRunA.sl.r_37, View.readAt_eq_ld, Memref.IsWhole.read_unread, View.ld_unit_zero (S := S256x4096) hz2]
  rfl

end Cert.KernelIdeal.Hand

end
-- ==== Proof.KTile.lean ====
import proofs.«401313_j39213051412616_3_alg».proof.Proof.KSpec
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The whole scratch after the first branch, as one function of its index: row i is row i % 128 of group
    i / 128's weights. -/
def Wtile (x1 : Vec F S512x2048 .i32) (x2 x3 : Vec F S32x2048 .f32) : Vec F S4096x2048 .bf16 :=
  fun y => Wblk x1 x2 x3 ⟨(y 0).val / 128, by have h : (y 0).val < 4096 := (y 0).isLt; omega⟩
    (ix2 (⟨(y 0).val % 128, by omega⟩ : Fin 128) (⟨(y 1).val, (y 1).isLt⟩ : Fin 2048))

end Cert.KernelIdeal.Hand

end
-- ==== Proof.KPieces.lean ====
import proofs.«401313_j39213051412616_3_alg».proof.Proof.KAcc
import proofs.«401313_j39213051412616_3_alg».proof.Proof.KTile
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## What each branch leaves, as functions of the blocks -/

/-- The first branch's stores into the scratch are the 32 slabs, last first. -/
theorem slabs_eq (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i) (x0 : Vec F S256x4096 .f32) (x1 : Vec F S512x2048 .i32) (x2 : Vec F S32x2048 .f32) (x3 : Vec F S32x2048 .f32) (x4 : Vec F S1x2048 .f32) :
    (kernelRunA c i arg2 harg2 arg3 harg3 arg4 harg4 arg5 harg5 arg6 harg6 arg7 harg7 arg8 harg8 hc1 hc2 x0 x1 x2 x3 x4).2.1 = slabs x1 x2 x3 := by
  unfold kernelRunA
  dsimp only
  sl_unfold_run_names
  simp only [View.readAt_eq_ld, Memref.IsWhole.read_unread]
  rfl

/-- The first branch leaves the output block at all 32 groups accumulated plus the bias row: its last store is the
    whole block, its payload the block read back after the 33 stores before it plus the bias. -/
theorem outA_eq (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i) (x0 : Vec F S256x4096 .f32) (x1 : Vec F S512x2048 .i32) (x2 : Vec F S32x2048 .f32) (x3 : Vec F S32x2048 .f32) (x4 : Vec F S1x2048 .f32) :
    outA c i arg2 harg2 arg3 harg3 arg4 harg4 arg5 harg5 arg6 harg6 arg7 harg7 arg8 harg8 hc1 hc2 x0 x1 x2 x3 x4 = outAfun x0 x1 x2 x3 x4 := by
  unfold outA
  rw [View.read_writes_eq_canon _ _ _ (coverA5 c i arg2 harg2 arg3 harg3 arg4 harg4 arg5 harg5 arg6 harg6 arg7 harg7 arg8 harg8 hc1 hc2 x0 x1 x2 x3 x4)]
  unfold kernelRunA
  dsimp only
  rw [View.canon_cons_unit_zero hz2]
  rw [v878_eq c arg2 harg2 arg3 harg3 arg4 harg4 arg5 harg5 arg7 x0 x1 x2 x3]
  simp only [View.readAt_eq_ld, Memref.IsWhole.read_unread, View.ld_unit_zero (S := S1x2048) hz2]
  rfl

/-- The second branch leaves the output block at the product of the input block with the scratch, plus the bias. -/
theorem outB_eq (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : ¬condA i) (hc2 : condB i) (x0 : Vec F S256x4096 .f32) (x1 : Vec F S512x2048 .i32) (x2 : Vec F S32x2048 .f32) (x3 : Vec F S32x2048 .f32) (x4 : Vec F S1x2048 .f32) (xs : Vec F S4096x2048 .bf16) :
    outB c i arg2 harg2 arg3 harg3 arg4 harg4 arg5 harg5 arg6 harg6 arg7 harg7 arg8 harg8 hc1 hc2 x0 x1 x2 x3 x4 xs = k0_pay4 x0 xs x4 := by
  unfold outB
  rw [View.read_writes_eq_canon _ _ _ (coverB5 c i arg2 harg2 arg3 harg3 arg4 harg4 arg5 harg5 arg6 harg6 arg7 harg7 arg8 harg8 hc1 hc2 x0 x1 x2 x3 x4 xs)]
  unfold kernelRunB
  dsimp only
  rw [View.canon_unit_zero hz2]
  simp only [View.readAt_eq_ld, Memref.IsWhole.read_unread, View.ld_unit_zero (S := S256x4096) hz2,
    View.ld_unit_zero (S := S4096x2048) hz2, View.ld_unit_zero (S := S1x2048) hz2]

/-- Slab g's rectangle sends its local index (a, b) to row 128 g + a, column b of the scratch. -/
theorem slab_emb (g : Fin 32) (x : S128x2048.Idx) :
    ((Rect.unit ![128 * g.val, 0] S128x2048.size (slabInb g) : Rect S4096x2048).emb x 0).val = 128 * g.val + (x 0).val
    ∧ ((Rect.unit ![128 * g.val, 0] S128x2048.size (slabInb g) : Rect S4096x2048).emb x 1).val = (x 1).val := by
  constructor
  · show 128 * g.val + 1 * (x 0).val = _; omega
  · show 0 + 1 * (x 1).val = _; omega

/-- Wtile at a scratch index lying in slab g, at local index x, is group g's weights at x. -/
theorem Wtile_slab (x1 : Vec F S512x2048 .i32) (x2 x3 : Vec F S32x2048 .f32) (g : Fin 32) (y : S4096x2048.Idx) (x : S128x2048.Idx)
    (h0 : (y 0).val = 128 * g.val + (x 0).val) (h1 : (y 1).val = (x 1).val) : Wtile x1 x2 x3 y = Wblk x1 x2 x3 g x := by
  unfold Wtile
  have hx : (x 0).val < 128 := (x 0).isLt
  have hg : (⟨(y 0).val / 128, by have h : (y 0).val < 4096 := (y 0).isLt; omega⟩ : Fin 32) = g :=
    Fin.ext (by show (y 0).val / 128 = g.val; omega)
  have hi : ix2 (⟨(y 0).val % 128, by omega⟩ : Fin 128) (⟨(y 1).val, (y 1).isLt⟩ : Fin 2048) = x := by
    funext a
    match a with
    | ⟨0, _⟩ => exact Fin.ext (by show (y 0).val % 128 = (x 0).val; omega)
    | ⟨1, _⟩ => exact Fin.ext (by show (y 1).val = (x 1).val; exact h1)
  rw [hg, hi]

/-- The first branch leaves the scratch at the one function Wtile: every slab is a block of it, and the slabs
    cover the scratch. -/
theorem soutA_eq (c : Dev nD) (i : grid0.Coords) (arg2 : Memref sig .tc .vmem S256x4096 .f32) (harg2 : arg2.IsWhole) (arg3 : Memref sig .tc .vmem S512x2048 .i32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S4096x2048 .bf16) (harg8 : arg8.IsWhole) (hc1 : condA i) (hc2 : ¬condB i) (x0 : Vec F S256x4096 .f32) (x1 : Vec F S512x2048 .i32) (x2 : Vec F S32x2048 .f32) (x3 : Vec F S32x2048 .f32) (x4 : Vec F S1x2048 .f32) :
    soutA c i arg2 harg2 arg3 harg3 arg4 harg4 arg5 harg5 arg6 harg6 arg7 harg7 arg8 harg8 hc1 hc2 x0 x1 x2 x3 x4 = Wtile x1 x2 x3 := by
  unfold soutA
  rw [View.read_writes_eq_canon _ _ _ (coverAS c i arg2 harg2 arg3 harg3 arg4 harg4 arg5 harg5 arg6 harg6 arg7 harg7 arg8 harg8 hc1 hc2 x0 x1 x2 x3 x4)]
  have hcov := coverAS c i arg2 harg2 arg3 harg3 arg4 harg4 arg5 harg5 arg6 harg6 arg7 harg7 arg8 harg8 hc1 hc2 x0 x1 x2 x3 x4
  rw [slabs_eq] at hcov ⊢
  funext y
  refine View.canon_apply_of_pieces (Wtile x1 x2 x3) (slabs x1 x2 x3) ?_ y (hcov y)
  intro p hp x
  obtain ⟨g, -, rfl⟩ := List.mem_map.mp hp
  obtain ⟨e0, e1⟩ := slab_emb g x
  show shapeCast S128x2048 (Wblk x1 x2 x3 g) shapeCasts_S128x2048_S128x2048 x = Wtile x1 x2 x3 _
  rw [shapeCast_self]
  exact (Wtile_slab x1 x2 x3 g _ x e0 e1).symm

end Cert.KernelIdeal.Hand

end
-- ==== Proof.KBlocks.lean ====
import proofs.«401313_j39213051412616_3_alg».proof.Proof.KData
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The windows' blocks and arrays under their literal types

Point t = 32 n + k of the grid (n the column tile, k the row tile) stages rows 256 k .. 256 k + 255 of the
input matrix, and columns 2048 n .. 2048 n + 2047 of the packed weights, the scaled zero points, the scales and
the bias row; it writes back rows 256 k .., columns 2048 n .. of the output matrix. -/

/-- The five input blocks at point t, each under its literal type. -/
abbrev blk0 (c : Dev nD) (t : Fin cfg0.N) : Vec F S256x4096 .f32 := iblk m c 0 t
abbrev blk1 (c : Dev nD) (t : Fin cfg0.N) : Vec F S512x2048 .i32 := iblk m c 1 t
abbrev blk2 (c : Dev nD) (t : Fin cfg0.N) : Vec F S32x2048 .f32 := iblk m c 2 t
abbrev blk3 (c : Dev nD) (t : Fin cfg0.N) : Vec F S32x2048 .f32 := iblk m c 3 t
abbrev blk4 (c : Dev nD) (t : Fin cfg0.N) : Vec F S1x2048 .f32 := iblk m c 4 t

/-- The six arrays as the region finds them, each under its literal type. -/
abbrev arrX (c : Dev nD) : Vec F S8192x4096 .f32 := V m c main_v16
abbrev arrQ (c : Dev nD) : Vec F S512x4096 .i32 := V m c main_arg1
abbrev arrZ (c : Dev nD) : Vec F S32x4096 .f32 := V m c main_v14
abbrev arrS (c : Dev nD) : Vec F S32x4096 .f32 := V m c main_arg3
abbrev arrB (c : Dev nD) : Vec F S1x4096 .f32 := V m c main_v15

theorem pt_lt (t : Fin cfg0.N) : t.val < 64 := lt_of_lt_of_eq t.isLt (show cfg0.N = 64 from N_0)

/-- The windows' block indices over the grid: the input matrix moves with the row tile t % 32, the weights, zero
    points, scales and bias with the column tile t / 32, the output with both. -/
theorem idx_facts : ∀ t : Fin cfg0.N,
    win0_0.index t (0 : Fin 2) = t.val % 32 ∧ win0_0.index t (1 : Fin 2) = 0
    ∧ win0_1.index t (0 : Fin 2) = 0 ∧ win0_1.index t (1 : Fin 2) = t.val / 32
    ∧ win0_2.index t (0 : Fin 2) = 0 ∧ win0_2.index t (1 : Fin 2) = t.val / 32
    ∧ win0_3.index t (0 : Fin 2) = 0 ∧ win0_3.index t (1 : Fin 2) = t.val / 32
    ∧ win0_4.index t (0 : Fin 2) = 0 ∧ win0_4.index t (1 : Fin 2) = t.val / 32
    ∧ win0_5.index t (0 : Fin 2) = t.val % 32 ∧ win0_5.index t (1 : Fin 2) = t.val / 32 :=
  (by decide +kernel : ∀ t : Fin grid0.N, _)

theorem blk0_apply (c : Dev nD) (t : Fin cfg0.N) (r : Fin 256) (i : Fin 4096) :
    blk0 m c t (ix2 r i) = arrX m c (ix2 (⟨256 * (t.val % 32) + r.val, by omega⟩ : Fin 8192) i) := by
  obtain ⟨e0, e1, -⟩ := idx_facts t
  show V m c main_v16 (((cfg0.win 0).blk t).view.emb (ix2 r i)) = V m c main_v16 _
  refine congrArg (V m c main_v16) ?_
  funext a; apply Fin.ext
  match a with
  | ⟨0, _⟩ => show win0_0.index t (0 : Fin 2) * 256 + 1 * r.val = 256 * (t.val % 32) + r.val; rw [e0]; omega
  | ⟨1, _⟩ => show win0_0.index t (1 : Fin 2) * 4096 + 1 * i.val = i.val; rw [e1]; omega
theorem blk1_apply (c : Dev nD) (t : Fin cfg0.N) (j : Fin 512) (q : Fin 2048) :
    blk1 m c t (ix2 j q) = arrQ m c (ix2 j (⟨2048 * (t.val / 32) + q.val, by have := pt_lt t; omega⟩ : Fin 4096)) := by
  obtain ⟨-, -, e0, e1, -⟩ := idx_facts t
  show V m c main_arg1 (((cfg0.win 1).blk t).view.emb (ix2 j q)) = V m c main_arg1 _
  refine congrArg (V m c main_arg1) ?_
  funext a; apply Fin.ext
  match a with
  | ⟨0, _⟩ => show win0_1.index t (0 : Fin 2) * 512 + 1 * j.val = j.val; rw [e0]; omega
  | ⟨1, _⟩ => show win0_1.index t (1 : Fin 2) * 2048 + 1 * q.val = 2048 * (t.val / 32) + q.val; rw [e1]; omega
theorem blk2_apply (c : Dev nD) (t : Fin cfg0.N) (g : Fin 32) (q : Fin 2048) :
    blk2 m c t (ix2 g q) = arrZ m c (ix2 g (⟨2048 * (t.val / 32) + q.val, by have := pt_lt t; omega⟩ : Fin 4096)) := by
  obtain ⟨-, -, -, -, e0, e1, -⟩ := idx_facts t
  show V m c main_v14 (((cfg0.win 2).blk t).view.emb (ix2 g q)) = V m c main_v14 _
  refine congrArg (V m c main_v14) ?_
  funext a; apply Fin.ext
  match a with
  | ⟨0, _⟩ => show win0_2.index t (0 : Fin 2) * 32 + 1 * g.val = g.val; rw [e0]; omega
  | ⟨1, _⟩ => show win0_2.index t (1 : Fin 2) * 2048 + 1 * q.val = 2048 * (t.val / 32) + q.val; rw [e1]; omega
theorem blk3_apply (c : Dev nD) (t : Fin cfg0.N) (g : Fin 32) (q : Fin 2048) :
    blk3 m c t (ix2 g q) = arrS m c (ix2 g (⟨2048 * (t.val / 32) + q.val, by have := pt_lt t; omega⟩ : Fin 4096)) := by
  obtain ⟨-, -, -, -, -, -, e0, e1, -⟩ := idx_facts t
  show V m c main_arg3 (((cfg0.win 3).blk t).view.emb (ix2 g q)) = V m c main_arg3 _
  refine congrArg (V m c main_arg3) ?_
  funext a; apply Fin.ext
  match a with
  | ⟨0, _⟩ => show win0_3.index t (0 : Fin 2) * 32 + 1 * g.val = g.val; rw [e0]; omega
  | ⟨1, _⟩ => show win0_3.index t (1 : Fin 2) * 2048 + 1 * q.val = 2048 * (t.val / 32) + q.val; rw [e1]; omega
theorem blk4_apply (c : Dev nD) (t : Fin cfg0.N) (z : Fin 1) (q : Fin 2048) :
    blk4 m c t (ix2 z q) = arrB m c (ix2 (0 : Fin 1) (⟨2048 * (t.val / 32) + q.val, by have := pt_lt t; omega⟩ : Fin 4096)) := by
  obtain ⟨-, -, -, -, -, -, -, -, e0, e1, -⟩ := idx_facts t
  show V m c main_v15 (((cfg0.win 4).blk t).view.emb (ix2 z q)) = V m c main_v15 _
  refine congrArg (V m c main_v15) ?_
  funext a; apply Fin.ext
  match a with
  | ⟨0, _⟩ => show win0_4.index t (0 : Fin 2) * 1 + 1 * z.val = (0 : Fin 1).val; rw [e0]; have hz := z.isLt; show 0 * 1 + 1 * z.val = 0; omega
  | ⟨1, _⟩ => show win0_4.index t (1 : Fin 2) * 2048 + 1 * q.val = 2048 * (t.val / 32) + q.val; rw [e1]; omega

/-- What point t writes back is block t of G. -/
theorem flushed5_eq (c : Dev nD) (G : S8192x4096.Idx → Elt F .f32)
    (hout : ∀ (t : Fin cfg0.N) (r : Fin 256) (q : Fin 2048),
      ((outsAt m c t.val t.isLt).1 : Vec F S256x2048 .f32) (ix2 r q)
        = G (ix2 (⟨256 * (t.val % 32) + r.val, by omega⟩ : Fin 8192) (⟨2048 * (t.val / 32) + q.val, by have := pt_lt t; omega⟩ : Fin 4096)))
    (t : Fin cfg0.N) :
    (dats m 0 c).flushed 5 t = ((cfg0.win 5).blk t).view.read (Elt F) G := by
  show (cfg0.win 5).cut (grid0.coords t) ((dats m 0 c).after 5 t) = _
  rw [after0_5]
  obtain ⟨-, -, -, -, -, -, -, -, -, -, e0, e1⟩ := idx_facts t
  funext j
  obtain ⟨r, q, rfl⟩ : ∃ (r : Fin 256) (q : Fin 2048), j = ix2 r q := ⟨j 0, j 1, eq_ix2 j⟩
  show ((outsAt m c t.val t.isLt).1 : Vec F S256x2048 .f32) (ix2 r q) = G (((cfg0.win 5).blk t).view.emb (ix2 r q))
  rw [hout t r q]
  refine congrArg G ?_
  funext a; apply Fin.ext
  match a with
  | ⟨0, _⟩ => show 256 * (t.val % 32) + r.val = win0_5.index t (0 : Fin 2) * 256 + 1 * r.val; rw [e0]; omega
  | ⟨1, _⟩ => show 2048 * (t.val / 32) + q.val = win0_5.index t (1 : Fin 2) * 2048 + 1 * q.val; rw [e1]; omega

/-- An index of the output array is in point t's block iff each coordinate is in the block's range on its axis. -/
theorem mem_blk5 (t : Fin cfg0.N) (i : S8192x4096.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v17).slice (win0_5.rect t)).set ↔ _
  rw [View.set_slice_whole, Rect.mem_set_unit]
  exact Iff.rfl

/-- The 64 blocks tile the output array: (R, Q) is in the block of point 32 (Q / 2048) + R / 256. -/
theorem cover5 (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 64 := N_0
  have ht : 32 * ((i 1).val / 2048) + (i 0).val / 256 < cfg0.N := by rw [hN]; omega
  refine ⟨⟨32 * ((i 1).val / 2048) + (i 0).val / 256, ht⟩, flush0_5 _, ?_⟩
  obtain ⟨-, -, -, -, -, -, -, -, -, -, e0, e1⟩ := idx_facts ⟨32 * ((i 1).val / 2048) + (i 0).val / 256, ht⟩
  rw [mem_blk5]
  intro a
  match a with
  | ⟨0, _⟩ =>
    show win0_5.index ⟨32 * ((i 1).val / 2048) + (i 0).val / 256, ht⟩ (0 : Fin 2) * 256 ≤ (i 0).val ∧ (i 0).val < win0_5.index ⟨32 * ((i 1).val / 2048) + (i 0).val / 256, ht⟩ (0 : Fin 2) * 256 + 256
    rw [e0]; show (32 * ((i 1).val / 2048) + (i 0).val / 256) % 32 * 256 ≤ (i 0).val ∧ (i 0).val < (32 * ((i 1).val / 2048) + (i 0).val / 256) % 32 * 256 + 256
    omega
  | ⟨1, _⟩ =>
    show win0_5.index ⟨32 * ((i 1).val / 2048) + (i 0).val / 256, ht⟩ (1 : Fin 2) * 2048 ≤ (i 1).val ∧ (i 1).val < win0_5.index ⟨32 * ((i 1).val / 2048) + (i 0).val / 256, ht⟩ (1 : Fin 2) * 2048 + 2048
    rw [e1]; show (32 * ((i 1).val / 2048) + (i 0).val / 256) / 32 * 2048 ≤ (i 1).val ∧ (i 1).val < (32 * ((i 1).val / 2048) + (i 0).val / 256) / 32 * 2048 + 2048
    omega

/-- THE OUTPUT ARRAY after the run, given what each point leaves in the output buffer: if at every point t the
    buffer holds, at (r, q), the function G at row 256 (t % 32) + r and column 2048 (t / 32) + q, then the array
    ends as G everywhere (every point writes its block back and the blocks tile the array). -/
theorem final5 (c : Dev nD) (G : S8192x4096.Idx → Elt F .f32)
    (hout : ∀ (t : Fin cfg0.N) (r : Fin 256) (q : Fin 2048),
      ((outsAt m c t.val t.isLt).1 : Vec F S256x2048 .f32) (ix2 r q)
        = G (ix2 (⟨256 * (t.val % 32) + r.val, by omega⟩ : Fin 8192) (⟨2048 * (t.val / 32) + q.val, by have := pt_lt t; omega⟩ : Fin 4096))) :
    (dats m 0 c).arrAt 5 cfg0.N = G := by
  exact (dats m 0 c).arrAt_eq_of_cover 5 G (fun t _ => flushed5_eq m c G hout t) cover5

end Cert.KernelIdeal.Hand

end
-- ==== Proof.Spec.lean ====
/-
  The function both programs compute: a linear layer whose weight matrix is stored as packed four-bit words.

  A packed word holds eight four-bit fields; field p of a word w is (w >> 4p) & 15, the shift arithmetic.
  Row i of the 4096 x 4096 integer weight matrix is field i % 8 of packed row i / 8; the rows come in 32 groups of
  128, and group g = i / 128 has, per output column o, a scale s[g, o] and a zero point, which is field o % 8 of
  the packed zero word [g, o / 8], plus one.  The dequantised weight is

      W[i, o] = s[g, o] * (wq[i, o] - zq[g, o])          (the subtraction on the integers)

  and the layer is y[b, t, o] = (sum over i of x[b, t, i] * W[i, o]) + bias[o].

  The other spelling of the weight multiplies first: wq[i, o] * s[g, o] - zq[g, o] * s[g, o].  On the extended
  reals the two agree wherever the scale is a real number (distributivity fails at the infinities).
-/
import Idealize.ShloMosaic.PureOps.Ideal
import Idealize.ShloMosaic.Lib.ValueIdx
import Mathlib.Algebra.BigOperators.Fin
import Mathlib.Logic.Equiv.Fin.Basic
import Mathlib.Data.EReal.Operations

noncomputable section

open scoped BigOperators

namespace Cert.Gptq

open Idealize.ShloMosaic Idealize.ShloMosaic.ValueIdx

/-- Field p of a packed word: the word shifted right (arithmetically) by 4p, its low four bits kept. -/
def nib (w : BitVec 32) (p : Fin 8) : BitVec 32 :=
  (w.sshiftRight' (BitVec.ofNat 32 (4 * p.val))) &&& 15#32

/-- A field, read unsigned, is at most 15: it is a word anded with 15. -/
theorem nib_toNat_le (w : BitVec 32) (p : Fin 8) : (nib w p).toNat ≤ 15 := by
  unfold nib
  rw [BitVec.toNat_and]
  exact Nat.and_le_right

/-- A 32-bit word whose unsigned value is below 2^31 reads the same signed and unsigned. -/
theorem toInt_eq_toNat_of_small (a : BitVec 32) (h : a.toNat < 2147483648) : a.toInt = (a.toNat : Int) := by
  rw [BitVec.toInt_eq_toNat_cond]
  split <;> omega

/-- A field reads the same signed and unsigned. -/
theorem nib_toInt_eq (w : BitVec 32) (p : Fin 8) : (nib w p).toInt = ((nib w p).toNat : Int) :=
  toInt_eq_toNat_of_small _ (by have := nib_toNat_le w p; omega)

/-- A field is one of 0 .. 15. -/
theorem nib_toInt_range (w : BitVec 32) (p : Fin 8) : 0 ≤ (nib w p).toInt ∧ (nib w p).toInt ≤ 15 := by
  have h := nib_toNat_le w p
  rw [nib_toInt_eq]
  omega

/-- A field plus one, read unsigned: no wrap-around. -/
theorem nib_add_one_toNat (w : BitVec 32) (p : Fin 8) : (nib w p + 1#32).toNat = (nib w p).toNat + 1 := by
  have h := nib_toNat_le w p
  rw [BitVec.toNat_add]
  simp only [BitVec.toNat_ofNat]
  omega

/-- The difference of two small words, read signed, is the difference of their unsigned values: no wrap-around
    beyond the sign. -/
theorem toInt_sub_of_small (a b : BitVec 32) (ha : a.toNat ≤ 15) (hb : b.toNat ≤ 16) :
    (a - b).toInt = (a.toNat : Int) - (b.toNat : Int) := by
  rw [BitVec.toInt_eq_toNat_cond, BitVec.toNat_sub]
  split <;> omega

/-- The integer weight at row i, column o: field i % 8 of packed row i / 8. -/
def wq (qw : (⟨2, ![512, 4096]⟩ : Shape).Idx → BitVec 32) (i o : Fin 4096) : BitVec 32 :=
  nib (qw (ix2 (⟨i.val / 8, by omega⟩ : Fin 512) o)) ⟨i.val % 8, by omega⟩

/-- The zero point of group g at column o: field o % 8 of packed zero word [g, o / 8], plus one. -/
def zq (qz : (⟨2, ![32, 512]⟩ : Shape).Idx → BitVec 32) (g : Fin 32) (o : Fin 4096) : BitVec 32 :=
  nib (qz (ix2 g (⟨o.val / 8, by omega⟩ : Fin 512))) ⟨o.val % 8, by omega⟩ + 1#32

/-- The group of row i. -/
def grp (i : Fin 4096) : Fin 32 := ⟨i.val / 128, by omega⟩

/-- The dequantised weight, subtracting on the integers and scaling the difference. -/
def Wref (qw : (⟨2, ![512, 4096]⟩ : Shape).Idx → BitVec 32) (qz : (⟨2, ![32, 512]⟩ : Shape).Idx → BitVec 32)
    (s : (⟨2, ![32, 4096]⟩ : Shape).Idx → EReal) (i o : Fin 4096) : EReal :=
  s (ix2 (grp i) o) * (((wq qw i o - zq qz (grp i) o).toInt : ℝ) : EReal)

/-- The dequantised weight, scaling the integer weight and the zero point separately and subtracting the
    products. -/
def Wker (qw : (⟨2, ![512, 4096]⟩ : Shape).Idx → BitVec 32) (qz : (⟨2, ![32, 512]⟩ : Shape).Idx → BitVec 32)
    (s : (⟨2, ![32, 4096]⟩ : Shape).Idx → EReal) (i o : Fin 4096) : EReal :=
  (((wq qw i o).toInt : ℝ) : EReal) * s (ix2 (grp i) o) - (((zq qz (grp i) o).toInt : ℝ) : EReal) * s (ix2 (grp i) o)

/-- Where the scale is a real number the two spellings of the weight agree. -/
theorem Wker_eq_Wref (qw : (⟨2, ![512, 4096]⟩ : Shape).Idx → BitVec 32) (qz : (⟨2, ![32, 512]⟩ : Shape).Idx → BitVec 32)
    (s : (⟨2, ![32, 4096]⟩ : Shape).Idx → EReal) (i o : Fin 4096)
    (hs : ∃ r : ℝ, s (ix2 (grp i) o) = (r : EReal)) :
    Wker qw qz s i o = Wref qw qz s i o := by
  obtain ⟨r, hr⟩ := hs
  have hw : (wq qw i o).toNat ≤ 15 := nib_toNat_le _ _
  have hz : (zq qz (grp i) o).toNat ≤ 16 := by
    unfold zq
    rw [nib_add_one_toNat]
    have := nib_toNat_le (qz (ix2 (grp i) (⟨o.val / 8, by omega⟩ : Fin 512))) ⟨o.val % 8, by omega⟩
    omega
  have hwi : (wq qw i o).toInt = ((wq qw i o).toNat : Int) := toInt_eq_toNat_of_small _ (by omega)
  have hzi : (zq qz (grp i) o).toInt = ((zq qz (grp i) o).toNat : Int) := toInt_eq_toNat_of_small _ (by omega)
  unfold Wker Wref
  rw [hr, toInt_sub_of_small _ _ hw hz, hwi, hzi, ← EReal.coe_mul, ← EReal.coe_mul, ← EReal.coe_sub, ← EReal.coe_mul]
  congr 1
  push_cast
  ring

/-- The layer at batch entry (b, t) and output column o, over a weight matrix W. -/
def layerAt (W : Fin 4096 → Fin 4096 → EReal) (x : (⟨3, ![4, 2048, 4096]⟩ : Shape).Idx → EReal)
    (bias : (⟨1, ![4096]⟩ : Shape).Idx → EReal) (b : Fin 4) (t : Fin 2048) (o : Fin 4096) : EReal :=
  (∑ i : Fin 4096, x (ix3 b t i) * W i o) + bias (ix1 o)

/-- The whole result array of the layer with the weight in the first spelling. -/
def Gref (x : (⟨3, ![4, 2048, 4096]⟩ : Shape).Idx → EReal) (qw : (⟨2, ![512, 4096]⟩ : Shape).Idx → BitVec 32)
    (qz : (⟨2, ![32, 512]⟩ : Shape).Idx → BitVec 32) (s : (⟨2, ![32, 4096]⟩ : Shape).Idx → EReal)
    (bias : (⟨1, ![4096]⟩ : Shape).Idx → EReal) : (⟨3, ![4, 2048, 4096]⟩ : Shape).Idx → EReal :=
  fun j => layerAt (Wref qw qz s) x bias ⟨(j 0).val, (j 0).isLt⟩ ⟨(j 1).val, (j 1).isLt⟩ ⟨(j 2).val, (j 2).isLt⟩

/-- A sum over 4096 rows taken group by group: 32 groups of 128 consecutive rows. -/
theorem sum_groups (f : Fin 4096 → EReal) :
    (∑ i : Fin 4096, f i) = ∑ g : Fin 32, ∑ k : Fin 128, f ⟨128 * g.val + k.val, by omega⟩ := by
  rw [← Fintype.sum_prod_type' (f := fun (g : Fin 32) (k : Fin 128) => f ⟨128 * g.val + k.val, by omega⟩)]
  symm
  refine Fintype.sum_equiv (finProdFinEquiv : Fin 32 × Fin 128 ≃ Fin 4096) _ _ ?_
  rintro ⟨g, k⟩
  congr 1
  apply Fin.ext
  simp only [finProdFinEquiv_apply_val]
  omega

/-- A left fold that adds one term per list entry is the start value plus the sum of the terms. -/
theorem foldl_add_eq_sum {α : Type} (h : α → EReal) (l : List α) (a : EReal) :
    l.foldl (fun acc g => acc + h g) a = a + (l.map h).sum := by
  induction l generalizing a with
  | nil => simp
  | cons x xs ih => rw [List.foldl_cons, ih, List.map_cons, List.sum_cons, add_assoc]

/-- The same sum accumulated group after group from zero, as a left fold over the groups in order. -/
theorem fold_groups (f : Fin 4096 → EReal) :
    (List.finRange 32).foldl (fun acc g => acc + ∑ k : Fin 128, f ⟨128 * g.val + k.val, by omega⟩) 0
      = ∑ i : Fin 4096, f i := by
  rw [sum_groups, foldl_add_eq_sum (fun g : Fin 32 => ∑ k : Fin 128, f ⟨128 * g.val + k.val, by omega⟩), zero_add,
    Fin.sum_univ_def]

end Cert.Gptq

end
-- ==== Proof.LibPlainDot.lean ====
/-
  A plain matrix product read at an entry, at the ideal values.

  For the dimension numbers of an M×K by K×N product (contract the left operand's second axis with the right
  operand's first, no batch axes), a `tpu.matmul` into the zero accumulator and the host's `dot_general` are, at
  the entry (r, c), the sum over k of left (r, k) times right (k, c) on the extended reals.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's index at output entry `j` and contraction index `q`: row of `j`, column `q`. -/
theorem lhsIdx_eq (j : (⟨2, ![M, N]⟩ : Shape).Idx) (k : Fin K) :
    (DotDims.plain M K N).lhsIdx j ((contrEquiv1 (DotDims.plain M K N) K rfl rfl).symm k)
      = ix2 ⟨(j 0).val, idx2_lt0 j⟩ k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index there: row `q`, column of `j`. -/
theorem rhsIdx_eq (j : (⟨2, ![M, N]⟩ : Shape).Idx) (k : Fin K) :
    (DotDims.plain M K N).rhsIdx j ((contrEquiv1 (DotDims.plain M K N) K rfl rfl).symm k)
      = ix2 k ⟨(j 1).val, idx2_lt1 j⟩ := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A `tpu.matmul` of these dimension numbers into the zero splat, at entry (r, c): `∑ k, lhs (r, k) * rhs (k, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's `dot_general` of these dimension numbers at entry (r, c): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.KValIdx.lean ====
import proofs.«401313_j39213051412616_3_alg».proof.Proof.KTile
import proofs.«401313_j39213051412616_3_alg».proof.Proof.Spec
import proofs.«401313_j39213051412616_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-! ## The body's arithmetic read at an index, at the ideal instance

At the ideal instance a change of float format is the identity and an integer converts to itself as a real,
so a group's dequantised weight at (k, q) is the field's value times the scale minus the scaled zero point, a
matrix product into the zero accumulator is the plain sum over the contracted axis, and the accumulator after all 32
groups is the sum over all 4096 rows. -/

/-- The shift vector at field p: four times p. -/
theorem pay6_apply (u : Fin 1) (p : Fin 8) (v : Fin 1) :
    k0_pay6 (ix3 u p v) = BitVec.ofNat 32 (4 * p.val) := by
  show BitVec.ofNat 32 (0 * 8 + p.val) * 4#32 = BitVec.ofNat 32 (4 * p.val)
  fin_cases p <;> decide

/-- A word shifted right by four times p on the vector unit and anded with 15 is field p of the word. -/
theorem shr_and_eq_nib (w : BitVec 32) (p : Fin 8) :
    IntOp.andi (IntOp.shrsi .vector w (BitVec.ofNat 32 (4 * p.val))) 15#32 = Cert.Gptq.nib w p := by
  unfold IntOp.andi IntOp.shrsi Cert.Gptq.nib
  rw [if_pos (by fin_cases p <;> decide)]

/-- A chunk of 16 packed rows given a unit middle axis and broadcast over 8 fields reads, at (a, p, q), the chunk
    at (a, q). -/
theorem chunk_bcast_apply (v14 : S16x2048.Idx → BitVec 32) (a : Fin 16) (p : Fin 8) (q : Fin 2048) :
    broadcastTo S16x8x2048 (shapeCast S16x1x2048 v14 shapeCasts_S16x2048_S16x1x2048) broadcasts_S16x1x2048_S16x8x2048
      (ix3 a p q) = v14 (ix2 a q) := by
  refine (broadcastTo_apply _ _ (ix3 a p q) (ix3 a (0 : Fin 1) q) fun ax => ?_).trans ?_
  · match ax with
    | ⟨0, _⟩ => rfl
    | ⟨1, _⟩ => rfl
    | ⟨2, _⟩ => rfl
  · refine shapeCast_apply v14 _ (ix3 a (0 : Fin 1) q) (ix2 a q) ?_
    rw [Shape.rowMajor_val_three, Shape.rowMajor_val_two]
    show a.val * 2048 + q.val = (a.val * 1 + 0) * 2048 + q.val
    omega

/-- The shift vector broadcast over the 16 rows and 2048 columns reads, at (a, p, q), four times p. -/
theorem shift_bcast_apply (a : Fin 16) (p : Fin 8) (q : Fin 2048) :
    broadcastTo S16x8x2048 k0_pay6 broadcasts_S1x8x1_S16x8x2048 (ix3 a p q) = BitVec.ofNat 32 (4 * p.val) := by
  refine (broadcastTo_apply _ _ (ix3 a p q) (ix3 (0 : Fin 1) p (0 : Fin 1)) fun ax => ?_).trans (pay6_apply _ _ _)
  match ax with
  | ⟨0, _⟩ => rfl
  | ⟨1, _⟩ => rfl
  | ⟨2, _⟩ => rfl

/-- One group's dequantised weights at row k (of 128) and column q: field k % 8 of the chunk's row k / 8, as a real,
    times the scale row's entry, minus the scaled-zero row's entry. -/
theorem pay7_apply (v14 : Vec Ideal S16x2048 .i32) (v22 v24 : Vec Ideal S1x2048 .f32) (k : Fin 128) (q : Fin 2048) :
    k0_pay7 (F := Ideal) v14 v22 v24 (ix2 k q)
      = (((Cert.Gptq.nib (v14 (ix2 (⟨k.val / 8, by omega⟩ : Fin 16) q)) ⟨k.val % 8, by omega⟩).toInt : ℝ) : EReal)
          * v22 (ix2 (0 : Fin 1) q) - v24 (ix2 (0 : Fin 1) q) := by
  unfold k0_pay7
  refine (subf_apply _ _ _).trans ?_
  refine congrArg₂ (· - ·) ?_ ?_
  · refine (mulf_apply _ _ _).trans ?_
    refine congrArg₂ (· * ·) ?_ ?_
    · refine (sitofp_apply _ _).trans ?_
      refine congrArg (fun b : BitVec 32 => (((b.toInt : ℝ)) : EReal)) ?_
      refine (shapeCast_apply _ _ (ix2 k q) (ix3 (⟨k.val / 8, by omega⟩ : Fin 16) (⟨k.val % 8, by omega⟩ : Fin 8) q) ?_).trans ?_
      · rw [Shape.rowMajor_val_three, Shape.rowMajor_val_two]
        show ((k.val / 8) * 8 + k.val % 8) * 2048 + q.val = k.val * 2048 + q.val
        omega
      · show IntOp.andi (IntOp.shrsi .vector
            (broadcastTo S16x8x2048 (shapeCast S16x1x2048 v14 shapeCasts_S16x2048_S16x1x2048) broadcasts_S16x1x2048_S16x8x2048
              (ix3 (⟨k.val / 8, by omega⟩ : Fin 16) (⟨k.val % 8, by omega⟩ : Fin 8) q))
            (broadcastTo S16x8x2048 k0_pay6 broadcasts_S1x8x1_S16x8x2048
              (ix3 (⟨k.val / 8, by omega⟩ : Fin 16) (⟨k.val % 8, by omega⟩ : Fin 8) q))) 15#32 = _
        rw [chunk_bcast_apply, shift_bcast_apply]
        exact shr_and_eq_nib _ _
    · refine (broadcastTo_1b_ab_apply _ _ k q).trans ?_
      rfl
  · refine (broadcastTo_1b_ab_apply _ _ k q).trans ?_
    exact (truncf_apply (ψ := .bf16) _ bitsLt_bf16_f32 _).trans (congrFun (shapeCast_self v24 _) _)

/-- Group g's weights at row k (of 128) and column q: packed row 16 g + k / 8 of the weight block, field k % 8,
    as a real, times the scale row's entry, minus the scaled-zero row's entry. -/
theorem Wblk_apply (x1 : Vec Ideal S512x2048 .i32) (x2 x3 : Vec Ideal S32x2048 .f32) (g : Fin 32) (k : Fin 128) (q : Fin 2048) :
    Wblk (F := Ideal) x1 x2 x3 g (ix2 k q)
      = (((Cert.Gptq.nib (x1 (ix2 (⟨16 * g.val + k.val / 8, by omega⟩ : Fin 512) q)) ⟨k.val % 8, by omega⟩).toInt : ℝ) : EReal)
          * x3 (ix2 g q) - x2 (ix2 g q) := by
  unfold Wblk
  refine (pay7_apply _ _ _ k q).trans ?_
  have e1 : View.ld x1 (Rect.unit ![16 * g.val, 0] S16x2048.size (chunkInb g)) (ix2 (⟨k.val / 8, by omega⟩ : Fin 16) q)
      = x1 (ix2 (⟨16 * g.val + k.val / 8, by omega⟩ : Fin 512) q) := by
    refine congrArg x1 (funext fun a => Fin.ext ?_)
    match a with
    | ⟨0, _⟩ => show 16 * g.val + 1 * (k.val / 8) = 16 * g.val + k.val / 8; omega
    | ⟨1, _⟩ => show 0 + 1 * q.val = q.val; omega
  have e2 : View.ld x3 (Rect.unit ![g.val, 0] S1x2048.size (rowInb g)) (ix2 (0 : Fin 1) q) = x3 (ix2 g q) := by
    refine congrArg x3 (funext fun a => Fin.ext ?_)
    match a with
    | ⟨0, _⟩ => show g.val + 1 * 0 = g.val; omega
    | ⟨1, _⟩ => show 0 + 1 * q.val = q.val; omega
  have e3 : View.ld x2 (Rect.unit ![g.val, 0] S1x2048.size (rowInb g)) (ix2 (0 : Fin 1) q) = x2 (ix2 g q) := by
    refine congrArg x2 (funext fun a => Fin.ext ?_)
    match a with
    | ⟨0, _⟩ => show g.val + 1 * 0 = g.val; omega
    | ⟨1, _⟩ => show 0 + 1 * q.val = q.val; omega
  rw [e1, e2, e3]

/-- The scratch as one function (Wtile) at row i and column q: the same, with g = i / 128 and k = i % 128, that
    is packed row i / 8, field i % 8. -/
theorem Wtile_apply (x1 : Vec Ideal S512x2048 .i32) (x2 x3 : Vec Ideal S32x2048 .f32) (i : Fin 4096) (q : Fin 2048) :
    Wtile (F := Ideal) x1 x2 x3 (ix2 i q)
      = (((Cert.Gptq.nib (x1 (ix2 (⟨i.val / 8, by omega⟩ : Fin 512) q)) ⟨i.val % 8, by omega⟩).toInt : ℝ) : EReal)
          * x3 (ix2 (⟨i.val / 128, by omega⟩ : Fin 32) q) - x2 (ix2 (⟨i.val / 128, by omega⟩ : Fin 32) q) := by
  show Wblk (F := Ideal) x1 x2 x3 (⟨i.val / 128, by omega⟩ : Fin 32)
      (ix2 (⟨i.val % 128, by omega⟩ : Fin 128) (⟨q.val, q.isLt⟩ : Fin 2048)) = _
  refine (Wblk_apply x1 x2 x3 _ _ _).trans ?_
  have hr : (⟨16 * (i.val / 128) + i.val % 128 / 8, by omega⟩ : Fin 512) = ⟨i.val / 8, by omega⟩ := Fin.ext (by show 16 * (i.val / 128) + i.val % 128 / 8 = i.val / 8; omega)
  have hp : (⟨i.val % 128 % 8, by omega⟩ : Fin 8) = ⟨i.val % 8, by omega⟩ := Fin.ext (by show i.val % 128 % 8 = i.val % 8; omega)
  show (((Cert.Gptq.nib (x1 (ix2 (⟨16 * (i.val / 128) + i.val % 128 / 8, by omega⟩ : Fin 512) q)) ⟨i.val % 128 % 8, by omega⟩).toInt : ℝ) : EReal)
          * x3 (ix2 (⟨i.val / 128, by omega⟩ : Fin 32) q) - x2 (ix2 (⟨i.val / 128, by omega⟩ : Fin 32) q) = _
  rw [hr, hp]

/-- The input block narrowed to bf16 is, on the extended reals, the input block. -/
theorem pay1_apply (x0 : Vec Ideal S256x4096 .f32) (j : S256x4096.Idx) : k0_pay1 (F := Ideal) x0 j = x0 j := by
  unfold k0_pay1
  exact (truncf_apply (ψ := .bf16) _ bitsLt_bf16_f32 _).trans (congrFun (shapeCast_self x0 _) _)

/-- The bias row broadcast over the 256 rows reads, at (r, q), the row's entry q. -/
theorem bias_bcast_apply (x4 : Vec Ideal S1x2048 .f32) (r : Fin 256) (q : Fin 2048) :
    broadcastTo S256x2048 (shapeCast S1x2048 x4 shapeCasts_S1x2048_S1x2048) broadcasts_S1x2048_S256x2048 (ix2 r q)
      = x4 (ix2 (0 : Fin 1) q) :=
  (broadcastTo_1b_ab_apply _ _ r q).trans (congrFun (shapeCast_self x4 _) _)

/-- The zero block is zero everywhere. -/
theorem pay5_apply (j : S256x2048.Idx) : k0_pay5 (F := Ideal) j = 0 := by
  unfold k0_pay5
  exact Ideal.ofBits_zero_f32

/-- Group g's share of the sum at (r, q): the sum over the group's 128 rows of the input block's entry times the
    scratch's entry; zero past the last group. -/
def groupShare (x0 : Vec Ideal S256x4096 .f32) (x1 : Vec Ideal S512x2048 .i32) (x2 x3 : Vec Ideal S32x2048 .f32)
    (r : Fin 256) (q : Fin 2048) (g : ℕ) : EReal :=
  if h : g < 32 then
    ∑ k : Fin 128, x0 (ix2 r (⟨128 * g + k.val, by omega⟩ : Fin 4096))
      * Wtile (F := Ideal) x1 x2 x3 (ix2 (⟨128 * g + k.val, by omega⟩ : Fin 4096) q)
  else 0

/-- Row k of group n's weights is row 128 n + k of the scratch. -/
theorem Wblk_eq_Wtile (x1 : Vec Ideal S512x2048 .i32) (x2 x3 : Vec Ideal S32x2048 .f32) (n : ℕ) (h : n < 32)
    (k : Fin 128) (q : Fin 2048) :
    Wblk (F := Ideal) x1 x2 x3 ⟨n, h⟩ (ix2 k q)
      = Wtile (F := Ideal) x1 x2 x3 (ix2 (⟨128 * n + k.val, by omega⟩ : Fin 4096) q) := by
  show _ = Wblk (F := Ideal) x1 x2 x3 (⟨(128 * n + k.val) / 128, by omega⟩ : Fin 32)
      (ix2 (⟨(128 * n + k.val) % 128, by omega⟩ : Fin 128) (⟨q.val, q.isLt⟩ : Fin 2048))
  have hg : (⟨(128 * n + k.val) / 128, by omega⟩ : Fin 32) = ⟨n, h⟩ := Fin.ext (by show (128 * n + k.val) / 128 = n; omega)
  have hk : (⟨(128 * n + k.val) % 128, by omega⟩ : Fin 128) = k := Fin.ext (by show (128 * n + k.val) % 128 = k.val; omega)
  rw [hg, hk]

/-- The product of group n's columns of the input block with group n's weights, into the zero accumulator, at (r, q):
    the group's share of the sum. -/
theorem matmul_group_apply (x0 : Vec Ideal S256x4096 .f32) (x1 : Vec Ideal S512x2048 .i32) (x2 x3 : Vec Ideal S32x2048 .f32)
    (n : ℕ) (h : n < 32) (r : Fin 256) (q : Fin 2048) :
    matmul dot_S256x128_S128x2048_S256x2048_1_0_0_1_n_n none
        (extractStridedSlice S256x128 ![0, 128 * n] (k0_pay1 (F := Ideal) x0) (colsEv ⟨n, h⟩))
        (Wblk (F := Ideal) x1 x2 x3 ⟨n, h⟩) (constant (F := Ideal) S256x2048 .f32 0x00000000#32) (ix2 r q)
      = groupShare x0 x1 x2 x3 r q n := by
  unfold groupShare
  rw [dif_pos h]
  refine (Idealize.ShloMosaic.PlainDot.matmul_zero_apply 256 128 2048 none _ _ r q).trans ?_
  refine Finset.sum_congr rfl fun k _ => ?_
  refine congrArg₂ (· * ·) ?_ (Wblk_eq_Wtile x1 x2 x3 n h k q)
  exact (slice2_axis1_eq (128 * n) (k0_pay1 (F := Ideal) x0) (colsEv ⟨n, h⟩) r k).trans (pay1_apply x0 _)

/-- One more group: the block so far plus the group's product. -/
theorem accN_succ (x0 : Vec Ideal S256x4096 .f32) (x1 : Vec Ideal S512x2048 .i32) (x2 x3 : Vec Ideal S32x2048 .f32)
    (n : ℕ) (h : n < 32) :
    accN (F := Ideal) x0 x1 x2 x3 (n + 1)
      = addf (shapeCast S256x2048 (accN (F := Ideal) x0 x1 x2 x3 n) shapeCasts_S256x2048_S256x2048)
          (matmul dot_S256x128_S128x2048_S256x2048_1_0_0_1_n_n none
            (extractStridedSlice S256x128 ![0, 128 * n] (k0_pay1 (F := Ideal) x0) (colsEv ⟨n, h⟩))
            (Wblk (F := Ideal) x1 x2 x3 ⟨n, h⟩) (constant (F := Ideal) S256x2048 .f32 0x00000000#32)) := by
  rw [accN, dif_pos h]

/-- The output block after the first n groups, at (r, q): the sum of the first n groups' shares. -/
theorem accN_apply (x0 : Vec Ideal S256x4096 .f32) (x1 : Vec Ideal S512x2048 .i32) (x2 x3 : Vec Ideal S32x2048 .f32)
    (r : Fin 256) (q : Fin 2048) :
    ∀ n : ℕ, n ≤ 32 → accN (F := Ideal) x0 x1 x2 x3 n (ix2 r q) = ∑ g ∈ Finset.range n, groupShare x0 x1 x2 x3 r q g
  | 0, _ => by
    rw [Finset.range_zero, Finset.sum_empty]
    exact pay5_apply _
  | n + 1, hn => by
    have h : n < 32 := by omega
    rw [Finset.sum_range_succ, ← accN_apply x0 x1 x2 x3 r q n (by omega), accN_succ x0 x1 x2 x3 n h]
    refine (addf_apply _ _ _).trans ?_
    exact congrArg₂ (· + ·) (congrFun (shapeCast_self _ _) _) (matmul_group_apply x0 x1 x2 x3 n h r q)

/-- What the first branch leaves in the output block, at (r, q): the sum over all 4096 rows i of the input block's
    entry (r, i) times the scratch's entry (i, q), plus the bias row's entry. -/
theorem outAfun_apply (x0 : Vec Ideal S256x4096 .f32) (x1 : Vec Ideal S512x2048 .i32) (x2 x3 : Vec Ideal S32x2048 .f32)
    (x4 : Vec Ideal S1x2048 .f32) (r : Fin 256) (q : Fin 2048) :
    outAfun (F := Ideal) x0 x1 x2 x3 x4 (ix2 r q)
      = (∑ i : Fin 4096, x0 (ix2 r i) * Wtile (F := Ideal) x1 x2 x3 (ix2 i q)) + x4 (ix2 (0 : Fin 1) q) := by
  unfold outAfun k0_pay3
  refine (addf_apply _ _ _).trans ?_
  refine congrArg₂ (· + ·) ?_ (bias_bcast_apply x4 r q)
  refine (congrFun (shapeCast_self _ _) _).trans ?_
  refine (accN_apply x0 x1 x2 x3 r q 32 (le_refl _)).trans ?_
  rw [Cert.Gptq.sum_groups (fun i => x0 (ix2 r i) * Wtile (F := Ideal) x1 x2 x3 (ix2 i q)),
    ← Fin.sum_univ_eq_sum_range (fun g => groupShare x0 x1 x2 x3 r q g) 32]
  refine Finset.sum_congr rfl fun g _ => ?_
  unfold groupShare
  rw [dif_pos g.isLt]

/-- What the second branch stores, at (r, q): the same sum against the scratch's contents xs, plus the bias row's
    entry. -/
theorem pay4_apply (x0 : Vec Ideal S256x4096 .f32) (xs : Vec Ideal S4096x2048 .bf16) (x4 : Vec Ideal S1x2048 .f32)
    (r : Fin 256) (q : Fin 2048) :
    k0_pay4 (F := Ideal) x0 xs x4 (ix2 r q)
      = (∑ i : Fin 4096, x0 (ix2 r i) * xs (ix2 i q)) + x4 (ix2 (0 : Fin 1) q) := by
  unfold k0_pay4
  refine (addf_apply _ _ _).trans ?_
  refine congrArg₂ (· + ·) ?_ (bias_bcast_apply x4 r q)
  refine (Idealize.ShloMosaic.PlainDot.matmul_zero_apply 256 4096 2048 none (k0_pay1 (F := Ideal) x0) xs r q).trans ?_
  exact Finset.sum_congr rfl fun i _ => congrArg (· * xs (ix2 i q)) (pay1_apply x0 (ix2 r i))

end Cert.KernelIdeal.Hand

end
-- ==== Proof.KPoints.lean ====
import proofs.«401313_j39213051412616_3_alg».proof.Proof.KPieces
import proofs.«401313_j39213051412616_3_alg».proof.Proof.KBlocks
import proofs.«401313_j39213051412616_3_alg».proof.Proof.KValIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-! ## Point by point: what the scratch and the output buffer hold -/

section Scratch

variable (m : (ℓ : Loc nD τ sig) → Buf (Elt F) ℓ)

/-- Two points of one column tile stage the same blocks of the packed weights, the scaled zero points and the
    scales. -/
theorem sameTile (c : Dev nD) (t t' : Fin cfg0.N) (h : t.val / 32 = t'.val / 32) :
    blk1 m c t = blk1 m c t' ∧ blk2 m c t = blk2 m c t' ∧ blk3 m c t = blk3 m c t' := by
  refine ⟨funext fun j => ?_, funext fun j => ?_, funext fun j => ?_⟩
  · obtain ⟨a, b, rfl⟩ : ∃ (a : Fin 512) (b : Fin 2048), j = ix2 a b := ⟨j 0, j 1, eq_ix2 j⟩
    rw [blk1_apply, blk1_apply]
    exact congrArg (arrQ m c) (congrArg (ix2 a) (Fin.ext (by show 2048 * (t.val / 32) + b.val = 2048 * (t'.val / 32) + b.val; rw [h])))
  · obtain ⟨a, b, rfl⟩ : ∃ (a : Fin 32) (b : Fin 2048), j = ix2 a b := ⟨j 0, j 1, eq_ix2 j⟩
    rw [blk2_apply, blk2_apply]
    exact congrArg (arrZ m c) (congrArg (ix2 a) (Fin.ext (by show 2048 * (t.val / 32) + b.val = 2048 * (t'.val / 32) + b.val; rw [h])))
  · obtain ⟨a, b, rfl⟩ : ∃ (a : Fin 32) (b : Fin 2048), j = ix2 a b := ⟨j 0, j 1, eq_ix2 j⟩
    rw [blk3_apply, blk3_apply]
    exact congrArg (arrS m c) (congrArg (ix2 a) (Fin.ext (by show 2048 * (t.val / 32) + b.val = 2048 * (t'.val / 32) + b.val; rw [h])))

/-- After every point the scratch holds the dequantised weights of the point's column tile: the first point of the
    tile writes them, the others leave them. -/
theorem scr_eq (c : Dev nD) : ∀ (n : ℕ) (hn : n < cfg0.N),
    (outsAt m c n hn).2 = Wtile (blk1 m c ⟨n, hn⟩) (blk2 m c ⟨n, hn⟩) (blk3 m c ⟨n, hn⟩) := by
  intro n
  induction n with
  | zero =>
    intro hn
    rw [outsAt_A m c ⟨0, hn⟩ (Nat.zero_mod _)]
    dsimp only
    exact soutA_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM (Memref.isWhole_whole _) ((hcondA ⟨0, hn⟩).mpr (Nat.zero_mod _)) (fun h => (hcondB ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩)
  | succ n ih =>
    intro hn
    by_cases h0 : (n + 1) % 32 = 0
    · rw [outsAt_A m c ⟨n + 1, hn⟩ h0]
      dsimp only
      exact soutA_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM (Memref.isWhole_whole _) ((hcondA ⟨n + 1, hn⟩).mpr h0) (fun h => (hcondB ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    · rw [outsAt_B m c ⟨n + 1, hn⟩ h0]
      dsimp only
      show (outsAt m c n (Nat.lt_of_succ_lt hn)).2 = _
      have hprev := ih (Nat.lt_of_succ_lt hn)
      obtain ⟨e1, e2, e3⟩ := sameTile m c ⟨n, Nat.lt_of_succ_lt hn⟩ ⟨n + 1, hn⟩ (by show n / 32 = (n + 1) / 32; omega)
      rw [← e1, ← e2, ← e3]
      exact hprev

end Scratch

section Output

variable (m : (ℓ : Loc nD τ sig) → Buf (Elt Ideal) ℓ)

/-- After every point the output buffer holds, at (r, q), the sum over all 4096 rows i of the input block's entry
    (r, i) times the tile's dequantised weight (i, q), plus the bias block's entry: at the tile's first point by the
    group-by-group accumulation, at the others by the product with the scratch. -/
theorem out_apply (c : Dev nD) (t : Fin cfg0.N) (r : Fin 256) (q : Fin 2048) :
    ((outsAt m c t.val t.isLt).1 : Vec Ideal S256x2048 .f32) (ix2 r q)
      = (∑ i : Fin 4096, blk0 m c t (ix2 r i) * Wtile (F := Ideal) (blk1 m c t) (blk2 m c t) (blk3 m c t) (ix2 i q))
          + blk4 m c t (ix2 (0 : Fin 1) q) := by
  by_cases h0 : t.val % 32 = 0
  · rw [outsAt_A m c t h0]
    dsimp only
    refine (congrFun (outA_eq c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) ((hcondA t).mpr h0) (fun h => (hcondB t).mp h h0) (iblk m c 0 t) (iblk m c 1 t) (iblk m c 2 t) (iblk m c 3 t) (iblk m c 4 t)) (ix2 r q)).trans ?_
    exact outAfun_apply (blk0 m c t) (blk1 m c t) (blk2 m c t) (blk3 m c t) (blk4 m c t) r q
  · rw [outsAt_B m c t h0]
    dsimp only
    refine (congrFun (outB_eq c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => h0 ((hcondA t).mp h)) ((hcondB t).mpr h0) (iblk m c 0 t) (iblk m c 1 t) (iblk m c 2 t) (iblk m c 3 t) (iblk m c 4 t) (outsAt m c (t.val - 1) (Nat.lt_of_le_of_lt (Nat.sub_le _ _) t.isLt)).2) (ix2 r q)).trans ?_
    refine (pay4_apply (blk0 m c t) _ (blk4 m c t) r q).trans ?_
    have ht : 0 < t.val := Nat.pos_of_ne_zero fun h => h0 (by rw [h])
    have hs := scr_eq m c (t.val - 1) (Nat.lt_of_le_of_lt (Nat.sub_le _ _) t.isLt)
    obtain ⟨e1, e2, e3⟩ := sameTile m c ⟨t.val - 1, Nat.lt_of_le_of_lt (Nat.sub_le _ _) t.isLt⟩ t (by show (t.val - 1) / 32 = t.val / 32; omega)
    rw [hs, e1, e2, e3]

end Output

end Cert.KernelIdeal.Hand

end
-- ==== Proof.KHost.lean ====
import proofs.«401313_j39213051412616_3_alg».proof.Proof.KData
import proofs.«401313_j39213051412616_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## The host lines around the region, read at an index (at the ideal instance)

Before the region the program unpacks the zero points (each packed zero word gives eight fields, plus one),
converts them to floats and multiplies them by the scales; it reshapes the bias vector to a row and the input to a
matrix of 8192 rows. After the region it reshapes the 8192 x 4096 result back to 4 x 2048 x 4096. -/

namespace HostLines

/-! ### The layout changes, over plain arrays

A reshape keeps the row-major position. Position (R, i) of an 8192 x 4096 matrix is 4096 R + i, and position
(b, t, i) of a 4 x 2048 x 4096 array is 4096 (2048 b + t) + i, so R = 2048 b + t. -/

/-- A 4 x 2048 x 4096 array laid out as 8192 rows: row R is entry (R / 2048, R % 2048). -/
theorem rows_of_batch (x : S4x2048x4096.Idx → EReal) (h : S4x2048x4096.ShapeCasts S8192x4096) (R : Fin 8192) (i : Fin 4096) :
    shapeCast S8192x4096 x h (ix2 R i)
      = x (ix3 (⟨R.val / 2048, by omega⟩ : Fin 4) (⟨R.val % 2048, by omega⟩ : Fin 2048) i) := by
  refine shapeCast_apply x h _ _ ?_
  rw [Shape.rowMajor_val_three, Shape.rowMajor_val_two]
  show (R.val / 2048 * 2048 + R.val % 2048) * 4096 + i.val = R.val * 4096 + i.val
  omega

/-- 8192 rows laid out as a 4 x 2048 x 4096 array: entry (b, t) is row 2048 b + t. -/
theorem batch_of_rows (x : S8192x4096.Idx → EReal) (h : S8192x4096.ShapeCasts S4x2048x4096) (b : Fin 4) (t : Fin 2048) (o : Fin 4096) :
    shapeCast S4x2048x4096 x h (ix3 b t o) = x (ix2 (⟨2048 * b.val + t.val, by omega⟩ : Fin 8192) o) := by
  refine shapeCast_apply x h _ _ ?_
  rw [Shape.rowMajor_val_three, Shape.rowMajor_val_two]
  show (2048 * b.val + t.val) * 4096 + o.val = (b.val * 2048 + t.val) * 4096 + o.val
  omega

/-! ### The zero points unpacked

The eight shift amounts are 0, 4, ..., 28: the positions 0 .. 7 times four. Every zero word (g, j) is repeated
along a new axis of length eight and shifted right (arithmetically) by the amount of its position p there; the low
four bits are kept. That is field p of the word. Regrouping the 512 x 8 fields of a group into 4096 columns puts
field p of word j at column 8 j + p, so column o holds field o % 8 of word o / 8; one is added. -/

/-- The shift amounts: 4 p at position p of the eight fields. -/
theorem shift_apply (p : Fin 8) :
    (muli (iotaInDim S8 32 0) (broadcastInDim S8 ![] bcast_S_S8 (constantI S_ 32 4#32)) : S8.Idx → BitVec 32) (ix1 p)
      = BitVec.ofNat 32 (4 * p.val) := by
  show BitVec.ofNat 32 p.val * 4#32 = BitVec.ofNat 32 (4 * p.val)
  revert p
  decide

/-- A vector of eight spread over groups and words: entry (g, j, p) is its entry p. -/
theorem shifts_apply (s : S8.Idx → BitVec 32) (g : Fin 32) (j : Fin 512) (p : Fin 8) :
    broadcastInDim S32x512x8 ![0, 1, 2] bcast_S1x1x8_S32x512x8_0_1_2 (broadcastInDim S1x1x8 ![2] bcast_S8_S1x1x8_2 s) (ix3 g j p)
      = s (ix1 p) := by
  refine (broadcastInDim_apply _ _ _ (ix3 g j p) (ix3 (0 : Fin 1) (0 : Fin 1) p) (fun a => ?_)).trans ?_
  · match a with
    | ⟨0, _⟩ => rfl
    | ⟨1, _⟩ => rfl
    | ⟨2, _⟩ => rfl
  · refine broadcastInDim_apply _ _ _ (ix3 (0 : Fin 1) (0 : Fin 1) p) (ix1 p) (fun a => ?_)
    match a with
    | ⟨0, _⟩ => rfl

/-- The zero words spread over the eight fields: entry (g, j, p) is word (g, j). -/
theorem words_apply (qz : S32x512.Idx → BitVec 32) (g : Fin 32) (j : Fin 512) (p : Fin 8) :
    broadcastInDim S32x512x8 ![0, 1, 2] bcast_S32x512x1_S32x512x8_0_1_2 (broadcastInDim S32x512x1 ![0, 1] bcast_S32x512_S32x512x1_0_1 qz) (ix3 g j p)
      = qz (ix2 g j) := by
  refine (broadcastInDim_apply _ _ _ (ix3 g j p) (ix3 g j (0 : Fin 1)) (fun a => ?_)).trans ?_
  · match a with
    | ⟨0, _⟩ => rfl
    | ⟨1, _⟩ => rfl
    | ⟨2, _⟩ => rfl
  · refine broadcastInDim_apply _ _ _ (ix3 g j (0 : Fin 1)) (ix2 g j) (fun a => ?_)
    match a with
    | ⟨0, _⟩ => rfl
    | ⟨1, _⟩ => rfl

/-- The unpacked fields of the zero words, before the regrouping into 4096 columns. -/
def fields (qz : S32x512.Idx → BitVec 32) : S32x512x8.Idx → BitVec 32 :=
  andi (Host.shrsi (broadcastInDim S32x512x8 ![0, 1, 2] bcast_S32x512x1_S32x512x8_0_1_2 (broadcastInDim S32x512x1 ![0, 1] bcast_S32x512_S32x512x1_0_1 qz))
      (broadcastInDim S32x512x8 ![0, 1, 2] bcast_S1x1x8_S32x512x8_0_1_2 (broadcastInDim S1x1x8 ![2] bcast_S8_S1x1x8_2
        (muli (iotaInDim S8 32 0) (broadcastInDim S8 ![] bcast_S_S8 (constantI S_ 32 4#32))))))
    (broadcastInDim S32x512x8 ![] bcast_S_S32x512x8 (constantI S_ 32 15#32))

/-- Entry (g, j, p) of the unpacked fields is field p of zero word (g, j): the shift 4 p is at most 28, below the
    word's width, so the shift is the plain arithmetic one. -/
theorem fields_apply (qz : S32x512.Idx → BitVec 32) (g : Fin 32) (j : Fin 512) (p : Fin 8) :
    fields qz (ix3 g j p) = Cert.Gptq.nib (qz (ix2 g j)) p := by
  unfold fields
  show IntOp.shrsi .host
      (broadcastInDim S32x512x8 ![0, 1, 2] bcast_S32x512x1_S32x512x8_0_1_2 (broadcastInDim S32x512x1 ![0, 1] bcast_S32x512_S32x512x1_0_1 qz) (ix3 g j p))
      (broadcastInDim S32x512x8 ![0, 1, 2] bcast_S1x1x8_S32x512x8_0_1_2 (broadcastInDim S1x1x8 ![2] bcast_S8_S1x1x8_2
        (muli (iotaInDim S8 32 0) (broadcastInDim S8 ![] bcast_S_S8 (constantI S_ 32 4#32)))) (ix3 g j p)) &&& 15#32 = _
  rw [words_apply, shifts_apply, shift_apply]
  unfold IntOp.shrsi Cert.Gptq.nib
  rw [if_pos]
  rw [BitVec.toNat_ofNat]
  omega

/-- The zero points as the host lines compute them: the fields regrouped into 4096 columns, plus one. -/
def zqTerm (qz : S32x512.Idx → BitVec 32) : S32x4096.Idx → BitVec 32 :=
  addi (shapeCast S32x4096 (fields qz) shapeCasts_S32x512x8_S32x4096)
    (broadcastInDim S32x4096 ![] bcast_S_S32x4096 (constantI S_ 32 1#32))

/-- Column o of group g holds field o % 8 of zero word (g, o / 8), plus one: positions (g, o / 8, o % 8) and (g, o)
    are the same row-major position, 8 (512 g + o / 8) + o % 8 = 4096 g + o. -/
theorem zqTerm_apply (qz : S32x512.Idx → BitVec 32) (g : Fin 32) (o : Fin 4096) :
    zqTerm qz (ix2 g o) = Cert.Gptq.zq qz g o := by
  unfold zqTerm Cert.Gptq.zq
  show shapeCast S32x4096 (fields qz) shapeCasts_S32x512x8_S32x4096 (ix2 g o) + 1#32 = _
  rw [shapeCast_apply (fields qz) shapeCasts_S32x512x8_S32x4096 (ix2 g o)
    (ix3 g (⟨o.val / 8, by omega⟩ : Fin 512) (⟨o.val % 8, by omega⟩ : Fin 8)) (by
      rw [Shape.rowMajor_val_three, Shape.rowMajor_val_two]
      show (g.val * 512 + o.val / 8) * 8 + o.val % 8 = g.val * 4096 + o.val
      omega), fields_apply]

end HostLines

variable (m : (ℓ : Loc nD τ sig) → Buf (Elt Ideal) ℓ) (ρ : Dev nD → PrngReg)

/-- The input as a matrix: row 2048 b + t of the matrix is entry (b, t) of the batch. -/
theorem V_v16_apply (c : Dev nD) (R : Fin 8192) (i : Fin 4096) :
    (V m c main_v16 : Vec Ideal S8192x4096 .f32) (ix2 R i)
      = (m ((c : Thread nD τ).loc main_arg0) : Vec Ideal S4x2048x4096 .f32)
          (ix3 (⟨R.val / 2048, by omega⟩ : Fin 4) (⟨R.val % 2048, by omega⟩ : Fin 2048) i) := by
  -- the array the region finds is the launched input under the reshape
  have e : (V m c main_v16 : S8192x4096.Idx → EReal)
      = shapeCast S8192x4096 (m ((c : Thread nD τ).loc main_arg0) : S4x2048x4096.Idx → EReal) shapeCasts_S4x2048x4096_S8192x4096 := by
    dsimp only [Gen.V, Gen.V0]
    simp only [Gen.hostOps0, List.flatten_cons, List.flatten_nil, List.append_nil, List.cons_append, List.nil_append]
    after_results
    rfl
  exact (congrFun e (ix2 R i)).trans (HostLines.rows_of_batch _ _ R i)

/-- The bias as a row. -/
theorem V_v15_apply (c : Dev nD) (z : Fin 1) (o : Fin 4096) :
    (V m c main_v15 : Vec Ideal S1x4096 .f32) (ix2 z o) = (m ((c : Thread nD τ).loc main_arg4) : Vec Ideal S4096 .f32) (ix1 o) := by
  have e : (V m c main_v15 : S1x4096.Idx → EReal)
      = shapeCast S1x4096 (m ((c : Thread nD τ).loc main_arg4) : S4096.Idx → EReal) shapeCasts_S4096_S1x4096 := by
    dsimp only [Gen.V, Gen.V0]
    simp only [Gen.hostOps0, List.flatten_cons, List.flatten_nil, List.append_nil, List.cons_append, List.nil_append]
    after_results
    rfl
  exact (congrFun e (ix2 z o)).trans
    (shapeCast_a_1a_apply (m ((c : Thread nD τ).loc main_arg4) : S4096.Idx → EReal) shapeCasts_S4096_S1x4096 z o)

/-- The scaled zero points: the zero point of group g at column o, as a real, times the scale. -/
theorem V_v14_apply (c : Dev nD) (g : Fin 32) (o : Fin 4096) :
    (V m c main_v14 : Vec Ideal S32x4096 .f32) (ix2 g o)
      = (((Cert.Gptq.zq (m ((c : Thread nD τ).loc main_arg2)) g o).toInt : ℝ) : EReal)
          * (m ((c : Thread nD τ).loc main_arg3) : Vec Ideal S32x4096 .f32) (ix2 g o) := by
  -- the array the region finds: the unpacked zero points made floats, times the launched scales, entry by entry
  have e : (V m c main_v14 : S32x4096.Idx → EReal)
      = mulf (sitofp .f32 (HostLines.zqTerm (m ((c : Thread nD τ).loc main_arg2) : S32x512.Idx → BitVec 32)) : FVec Ideal S32x4096 .f32)
          (m ((c : Thread nD τ).loc main_arg3) : FVec Ideal S32x4096 .f32) := by
    dsimp only [Gen.V, Gen.V0]
    simp only [Gen.hostOps0, List.flatten_cons, List.flatten_nil, List.append_nil, List.cons_append, List.nil_append]
    after_results
    rfl
  refine (congrFun e (ix2 g o)).trans ?_
  rw [mulf_apply, sitofp_apply, HostLines.zqTerm_apply]
  rfl

/-- The scales and the packed weights reach the region as launched. -/
theorem V_arg3_eq (c : Dev nD) : V m c main_arg3 = m ((c : Thread nD τ).loc main_arg3) := V_main_arg3 m c
theorem V_arg1_eq (c : Dev nD) : V m c main_arg1 = m ((c : Thread nD τ).loc main_arg1) := V_main_arg1 m c

/-- The program's result after the lines behind the region: the output matrix reshaped, entry (b, t, o) of the
    result being entry (2048 b + t, o) of the matrix the region leaves. -/
theorem tail_v18_apply (dts : (p : Fin 1) → (c : Dev nD) → Dat τ (Elt Ideal) Unit ℕ (UR sig nD τ) ℕ (cfgs p) c) (c : Dev nD)
    (b : Fin 4) (t : Fin 2048) (o : Fin 4096) :
    (Pipeline.afterTail₀ cfgs dts 0 (V0 m) [hostOps1] c main_v18 : Vec Ideal S4x2048x4096 .f32) (ix3 b t o)
      = ((dts 0 c).arrAt 5 cfg0.N : Vec Ideal S8192x4096 .f32) (ix2 (⟨2048 * b.val + t.val, by omega⟩ : Fin 8192) o) := by
  -- behind the region the output array holds what the region left in its sixth window
  have h : (Pipeline.withArrays (cfgs 0).spec c (V0 m c) (fun w => (dts 0 c).arrAt w (cfgs 0).N) (Proc.devRef .tc main_v17) : S8192x4096.Idx → EReal)
      = ((dts 0 c).arrAt 5 cfg0.N : S8192x4096.Idx → EReal) :=
    Pipeline.withArrays_arr spec0 launch0.win.arr_inj c _ _ 5
  have e : (Pipeline.afterTail₀ cfgs dts 0 (V0 m) [hostOps1] c main_v18 : S4x2048x4096.Idx → EReal)
      = shapeCast S4x2048x4096 ((dts 0 c).arrAt 5 cfg0.N : S8192x4096.Idx → EReal) shapeCasts_S8192x4096_S4x2048x4096 := by
    unfold Pipeline.afterTail₀
    show StableHlo.after hostOps1 _ (Proc.devRef .tc main_v18) = _
    after_results
    exact congrArg (fun X : S8192x4096.Idx → EReal => shapeCast S4x2048x4096 X shapeCasts_S8192x4096_S4x2048x4096) h
  exact (congrFun e (ix3 b t o)).trans (HostLines.batch_of_rows _ _ b t o)

end Cert.KernelIdeal.Hand

end
-- ==== Proof.KPre.lean ====
import proofs.«401313_j39213051412616_3_alg».proof.Defs
import proofs.«401313_j39213051412616_3_alg».proof.Proof.Gen.Pre_finite_inputs
import Idealize.ShloMosaic.Lib.ValueIdx
import Idealize.ShloMosaic.Lib.ReduceAll
import Mathlib.Data.EReal.Basic

noncomputable section

namespace Cert.KernelIdeal.Hand

open Idealize.ShloMosaic Idealize.ShloMosaic.TcCoe Idealize.SL.Sem Idealize.ShloMosaic.ValueIdx
open Cert.KernelIdeal

/-- An extended real whose larger of itself and its negation is below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If the ordered comparison of the absolute value with the plus-infinity pattern answers one, the value is a
    real number: the pattern denotes the top element, and the answer one says the strict inequality holds. -/
theorem real_of_abs_olt_inf (x : EReal)
    (e : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at e
  have e' : BitVec.ofBool (decide (max x (-x) < (⊤ : EReal))) = 1#1 := e
  by_cases hlt : max x (-x) < (⊤ : EReal)
  · exact real_of_abs_lt_top x hlt
  · rw [decide_eq_false hlt] at e'
    exact absurd e' (by decide)

/-- Under the precondition (every float input finite) every scale is a real number. -/
theorem scales_real [Cert.Pre_finite_inputs.Facts] (m : (ℓ : Loc nD τ sig) → Buf (Elt Ideal) ℓ)
    (hpre : Cert.Pre_KernelIdeal m) (c : Dev nD) (g : Fin 32) (o : Fin 4096) :
    ∃ r : ℝ, (m ((c.tc : Thread nD τ).loc main_arg3) : Vec Ideal S32x4096 .f32) (ix2 g o) = (r : EReal) := by
  haveI : Subsingleton Cert.Pre_finite_inputs.S_.Idx := ⟨fun a b => funext fun d => d.elim0⟩
  -- the predicate at its one index: a conjunction of three reductions by and
  have h := congrFun (hpre c) ValueIdx.ix0
  dsimp only [Cert.Pre_finite_inputs.fn] at h
  -- the middle conjunct is the reduction over the scales
  have h8 := (IntOp.andi_eq_one.1 h).1
  have h7 := (IntOp.andi_eq_one.1 h8).2
  -- a reduction by and that is one had a one at every entry
  have e := Host.reduce_andi_all _ _ _ _ _ h7 (ix2 g o)
  exact real_of_abs_olt_inf _ e

end Cert.KernelIdeal.Hand

end
-- ==== Proof.KFinal.lean ====
import proofs.«401313_j39213051412616_3_alg».proof.Proof.KPoints
import proofs.«401313_j39213051412616_3_alg».proof.Proof.KHost
import proofs.«401313_j39213051412616_3_alg».proof.Proof.KPre
import proofs.«401313_j39213051412616_3_alg».proof.Proof.KFrame
import proofs.«401313_j39213051412616_3_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-! ## The kernel program's result, and the bridge to the layer as the reference spells it -/

variable (m : (ℓ : Loc nD τ sig) → Buf (Elt Ideal) ℓ) (ρ : Dev nD → PrngReg)

/-- The five argument arrays, each under its literal type. -/
abbrev aX (c : Dev nD) : Vec Ideal S4x2048x4096 .f32 := m ((c : Thread nD τ).loc main_arg0)
abbrev aQ (c : Dev nD) : Vec Ideal S512x4096 .i32 := m ((c : Thread nD τ).loc main_arg1)
abbrev aZ (c : Dev nD) : Vec Ideal S32x512 .i32 := m ((c : Thread nD τ).loc main_arg2)
abbrev aS (c : Dev nD) : Vec Ideal S32x4096 .f32 := m ((c : Thread nD τ).loc main_arg3)
abbrev aB (c : Dev nD) : Vec Ideal S4096 .f32 := m ((c : Thread nD τ).loc main_arg4)

/-- The output matrix: row 2048 b + t, column o is the layer at (b, t, o), the weight spelt as the kernel computes it
    (the integer weight and the zero point scaled separately). -/
def G2 (c : Dev nD) : S8192x4096.Idx → EReal := fun J =>
  Cert.Gptq.layerAt (Cert.Gptq.Wker (aQ m c) (aZ m c) (aS m c)) (aX m c) (aB m c)
    ⟨(J 0).val / 2048, by have h : (J 0).val < 8192 := (J 0).isLt; omega⟩ ⟨(J 0).val % 2048, by omega⟩ ⟨(J 1).val, (J 1).isLt⟩

/-- The scratch's entry (i, q) at a point of column tile n is the dequantised weight (i, 2048 n + q). -/
theorem tile_weight (c : Dev nD) (t : Fin cfg0.N) (i : Fin 4096) (q : Fin 2048) :
    Wtile (F := Ideal) (blk1 m c t) (blk2 m c t) (blk3 m c t) (ix2 i q)
      = Cert.Gptq.Wker (aQ m c) (aZ m c) (aS m c) i ⟨2048 * (t.val / 32) + q.val, by have := pt_lt t; omega⟩ := by
  rw [Wtile_apply, blk1_apply, blk3_apply, blk2_apply]
  unfold arrQ arrS arrZ
  rw [V_v14_apply, V_arg1_eq, V_arg3_eq]
  rfl

/-- What each point leaves in the output buffer is the output matrix's block. -/
theorem hout5 (c : Dev nD) (t : Fin cfg0.N) (r : Fin 256) (q : Fin 2048) :
    ((outsAt m c t.val t.isLt).1 : Vec Ideal S256x2048 .f32) (ix2 r q)
      = G2 m c (ix2 (⟨256 * (t.val % 32) + r.val, by omega⟩ : Fin 8192) (⟨2048 * (t.val / 32) + q.val, by have := pt_lt t; omega⟩ : Fin 4096)) := by
  rw [out_apply]
  unfold G2 Cert.Gptq.layerAt
  refine congrArg₂ (· + ·) (Finset.sum_congr rfl fun i _ => ?_) ?_
  · rw [tile_weight, blk0_apply]
    unfold arrX
    rw [V_v16_apply]
  · rw [blk4_apply]
    unfold arrB
    rw [V_v15_apply]

/-- The output array after the run. -/
theorem final (c : Dev nD) : (dats m 0 c).arrAt 5 cfg0.N = G2 m c :=
  final5 m c (G2 m c) (hout5 m c)

/-- Under the precondition the layer over the kernel's spelling of the weight is the layer over the reference's:
    the scales are real numbers, where the two spellings agree entry by entry. -/
theorem layer_bridge [Cert.Pre_finite_inputs.Facts] (hpre : Cert.Pre_KernelIdeal m) (c : Dev nD) (b : Fin 4) (t : Fin 2048) (o : Fin 4096) :
    Cert.Gptq.layerAt (Cert.Gptq.Wker (aQ m c) (aZ m c) (aS m c)) (aX m c) (aB m c) b t o
      = Cert.Gptq.layerAt (Cert.Gptq.Wref (aQ m c) (aZ m c) (aS m c)) (aX m c) (aB m c) b t o := by
  unfold Cert.Gptq.layerAt
  refine congrArg (· + _) (Finset.sum_congr rfl fun i _ => ?_)
  rw [Cert.Gptq.Wker_eq_Wref _ _ _ i o (scales_real m hpre c (Cert.Gptq.grp i) o)]

/-- THE KERNEL PROGRAM'S RUN, READ: under the precondition every weakly fair execution terminates without a fault,
    the result array the layer of the argument arrays (in the reference's spelling) and the arguments as launched. -/
theorem run_value [Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v18)
        = Cert.Gptq.Gref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_,
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main (F := Ideal) m ρ)
  refine ((h c).2 main_v18 (Pipeline.mem_restRefs_of main_v18 (by decide) (by decide))).trans ?_
  funext j
  rw [eq_ix3 j]
  refine (tail_v18_apply m (dats m) c (j 0) (j 1) (j 2)).trans ?_
  rw [final]
  unfold G2 Cert.Gptq.Gref
  refine Eq.trans ?_ (layer_bridge m hpre c _ _ _)
  have hb : (j 0).val < 4 := (j 0).isLt
  have ht : (j 1).val < 2048 := (j 1).isLt
  refine congrArg₂ (fun (b : Fin 4) (t : Fin 2048) => Cert.Gptq.layerAt (Cert.Gptq.Wker (aQ m c) (aZ m c) (aS m c)) (aX m c) (aB m c) b t _) (Fin.ext ?_) (Fin.ext ?_)
  · show (2048 * (j 0).val + (j 1).val) / 2048 = (j 0).val; omega
  · show (2048 * (j 0).val + (j 1).val) % 2048 = (j 1).val; omega

end Cert.KernelIdeal.Hand

end
-- ==== Proof.RefTerm.lean ====
/-
  The reference program's result as one pure term of its five argument arrays: one named value per
  operation of the program, in the program's order, each the operation's function applied to the named
  values it reads (a named value takes the argument arrays it depends on); the operations of the outlined
  floor division (and of the selection it calls) stand at the place of the call, over the call's operands.
-/
import proofs.«401313_j39213051412616_3_alg».proof.ReferenceIdeal

set_option synthInstance.maxSize 4096

noncomputable section

namespace Cert.ReferenceIdeal.Hand

open Idealize.ShloMosaic Idealize.SL.Sem
open Cert.ReferenceIdeal

variable {F : FTy → Type} [FloatOps F]
variable [Facts]
open Facts₀ Facts

def refTerm.v0 :
    (⟨S8, .i32⟩ : BufTy).Contents (Elt F) :=
  iotaInDim S8 32 0

def refTerm.c :
    (⟨S_, .i32⟩ : BufTy).Contents (Elt F) :=
  constantI S_ 32 4#32

def refTerm.v1 :
    (⟨S8, .i32⟩ : BufTy).Contents (Elt F) :=
  broadcastInDim S8 ![] bcast_S_S8 (refTerm.c (F := F))

def refTerm.v2 :
    (⟨S8, .i32⟩ : BufTy).Contents (Elt F) :=
  muli (refTerm.v0 (F := F)) (refTerm.v1 (F := F))

def refTerm.v3 (a1 : (⟨S512x4096, .i32⟩ : BufTy).Contents (Elt F)) :
    (⟨S512x1x4096, .i32⟩ : BufTy).Contents (Elt F) :=
  broadcastInDim S512x1x4096 ![0, 2] bcast_S512x4096_S512x1x4096_0_2 a1

def refTerm.v4 :
    (⟨S1x8x1, .i32⟩ : BufTy).Contents (Elt F) :=
  broadcastInDim S1x8x1 ![1] bcast_S8_S1x8x1_1 (refTerm.v2 (F := F))

def refTerm.v5 (a1 : (⟨S512x4096, .i32⟩ : BufTy).Contents (Elt F)) :
    (⟨S512x8x4096, .i32⟩ : BufTy).Contents (Elt F) :=
  broadcastInDim S512x8x4096 ![0, 1, 2] bcast_S512x1x4096_S512x8x4096_0_1_2 (refTerm.v3 (F := F) a1)

def refTerm.v6 :
    (⟨S512x8x4096, .i32⟩ : BufTy).Contents (Elt F) :=
  broadcastInDim S512x8x4096 ![0, 1, 2] bcast_S1x8x1_S512x8x4096_0_1_2 (refTerm.v4 (F := F))

def refTerm.v7 (a1 : (⟨S512x4096, .i32⟩ : BufTy).Contents (Elt F)) :
    (⟨S512x8x4096, .i32⟩ : BufTy).Contents (Elt F) :=
  Host.shrsi (refTerm.v5 (F := F) a1) (refTerm.v6 (F := F))

def refTerm.c_0 :
    (⟨S_, .i32⟩ : BufTy).Contents (Elt F) :=
  constantI S_ 32 15#32

def refTerm.v8 :
    (⟨S512x8x4096, .i32⟩ : BufTy).Contents (Elt F) :=
  broadcastInDim S512x8x4096 ![] bcast_S_S512x8x4096 (refTerm.c_0 (F := F))

def refTerm.v9 (a1 : (⟨S512x4096, .i32⟩ : BufTy).Contents (Elt F)) :
    (⟨S512x8x4096, .i32⟩ : BufTy).Contents (Elt F) :=
  andi (refTerm.v7 (F := F) a1) (refTerm.v8 (F := F))

def refTerm.v10 (a1 : (⟨S512x4096, .i32⟩ : BufTy).Contents (Elt F)) :
    (⟨S4096x4096, .i32⟩ : BufTy).Contents (Elt F) :=
  shapeCast S4096x4096 (refTerm.v9 (F := F) a1) shapeCasts_S512x8x4096_S4096x4096

def refTerm.v11 :
    (⟨S8, .i32⟩ : BufTy).Contents (Elt F) :=
  iotaInDim S8 32 0

def refTerm.c_1 :
    (⟨S_, .i32⟩ : BufTy).Contents (Elt F) :=
  constantI S_ 32 4#32

def refTerm.v12 :
    (⟨S8, .i32⟩ : BufTy).Contents (Elt F) :=
  broadcastInDim S8 ![] bcast_S_S8 (refTerm.c_1 (F := F))

def refTerm.v13 :
    (⟨S8, .i32⟩ : BufTy).Contents (Elt F) :=
  muli (refTerm.v11 (F := F)) (refTerm.v12 (F := F))

def refTerm.v14 (a2 : (⟨S32x512, .i32⟩ : BufTy).Contents (Elt F)) :
    (⟨S32x512x1, .i32⟩ : BufTy).Contents (Elt F) :=
  broadcastInDim S32x512x1 ![0, 1] bcast_S32x512_S32x512x1_0_1 a2

def refTerm.v15 :
    (⟨S1x1x8, .i32⟩ : BufTy).Contents (Elt F) :=
  broadcastInDim S1x1x8 ![2] bcast_S8_S1x1x8_2 (refTerm.v13 (F := F))

def refTerm.v16 (a2 : (⟨S32x512, .i32⟩ : BufTy).Contents (Elt F)) :
    (⟨S32x512x8, .i32⟩ : BufTy).Contents (Elt F) :=
  broadcastInDim S32x512x8 ![0, 1, 2] bcast_S32x512x1_S32x512x8_0_1_2 (refTerm.v14 (F := F) a2)

def refTerm.v17 :
    (⟨S32x512x8, .i32⟩ : BufTy).Contents (Elt F) :=
  broadcastInDim S32x512x8 ![0, 1, 2] bcast_S1x1x8_S32x512x8_0_1_2 (refTerm.v15 (F := F))

def refTerm.v18 (a2 : (⟨S32x512, .i32⟩ : BufTy).Contents (Elt F)) :
    (⟨S32x512x8, .i32⟩ : BufTy).Contents (Elt F) :=
  Host.shrsi (refTerm.v16 (F := F) a2) (refTerm.v17 (F := F))

def refTerm.c_2 :
    (⟨S_, .i32⟩ : BufTy).Contents (Elt F) :=
  constantI S_ 32 15#32

def refTerm.v19 :
    (⟨S32x512x8, .i32⟩ : BufTy).Contents (Elt F) :=
  broadcastInDim S32x512x8 ![] bcast_S_S32x512x8 (refTerm.c_2 (F := F))

def refTerm.v20 (a2 : (⟨S32x512, .i32⟩ : BufTy).Contents (Elt F)) :
    (⟨S32x512x8, .i32⟩ : BufTy).Contents (Elt F) :=
  andi (refTerm.v18 (F := F) a2) (refTerm.v19 (F := F))

def refTerm.v21 (a2 : (⟨S32x512, .i32⟩ : BufTy).Contents (Elt F)) :
    (⟨S32x4096, .i32⟩ : BufTy).Contents (Elt F) :=
  shapeCast S32x4096 (refTerm.v20 (F := F) a2) shapeCasts_S32x512x8_S32x4096

def refTerm.c_3 :
    (⟨S_, .i32⟩ : BufTy).Contents (Elt F) :=
  constantI S_ 32 1#32

def refTerm.v22 :
    (⟨S32x4096, .i32⟩ : BufTy).Contents (Elt F) :=
  broadcastInDim S32x4096 ![] bcast_S_S32x4096 (refTerm.c_3 (F := F))

def refTerm.v23 (a2 : (⟨S32x512, .i32⟩ : BufTy).Contents (Elt F)) :
    (⟨S32x4096, .i32⟩ : BufTy).Contents (Elt F) :=
  addi (refTerm.v21 (F := F) a2) (refTerm.v22 (F := F))

def refTerm.v24 :
    (⟨S4096, .i32⟩ : BufTy).Contents (Elt F) :=
  iotaInDim S4096 32 0

def refTerm.c_4 :
    (⟨S_, .i32⟩ : BufTy).Contents (Elt F) :=
  constantI S_ 32 128#32

def refTerm.call0_v0 :
    (⟨S_, .i32⟩ : BufTy).Contents (Elt F) :=
  id (refTerm.c_4 (F := F))

def refTerm.call0_v1 :
    (⟨S4096, .i32⟩ : BufTy).Contents (Elt F) :=
  broadcastInDim S4096 ![] bcast_S_S4096 (refTerm.call0_v0 (F := F))

def refTerm.call0_v2 :
    (⟨S4096, .i32⟩ : BufTy).Contents (Elt F) :=
  Host.divsi (refTerm.v24 (F := F)) (refTerm.call0_v1 (F := F))

def refTerm.call0_v3 :
    (⟨S4096, .i32⟩ : BufTy).Contents (Elt F) :=
  signi (refTerm.v24 (F := F))

def refTerm.call0_v4 :
    (⟨S_, .i32⟩ : BufTy).Contents (Elt F) :=
  signi (refTerm.call0_v0 (F := F))

def refTerm.call0_v5 :
    (⟨S4096, .i32⟩ : BufTy).Contents (Elt F) :=
  broadcastInDim S4096 ![] bcast_S_S4096 (refTerm.call0_v4 (F := F))

def refTerm.call0_v6 :
    (⟨S4096, .i1⟩ : BufTy).Contents (Elt F) :=
  cmpi .ne (refTerm.call0_v3 (F := F)) (refTerm.call0_v5 (F := F))

def refTerm.call0_v7 :
    (⟨S4096, .i32⟩ : BufTy).Contents (Elt F) :=
  broadcastInDim S4096 ![] bcast_S_S4096 (refTerm.call0_v0 (F := F))

def refTerm.call0_v8 :
    (⟨S4096, .i32⟩ : BufTy).Contents (Elt F) :=
  Host.remsi (refTerm.v24 (F := F)) (refTerm.call0_v7 (F := F))

def refTerm.call0_c :
    (⟨S_, .i32⟩ : BufTy).Contents (Elt F) :=
  constantI S_ 32 0#32

def refTerm.call0_v9 :
    (⟨S4096, .i32⟩ : BufTy).Contents (Elt F) :=
  broadcastInDim S4096 ![] bcast_S_S4096 (refTerm.call0_c (F := F))

def refTerm.call0_v10 :
    (⟨S4096, .i1⟩ : BufTy).Contents (Elt F) :=
  cmpi .ne (refTerm.call0_v8 (F := F)) (refTerm.call0_v9 (F := F))

def refTerm.call0_v11 :
    (⟨S4096, .i1⟩ : BufTy).Contents (Elt F) :=
  andi (refTerm.call0_v6 (F := F)) (refTerm.call0_v10 (F := F))

def refTerm.call0_c_0 :
    (⟨S_, .i32⟩ : BufTy).Contents (Elt F) :=
  constantI S_ 32 1#32

def refTerm.call0_v12 :
    (⟨S4096, .i32⟩ : BufTy).Contents (Elt F) :=
  broadcastInDim S4096 ![] bcast_S_S4096 (refTerm.call0_c_0 (F := F))

def refTerm.call0_v13 :
    (⟨S4096, .i32⟩ : BufTy).Contents (Elt F) :=
  subi (refTerm.call0_v2 (F := F)) (refTerm.call0_v12 (F := F))

def refTerm.v25 :
    (⟨S4096, .i32⟩ : BufTy).Contents (Elt F) :=
  select (refTerm.call0_v11 (F := F)) (refTerm.call0_v13 (F := F)) (refTerm.call0_v2 (F := F))

def refTerm.c_5 :
    (⟨S_, .i32⟩ : BufTy).Contents (Elt F) :=
  constantI S_ 32 0#32

def refTerm.v26 :
    (⟨S4096, .i32⟩ : BufTy).Contents (Elt F) :=
  broadcastInDim S4096 ![] bcast_S_S4096 (refTerm.c_5 (F := F))

def refTerm.v27 :
    (⟨S4096, .i1⟩ : BufTy).Contents (Elt F) :=
  cmpi .slt (refTerm.v25 (F := F)) (refTerm.v26 (F := F))

def refTerm.c_6 :
    (⟨S_, .i32⟩ : BufTy).Contents (Elt F) :=
  constantI S_ 32 32#32

def refTerm.v28 :
    (⟨S4096, .i32⟩ : BufTy).Contents (Elt F) :=
  broadcastInDim S4096 ![] bcast_S_S4096 (refTerm.c_6 (F := F))

def refTerm.v29 :
    (⟨S4096, .i32⟩ : BufTy).Contents (Elt F) :=
  addi (refTerm.v25 (F := F)) (refTerm.v28 (F := F))

def refTerm.v30 :
    (⟨S4096, .i32⟩ : BufTy).Contents (Elt F) :=
  select (refTerm.v27 (F := F)) (refTerm.v29 (F := F)) (refTerm.v25 (F := F))

def refTerm.v31 :
    (⟨S4096x1, .i32⟩ : BufTy).Contents (Elt F) :=
  broadcastInDim S4096x1 ![0] bcast_S4096_S4096x1_0 (refTerm.v30 (F := F))

def refTerm.v32 (a3 : (⟨S32x4096, .f32⟩ : BufTy).Contents (Elt F)) :
    (⟨S4096x4096, .f32⟩ : BufTy).Contents (Elt F) :=
  Host.gather gather_S32x4096_S4096x1_S4096x4096_1_0_n_n_0_1_14096 a3 (refTerm.v31 (F := F))

def refTerm.c_7 :
    (⟨S_, .i32⟩ : BufTy).Contents (Elt F) :=
  constantI S_ 32 0#32

def refTerm.v33 :
    (⟨S4096, .i32⟩ : BufTy).Contents (Elt F) :=
  broadcastInDim S4096 ![] bcast_S_S4096 (refTerm.c_7 (F := F))

def refTerm.v34 :
    (⟨S4096, .i1⟩ : BufTy).Contents (Elt F) :=
  cmpi .slt (refTerm.v25 (F := F)) (refTerm.v33 (F := F))

def refTerm.c_8 :
    (⟨S_, .i32⟩ : BufTy).Contents (Elt F) :=
  constantI S_ 32 32#32

def refTerm.v35 :
    (⟨S4096, .i32⟩ : BufTy).Contents (Elt F) :=
  broadcastInDim S4096 ![] bcast_S_S4096 (refTerm.c_8 (F := F))

def refTerm.v36 :
    (⟨S4096, .i32⟩ : BufTy).Contents (Elt F) :=
  addi (refTerm.v25 (F := F)) (refTerm.v35 (F := F))

def refTerm.v37 :
    (⟨S4096, .i32⟩ : BufTy).Contents (Elt F) :=
  select (refTerm.v34 (F := F)) (refTerm.v36 (F := F)) (refTerm.v25 (F := F))

def refTerm.v38 :
    (⟨S4096x1, .i32⟩ : BufTy).Contents (Elt F) :=
  broadcastInDim S4096x1 ![0] bcast_S4096_S4096x1_0 (refTerm.v37 (F := F))

def refTerm.v39 (a2 : (⟨S32x512, .i32⟩ : BufTy).Contents (Elt F)) :
    (⟨S4096x4096, .i32⟩ : BufTy).Contents (Elt F) :=
  Host.gather gather_S32x4096_S4096x1_S4096x4096_1_0_n_n_0_1_14096 (refTerm.v23 (F := F) a2) (refTerm.v38 (F := F))

def refTerm.v40 (a1 : (⟨S512x4096, .i32⟩ : BufTy).Contents (Elt F)) (a2 : (⟨S32x512, .i32⟩ : BufTy).Contents (Elt F)) :
    (⟨S4096x4096, .i32⟩ : BufTy).Contents (Elt F) :=
  subi (refTerm.v10 (F := F) a1) (refTerm.v39 (F := F) a2)

def refTerm.v41 (a1 : (⟨S512x4096, .i32⟩ : BufTy).Contents (Elt F)) (a2 : (⟨S32x512, .i32⟩ : BufTy).Contents (Elt F)) :
    (⟨S4096x4096, .f32⟩ : BufTy).Contents (Elt F) :=
  sitofp .f32 (refTerm.v40 (F := F) a1 a2)

def refTerm.v42 (a1 : (⟨S512x4096, .i32⟩ : BufTy).Contents (Elt F)) (a2 : (⟨S32x512, .i32⟩ : BufTy).Contents (Elt F)) (a3 : (⟨S32x4096, .f32⟩ : BufTy).Contents (Elt F)) :
    (⟨S4096x4096, .f32⟩ : BufTy).Contents (Elt F) :=
  mulf (refTerm.v32 (F := F) a3) (refTerm.v41 (F := F) a1 a2)

def refTerm.v43 (a0 : (⟨S4x2048x4096, .f32⟩ : BufTy).Contents (Elt F)) (a1 : (⟨S512x4096, .i32⟩ : BufTy).Contents (Elt F)) (a2 : (⟨S32x512, .i32⟩ : BufTy).Contents (Elt F)) (a3 : (⟨S32x4096, .f32⟩ : BufTy).Contents (Elt F)) :
    (⟨S4x2048x4096, .f32⟩ : BufTy).Contents (Elt F) :=
  Host.dotGeneral dot_S4x2048x4096_S4096x4096_S4x2048x4096_2_0_01_1_n_n none a0 (refTerm.v42 (F := F) a1 a2 a3)

def refTerm.v44 (a4 : (⟨S4096, .f32⟩ : BufTy).Contents (Elt F)) :
    (⟨S1x1x4096, .f32⟩ : BufTy).Contents (Elt F) :=
  broadcastInDim S1x1x4096 ![2] bcast_S4096_S1x1x4096_2 a4

def refTerm.v45 (a4 : (⟨S4096, .f32⟩ : BufTy).Contents (Elt F)) :
    (⟨S4x2048x4096, .f32⟩ : BufTy).Contents (Elt F) :=
  broadcastInDim S4x2048x4096 ![0, 1, 2] bcast_S1x1x4096_S4x2048x4096_0_1_2 (refTerm.v44 (F := F) a4)

def refTerm.v46 (a0 : (⟨S4x2048x4096, .f32⟩ : BufTy).Contents (Elt F)) (a1 : (⟨S512x4096, .i32⟩ : BufTy).Contents (Elt F)) (a2 : (⟨S32x512, .i32⟩ : BufTy).Contents (Elt F)) (a3 : (⟨S32x4096, .f32⟩ : BufTy).Contents (Elt F)) (a4 : (⟨S4096, .f32⟩ : BufTy).Contents (Elt F)) :
    (⟨S4x2048x4096, .f32⟩ : BufTy).Contents (Elt F) :=
  addf (refTerm.v43 (F := F) a0 a1 a2 a3) (refTerm.v45 (F := F) a4)

/-- The result array of the reference program, from the contents of its five arguments. -/
def refTerm (a0 : (⟨S4x2048x4096, .f32⟩ : BufTy).Contents (Elt F)) (a1 : (⟨S512x4096, .i32⟩ : BufTy).Contents (Elt F))
    (a2 : (⟨S32x512, .i32⟩ : BufTy).Contents (Elt F)) (a3 : (⟨S32x4096, .f32⟩ : BufTy).Contents (Elt F))
    (a4 : (⟨S4096, .f32⟩ : BufTy).Contents (Elt F)) : (⟨S4x2048x4096, .f32⟩ : BufTy).Contents (Elt F) :=
  refTerm.v46 (F := F) a0 a1 a2 a3 a4

end Cert.ReferenceIdeal.Hand

end
-- ==== Proof.RefRun.lean ====
/-
  The reference program's run: its operations as one list, in the program's order, the outlined floor division's
  (and the selection's it calls) at the place of the call over the call's record of buffers; every weakly fair
  execution ends with each buffer at the fold of the operations over the launch contents; and the fold at the
  result buffer is the composed term of the argument arrays, the arguments themselves unchanged.
-/
import proofs.«401313_j39213051412616_3_alg».proof.ReferenceIdeal
import proofs.«401313_j39213051412616_3_alg».proof.Proof.Gen.ReferenceIdeal
import proofs.«401313_j39213051412616_3_alg».proof.Proof.RefTerm
import Idealize.ShloMosaic.Lib.StableHlo.Run

set_option synthInstance.maxSize 4096

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F]

/-- The program's 73 operations, in order. -/
abbrev ops : List (HloOp τ sig (Elt F)) :=
  [ StableHlo.nullary main_v0 (iotaInDim S8 32 0),
    StableHlo.nullary main_c (constantI S_ 32 4#32),
    StableHlo.unary main_c main_v1 (broadcastInDim S8 ![] bcast_S_S8 : (⟨S_, .i32⟩ : BufTy).Contents (Elt F) → (⟨S8, .i32⟩ : BufTy).Contents (Elt F)),
    StableHlo.binary main_v0 main_v1 main_v2 (muli : (⟨S8, .i32⟩ : BufTy).Contents (Elt F) → (⟨S8, .i32⟩ : BufTy).Contents (Elt F) → (⟨S8, .i32⟩ : BufTy).Contents (Elt F)),
    StableHlo.unary main_arg1 main_v3 (broadcastInDim S512x1x4096 ![0, 2] bcast_S512x4096_S512x1x4096_0_2 : (⟨S512x4096, .i32⟩ : BufTy).Contents (Elt F) → (⟨S512x1x4096, .i32⟩ : BufTy).Contents (Elt F)),
    StableHlo.unary main_v2 main_v4 (broadcastInDim S1x8x1 ![1] bcast_S8_S1x8x1_1 : (⟨S8, .i32⟩ : BufTy).Contents (Elt F) → (⟨S1x8x1, .i32⟩ : BufTy).Contents (Elt F)),
    StableHlo.unary main_v3 main_v5 (broadcastInDim S512x8x4096 ![0, 1, 2] bcast_S512x1x4096_S512x8x4096_0_1_2 : (⟨S512x1x4096, .i32⟩ : BufTy).Contents (Elt F) → (⟨S512x8x4096, .i32⟩ : BufTy).Contents (Elt F)),
    StableHlo.unary main_v4 main_v6 (broadcastInDim S512x8x4096 ![0, 1, 2] bcast_S1x8x1_S512x8x4096_0_1_2 : (⟨S1x8x1, .i32⟩ : BufTy).Contents (Elt F) → (⟨S512x8x4096, .i32⟩ : BufTy).Contents (Elt F)),
    StableHlo.binary main_v5 main_v6 main_v7 (Host.shrsi : (⟨S512x8x4096, .i32⟩ : BufTy).Contents (Elt F) → (⟨S512x8x4096, .i32⟩ : BufTy).Contents (Elt F) → (⟨S512x8x4096, .i32⟩ : BufTy).Contents (Elt F)),
    StableHlo.nullary main_c_0 (constantI S_ 32 15#32),
    StableHlo.unary main_c_0 main_v8 (broadcastInDim S512x8x4096 ![] bcast_S_S512x8x4096 : (⟨S_, .i32⟩ : BufTy).Contents (Elt F) → (⟨S512x8x4096, .i32⟩ : BufTy).Contents (Elt F)),
    StableHlo.binary main_v7 main_v8 main_v9 (andi : (⟨S512x8x4096, .i32⟩ : BufTy).Contents (Elt F) → (⟨S512x8x4096, .i32⟩ : BufTy).Contents (Elt F) → (⟨S512x8x4096, .i32⟩ : BufTy).Contents (Elt F)),
    StableHlo.reshape main_v9 main_v10 rfl shapeCasts_S512x8x4096_S4096x4096,
    StableHlo.nullary main_v11 (iotaInDim S8 32 0),
    StableHlo.nullary main_c_1 (constantI S_ 32 4#32),
    StableHlo.unary main_c_1 main_v12 (broadcastInDim S8 ![] bcast_S_S8 : (⟨S_, .i32⟩ : BufTy).Contents (Elt F) → (⟨S8, .i32⟩ : BufTy).Contents (Elt F)),
    StableHlo.binary main_v11 main_v12 main_v13 (muli : (⟨S8, .i32⟩ : BufTy).Contents (Elt F) → (⟨S8, .i32⟩ : BufTy).Contents (Elt F) → (⟨S8, .i32⟩ : BufTy).Contents (Elt F)),
    StableHlo.unary main_arg2 main_v14 (broadcastInDim S32x512x1 ![0, 1] bcast_S32x512_S32x512x1_0_1 : (⟨S32x512, .i32⟩ : BufTy).Contents (Elt F) → (⟨S32x512x1, .i32⟩ : BufTy).Contents (Elt F)),
    StableHlo.unary main_v13 main_v15 (broadcastInDim S1x1x8 ![2] bcast_S8_S1x1x8_2 : (⟨S8, .i32⟩ : BufTy).Contents (Elt F) → (⟨S1x1x8, .i32⟩ : BufTy).Contents (Elt F)),
    StableHlo.unary main_v14 main_v16 (broadcastInDim S32x512x8 ![0, 1, 2] bcast_S32x512x1_S32x512x8_0_1_2 : (⟨S32x512x1, .i32⟩ : BufTy).Contents (Elt F) → (⟨S32x512x8, .i32⟩ : BufTy).Contents (Elt F)),
    StableHlo.unary main_v15 main_v17 (broadcastInDim S32x512x8 ![0, 1, 2] bcast_S1x1x8_S32x512x8_0_1_2 : (⟨S1x1x8, .i32⟩ : BufTy).Contents (Elt F) → (⟨S32x512x8, .i32⟩ : BufTy).Contents (Elt F)),
    StableHlo.binary main_v16 main_v17 main_v18 (Host.shrsi : (⟨S32x512x8, .i32⟩ : BufTy).Contents (Elt F) → (⟨S32x512x8, .i32⟩ : BufTy).Contents (Elt F) → (⟨S32x512x8, .i32⟩ : BufTy).Contents (Elt F)),
    StableHlo.nullary main_c_2 (constantI S_ 32 15#32),
    StableHlo.unary main_c_2 main_v19 (broadcastInDim S32x512x8 ![] bcast_S_S32x512x8 : (⟨S_, .i32⟩ : BufTy).Contents (Elt F) → (⟨S32x512x8, .i32⟩ : BufTy).Contents (Elt F)),
    StableHlo.binary main_v18 main_v19 main_v20 (andi : (⟨S32x512x8, .i32⟩ : BufTy).Contents (Elt F) → (⟨S32x512x8, .i32⟩ : BufTy).Contents (Elt F) → (⟨S32x512x8, .i32⟩ : BufTy).Contents (Elt F)),
    StableHlo.reshape main_v20 main_v21 rfl shapeCasts_S32x512x8_S32x4096,
    StableHlo.nullary main_c_3 (constantI S_ 32 1#32),
    StableHlo.unary main_c_3 main_v22 (broadcastInDim S32x4096 ![] bcast_S_S32x4096 : (⟨S_, .i32⟩ : BufTy).Contents (Elt F) → (⟨S32x4096, .i32⟩ : BufTy).Contents (Elt F)),
    StableHlo.binary main_v21 main_v22 main_v23 (addi : (⟨S32x4096, .i32⟩ : BufTy).Contents (Elt F) → (⟨S32x4096, .i32⟩ : BufTy).Contents (Elt F) → (⟨S32x4096, .i32⟩ : BufTy).Contents (Elt F)),
    StableHlo.nullary main_v24 (iotaInDim S4096 32 0),
    StableHlo.nullary main_c_4 (constantI S_ 32 128#32),
    StableHlo.TRef.unary (.of main_c_4 : TRef sig ⟨S_, .i32⟩) main_call0.v0 id,
    StableHlo.TRef.unary main_call0.v0 main_call0.v1 (broadcastInDim S4096 ![] bcast_S_S4096),
    StableHlo.TRef.binary (.of main_v24 : TRef sig ⟨S4096, .i32⟩) main_call0.v1 main_call0.v2 Host.divsi,
    StableHlo.TRef.unary (.of main_v24 : TRef sig ⟨S4096, .i32⟩) main_call0.v3 signi,
    StableHlo.TRef.unary main_call0.v0 main_call0.v4 signi,
    StableHlo.TRef.unary main_call0.v4 main_call0.v5 (broadcastInDim S4096 ![] bcast_S_S4096),
    StableHlo.TRef.binary main_call0.v3 main_call0.v5 main_call0.v6 (cmpi .ne),
    StableHlo.TRef.unary main_call0.v0 main_call0.v7 (broadcastInDim S4096 ![] bcast_S_S4096),
    StableHlo.TRef.binary (.of main_v24 : TRef sig ⟨S4096, .i32⟩) main_call0.v7 main_call0.v8 Host.remsi,
    StableHlo.TRef.nullary main_call0.c (constantI S_ 32 0#32),
    StableHlo.TRef.unary main_call0.c main_call0.v9 (broadcastInDim S4096 ![] bcast_S_S4096),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S4096 ![] bcast_S_S4096),
    StableHlo.TRef.binary main_call0.v2 main_call0.v12 main_call0.v13 subi,
    StableHlo.TRef.ternary main_call0.v11 main_call0.v13 main_call0.v2 main_call0.call0.v0 select,
    StableHlo.nullary main_c_5 (constantI S_ 32 0#32),
    StableHlo.unary main_c_5 main_v26 (broadcastInDim S4096 ![] bcast_S_S4096 : (⟨S_, .i32⟩ : BufTy).Contents (Elt F) → (⟨S4096, .i32⟩ : BufTy).Contents (Elt F)),
    StableHlo.binary main_v25 main_v26 main_v27 (cmpi .slt : (⟨S4096, .i32⟩ : BufTy).Contents (Elt F) → (⟨S4096, .i32⟩ : BufTy).Contents (Elt F) → (⟨S4096, .i1⟩ : BufTy).Contents (Elt F)),
    StableHlo.nullary main_c_6 (constantI S_ 32 32#32),
    StableHlo.unary main_c_6 main_v28 (broadcastInDim S4096 ![] bcast_S_S4096 : (⟨S_, .i32⟩ : BufTy).Contents (Elt F) → (⟨S4096, .i32⟩ : BufTy).Contents (Elt F)),
    StableHlo.binary main_v25 main_v28 main_v29 (addi : (⟨S4096, .i32⟩ : BufTy).Contents (Elt F) → (⟨S4096, .i32⟩ : BufTy).Contents (Elt F) → (⟨S4096, .i32⟩ : BufTy).Contents (Elt F)),
    StableHlo.ternary main_v27 main_v29 main_v25 main_v30 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v30 main_v31 (broadcastInDim S4096x1 ![0] bcast_S4096_S4096x1_0 : (⟨S4096, .i32⟩ : BufTy).Contents (Elt F) → (⟨S4096x1, .i32⟩ : BufTy).Contents (Elt F)),
    StableHlo.binary main_arg3 main_v31 main_v32 ((fun x i => Host.gather gather_S32x4096_S4096x1_S4096x4096_1_0_n_n_0_1_14096 x i) : (⟨S32x4096, .f32⟩ : BufTy).Contents (Elt F) → (⟨S4096x1, .i32⟩ : BufTy).Contents (Elt F) → (⟨S4096x4096, .f32⟩ : BufTy).Contents (Elt F)),
    StableHlo.nullary main_c_7 (constantI S_ 32 0#32),
    StableHlo.unary main_c_7 main_v33 (broadcastInDim S4096 ![] bcast_S_S4096 : (⟨S_, .i32⟩ : BufTy).Contents (Elt F) → (⟨S4096, .i32⟩ : BufTy).Contents (Elt F)),
    StableHlo.binary main_v25 main_v33 main_v34 (cmpi .slt : (⟨S4096, .i32⟩ : BufTy).Contents (Elt F) → (⟨S4096, .i32⟩ : BufTy).Contents (Elt F) → (⟨S4096, .i1⟩ : BufTy).Contents (Elt F)),
    StableHlo.nullary main_c_8 (constantI S_ 32 32#32),
    StableHlo.unary main_c_8 main_v35 (broadcastInDim S4096 ![] bcast_S_S4096 : (⟨S_, .i32⟩ : BufTy).Contents (Elt F) → (⟨S4096, .i32⟩ : BufTy).Contents (Elt F)),
    StableHlo.binary main_v25 main_v35 main_v36 (addi : (⟨S4096, .i32⟩ : BufTy).Contents (Elt F) → (⟨S4096, .i32⟩ : BufTy).Contents (Elt F) → (⟨S4096, .i32⟩ : BufTy).Contents (Elt F)),
    StableHlo.ternary main_v34 main_v36 main_v25 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v37 main_v38 (broadcastInDim S4096x1 ![0] bcast_S4096_S4096x1_0 : (⟨S4096, .i32⟩ : BufTy).Contents (Elt F) → (⟨S4096x1, .i32⟩ : BufTy).Contents (Elt F)),
    StableHlo.binary main_v23 main_v38 main_v39 ((fun x i => Host.gather gather_S32x4096_S4096x1_S4096x4096_1_0_n_n_0_1_14096 x i) : (⟨S32x4096, .i32⟩ : BufTy).Contents (Elt F) → (⟨S4096x1, .i32⟩ : BufTy).Contents (Elt F) → (⟨S4096x4096, .i32⟩ : BufTy).Contents (Elt F)),
    StableHlo.binary main_v10 main_v39 main_v40 (subi : (⟨S4096x4096, .i32⟩ : BufTy).Contents (Elt F) → (⟨S4096x4096, .i32⟩ : BufTy).Contents (Elt F) → (⟨S4096x4096, .i32⟩ : BufTy).Contents (Elt F)),
    StableHlo.unary main_v40 main_v41 (sitofp .f32 : (⟨S4096x4096, .i32⟩ : BufTy).Contents (Elt F) → (⟨S4096x4096, .f32⟩ : BufTy).Contents (Elt F)),
    StableHlo.binary main_v32 main_v41 main_v42 (mulf : (⟨S4096x4096, .f32⟩ : BufTy).Contents (Elt F) → (⟨S4096x4096, .f32⟩ : BufTy).Contents (Elt F) → (⟨S4096x4096, .f32⟩ : BufTy).Contents (Elt F)),
    StableHlo.binary main_arg0 main_v42 main_v43 ((fun l r => Host.dotGeneral dot_S4x2048x4096_S4096x4096_S4x2048x4096_2_0_01_1_n_n none l r) : (⟨S4x2048x4096, .f32⟩ : BufTy).Contents (Elt F) → (⟨S4096x4096, .f32⟩ : BufTy).Contents (Elt F) → (⟨S4x2048x4096, .f32⟩ : BufTy).Contents (Elt F)),
    StableHlo.unary main_arg4 main_v44 (broadcastInDim S1x1x4096 ![2] bcast_S4096_S1x1x4096_2 : (⟨S4096, .f32⟩ : BufTy).Contents (Elt F) → (⟨S1x1x4096, .f32⟩ : BufTy).Contents (Elt F)),
    StableHlo.unary main_v44 main_v45 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v43 main_v45 main_v46 (addf : (⟨S4x2048x4096, .f32⟩ : BufTy).Contents (Elt F) → (⟨S4x2048x4096, .f32⟩ : BufTy).Contents (Elt F) → (⟨S4x2048x4096, .f32⟩ : BufTy).Contents (Elt F)) ]

set_option maxRecDepth 16384 in
set_option maxHeartbeats 1000000 in
/-- The program is that straight line: the outlined functions opened at their calls, sequencing reassociated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    unary_bufs_sub .., unary_bufs_sub .., binary_bufs_sub .., nullary_bufs_sub .., unary_bufs_sub .., binary_bufs_sub ..,
    reshape_bufs_sub .., nullary_bufs_sub .., nullary_bufs_sub .., unary_bufs_sub .., binary_bufs_sub .., unary_bufs_sub ..,
    unary_bufs_sub .., unary_bufs_sub .., unary_bufs_sub .., binary_bufs_sub .., nullary_bufs_sub .., unary_bufs_sub ..,
    binary_bufs_sub .., reshape_bufs_sub .., nullary_bufs_sub .., unary_bufs_sub .., binary_bufs_sub .., nullary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., binary_bufs_sub .., binary_bufs_sub .., unary_bufs_sub .., unary_bufs_sub ..,
    binary_bufs_sub ..⟩

set_option maxHeartbeats 1000000 in
/-- From any memory with zero counters, for any float values: every weakly fair execution of the program
    terminates, each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefRead.lean ====
/-
  The reference program's run read back: the fold of its operations at the result buffer is the composed term of
  the five argument arrays, the fold at an argument buffer is the argument; so every weakly fair execution ends
  with the result buffer at that term of the launch contents and the arguments as launched.
-/
import proofs.«401313_j39213051412616_3_alg».proof.Proof.RefRun

set_option synthInstance.maxSize 4096

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F]

set_option maxRecDepth 16384 in
set_option maxHeartbeats 2000000 in
/-- The fold at the result buffer is the composed term of the five arguments' contents. -/
theorem after_v46 (V : Valuation τ sig (Elt F)) :
    after ops V (main_v46 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

theorem after_arg0 (V : Valuation τ sig (Elt F)) :
    after ops V (main_arg0 : DevRef τ sig) = V (main_arg0 : DevRef τ sig) := by
  after_results_simp

theorem after_arg1 (V : Valuation τ sig (Elt F)) :
    after ops V (main_arg1 : DevRef τ sig) = V (main_arg1 : DevRef τ sig) := by
  after_results_simp

theorem after_arg2 (V : Valuation τ sig (Elt F)) :
    after ops V (main_arg2 : DevRef τ sig) = V (main_arg2 : DevRef τ sig) := by
  after_results_simp

theorem after_arg3 (V : Valuation τ sig (Elt F)) :
    after ops V (main_arg3 : DevRef τ sig) = V (main_arg3 : DevRef τ sig) := by
  after_results_simp

theorem after_arg4 (V : Valuation τ sig (Elt F)) :
    after ops V (main_arg4 : DevRef τ sig) = V (main_arg4 : DevRef τ sig) := by
  after_results_simp

/-- For any float values, from any memory with zero counters: every weakly fair execution of the program
    terminates, its result array the composed term of its argument arrays and the arguments as launched. -/
theorem run_term (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v46)
        = refTerm (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v46).trans (after_v46 _),
      (h c main_arg0).trans (after_arg0 _), (h c main_arg1).trans (after_arg1 _), (h c main_arg2).trans (after_arg2 _),
      (h c main_arg3).trans (after_arg3 _), (h c main_arg4).trans (after_arg4 _)⟩)
    (run_main m ρ)

end Cert.ReferenceIdeal.Hand

end
-- ==== Proof.RefValue1.lean ====
/-
  Words of the reference's dequantisation, one element at a time: a field of a packed word as the host's
  shift and mask compute it, the floor division of a small non-negative number by 128 as the host program
  spells it (quotient, less one when the signs differ and the remainder is not zero), and the wrap of a
  negative row number, which leaves a non-negative one alone.
-/
import proofs.«401313_j39213051412616_3_alg».proof.Proof.Spec
import Idealize.ShloMosaic.PureOps.Float
import Idealize.ShloMosaic.PureOps.Vector

noncomputable section

namespace Cert.ReferenceIdeal.Hand

open Idealize.ShloMosaic

/-- The sign of a word as a word: 0 at zero, -1 at a negative word, 1 at a positive one. -/
def sgnW (x : BitVec 32) : BitVec 32 := if x = 0 then 0 else if x.msb then -1 else 1

/-- The floor division as the host program spells it: the quotient rounded toward zero, less one when the
    signs of dividend and divisor differ and the remainder is not zero. -/
def floorDivW (x d : BitVec 32) : BitVec 32 :=
  Scalar.select (IntOp.andi (IntOp.cmpi .ne (sgnW x) (sgnW d)) (IntOp.cmpi .ne (IntOp.remsi .host x d) 0#32))
    (IntOp.subi (IntOp.divsi .host x d) 1#32) (IntOp.divsi .host x d)

/-- The wrap of a negative row number by 32. -/
def wrapW (x : BitVec 32) : BitVec 32 :=
  Scalar.select (IntOp.cmpi .slt x 0#32) (IntOp.addi x 32#32) x

/-- Four times a field number below 8, as words. -/
theorem shift_word (p : Fin 8) : IntOp.muli (BitVec.ofNat 32 p.val) 4#32 = BitVec.ofNat 32 (4 * p.val) := by
  revert p; decide

/-- Four times a field number below 8 is a shift amount below the width. -/
theorem shift_word_lt (p : Fin 8) : (BitVec.ofNat 32 (4 * p.val)).toNat < 32 := by
  revert p; decide

/-- The host's arithmetic shift by four times the field number, masked with 15, is the field. -/
theorem field_eq_nib (w : BitVec 32) (p : Fin 8) :
    IntOp.andi (IntOp.shrsi .host w (IntOp.muli (BitVec.ofNat 32 p.val) 4#32)) 15#32 = Cert.Gptq.nib w p := by
  rw [shift_word]
  unfold IntOp.shrsi
  rw [if_pos (shift_word_lt p)]
  rfl

/-- The quotient, rounded toward zero, of a number below 4096 by 128. -/
theorem divsi_128 (n : Nat) (h : n < 4096) :
    IntOp.divsi .host (BitVec.ofNat 32 n) 128#32 = BitVec.ofNat 32 (n / 128) := by
  unfold IntOp.divsi
  rw [if_neg (by
    unfold IntOp.SDivCorner
    rintro (h0 | ⟨_, h1⟩)
    · exact absurd h0 (by decide)
    · exact absurd h1 (by decide))]
  have hx : (BitVec.ofNat 32 n).toNat = n := by
    rw [BitVec.toNat_ofNat]; exact Nat.mod_eq_of_lt (by omega)
  have hmsb : (BitVec.ofNat 32 n).msb = false := by
    rw [BitVec.msb_eq_decide]; simp only [hx]; exact decide_eq_false (by omega)
  have hd : (128#32 : BitVec 32).msb = false := by decide
  rw [BitVec.sdiv_eq, hmsb, hd]
  apply BitVec.eq_of_toNat_eq
  show (BitVec.ofNat 32 n / 128#32).toNat = _
  rw [BitVec.toNat_udiv, hx, BitVec.toNat_ofNat]
  show n / 128 = _
  exact (Nat.mod_eq_of_lt (by omega)).symm

/-- The sign of a positive number below 4096 is one. -/
theorem sgnW_pos (n : Nat) (h0 : 0 < n) (h : n < 4096) : sgnW (BitVec.ofNat 32 n) = 1#32 := by
  have hx : (BitVec.ofNat 32 n).toNat = n := by
    rw [BitVec.toNat_ofNat]; exact Nat.mod_eq_of_lt (by omega)
  have hne : BitVec.ofNat 32 n ≠ 0 := fun e => by
    have := congrArg BitVec.toNat e; rw [hx] at this; simp at this; omega
  have hmsb : (BitVec.ofNat 32 n).msb = false := by
    rw [BitVec.msb_eq_decide]; simp only [hx]; exact decide_eq_false (by omega)
  unfold sgnW
  rw [if_neg hne, hmsb]
  rfl

/-- The floor division of a number below 4096 by 128, as the host program spells it, is the quotient of the
    natural numbers: the correction is never taken, the signs differing only at zero, where the remainder is zero. -/
theorem floorDivW_128 (n : Nat) (h : n < 4096) : floorDivW (BitVec.ofNat 32 n) 128#32 = BitVec.ofNat 32 (n / 128) := by
  unfold floorDivW
  have hc : IntOp.andi (IntOp.cmpi .ne (sgnW (BitVec.ofNat 32 n)) (sgnW 128#32))
      (IntOp.cmpi .ne (IntOp.remsi .host (BitVec.ofNat 32 n) 128#32) 0#32) = 0#1 := by
    rcases Nat.eq_zero_or_pos n with h0 | h0
    · subst h0; decide
    · rw [sgnW_pos n h0 h]
      have : IntOp.cmpi .ne (1#32 : BitVec 32) (sgnW 128#32) = 0#1 := by decide
      rw [this]
      exact BitVec.zero_and
  rw [hc, divsi_128 n h]
  exact if_neg (by decide)

/-- A row number below 32 is not negative: its wrap is itself. -/
theorem wrapW_small (g : Nat) (h : g < 32) : wrapW (BitVec.ofNat 32 g) = BitVec.ofNat 32 g := by
  have : ∀ g : Fin 32, wrapW (BitVec.ofNat 32 g.val) = BitVec.ofNat 32 g.val := by decide
  exact this ⟨g, h⟩

/-- A row number below 32, read signed and clamped into the 32 rows, is itself. -/
theorem clamp_small (g : Nat) (h : g < 32) : min (BitVec.ofNat 32 g).toInt.toNat (32 - 1) = g := by
  have : ∀ g : Fin 32, min (BitVec.ofNat 32 g.val).toInt.toNat (32 - 1) = g.val := by decide
  exact this ⟨g, h⟩

end Cert.ReferenceIdeal.Hand

end
-- ==== Proof.LibTakeRows.lean ====
/-
  Rows of a table taken by a column of row numbers, read at an entry.

  jnp's `table[idx]` for a rank-2 `table : [R, C]` and an integer vector `idx : [n]` lowers to a
  `stablehlo.gather` over the indices as a column `[n, 1]`: offset_dims `[1]`, collapsed_slice_dims `[0]`,
  start_index_map `[0]`, index_vector_dim 1, slice_sizes `[1, C]`. Result entry (e, k) is the table's entry
  (row, k), where row is the start index `idx[e, 0]` read as a signed integer and clamped into `[0, R − 1]`,
  as StableHLO's gather clamps every start index.
-/
import Idealize.ShloMosaic.Lib.ValueIdx

noncomputable section

namespace Idealize.ShloMosaic.TakeRows

open Idealize.ShloMosaic Idealize.ShloMosaic.ValueIdx

variable {α : Type}

/-- Those dimension numbers for a table `[R, C]`, start indices `[n, 1]` and a result `[n, C]`; their conditions
    `wf` are decided on a program's literal shapes. -/
abbrev rowDims (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER READ AT (e, k): the table at row `idx[e, 0]`, read signed and clamped into `[0, R − 1]`, column k. -/
theorem gather_rows_apply {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowDims R C n wf) x idx (ix2 e k)
      = x (ix2 ⟨min (idx (ix2 e ⟨0, Nat.one_pos⟩)).toInt.toNat (R - 1), by omega⟩ k) := by
  unfold Host.gather
  congr 1
  funext a
  refine Fin.ext ?_
  show (rowDims R C n wf).start (ix2 e k) idx a + (rowDims R C n wf).batchCoord (ix2 e k) a
    + (rowDims R C n wf).offCoord (ix2 e k) a = _
  have h0 : (rowDims R C n wf).start (ix2 e k) idx (0 : Fin 2) + (rowDims R C n wf).batchCoord (ix2 e k) (0 : Fin 2)
      + (rowDims R C n wf).offCoord (ix2 e k) (0 : Fin 2) = min (idx (ix2 e ⟨0, Nat.one_pos⟩)).toInt.toNat (R - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C n wf).startIndexMap from List.mem_singleton.mpr rfl)]
    have hsi : (rowDims R C n wf).siIdx (ix2 e k) ⟨List.idxOf (0 : Fin 2) (rowDims R C n wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : (rowDims R C n wf).start (ix2 e k) idx (1 : Fin 2) + (rowDims R C n wf).batchCoord (ix2 e k) (1 : Fin 2)
      + (rowDims R C n wf).offCoord (ix2 e k) (1 : Fin 2) = k.val := by
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl
  match a with
  | ⟨0, _⟩ => exact h0
  | ⟨1, _⟩ => exact h1

end Idealize.ShloMosaic.TakeRows

end
-- ==== Proof.RefValue2.lean ====
/-
  The reference's dequantised weight, entry by entry: the integer weight is the field of its packed word,
  the zero point the field of its packed word plus one, the row's group its number divided by 128, the two
  row gathers read the group's scale and zero point, and the product of the scale with the difference,
  converted, is the weight of the specification.
-/
import proofs.«401313_j39213051412616_3_alg».proof.Proof.RefTerm
import proofs.«401313_j39213051412616_3_alg».proof.Proof.Spec
import proofs.«401313_j39213051412616_3_alg».proof.Proof.RefValue1
import proofs.«401313_j39213051412616_3_alg».proof.Proof.LibTakeRows
import Idealize.ShloMosaic.Lib.IdealHost
import Idealize.ShloMosaic.Lib.Pipeline.Value

noncomputable section

namespace Cert.ReferenceIdeal.Hand

open Idealize.ShloMosaic Idealize.ShloMosaic.ValueIdx Idealize.SL.Sem
open Cert.ReferenceIdeal

variable [Facts]
open Facts₀ Facts

/-! ## The integer weights -/

/-- The weight words spread over the eight fields: entry (q, p, o) is word (q, o). -/
theorem v5_apply (a1 : (⟨S512x4096, .i32⟩ : BufTy).Contents (Elt Ideal)) (q : Fin 512) (p : Fin 8) (o : Fin 4096) :
    refTerm.v5 (F := Ideal) a1 (ix3 q p o) = a1 (ix2 q o) := by
  unfold refTerm.v5
  refine (broadcastInDim_apply _ _ _ (ix3 q p o) (ix3 q (0 : Fin 1) o) (fun a => by
    match a with
    | ⟨0, _⟩ => rfl
    | ⟨1, _⟩ => rfl
    | ⟨2, _⟩ => rfl)).trans ?_
  unfold refTerm.v3
  exact broadcastInDim_apply _ _ _ (ix3 q (0 : Fin 1) o) (ix2 q o) (fun a => by
    match a with
    | ⟨0, _⟩ => rfl
    | ⟨1, _⟩ => rfl)

/-- The shift amounts spread over the words: entry (q, p, o) is four times p. -/
theorem v6_apply (q : Fin 512) (p : Fin 8) (o : Fin 4096) :
    refTerm.v6 (F := Ideal) (ix3 q p o) = IntOp.muli (BitVec.ofNat 32 p.val) 4#32 := by
  unfold refTerm.v6
  refine (broadcastInDim_apply _ _ _ (ix3 q p o) (ix3 (0 : Fin 1) p (0 : Fin 1)) (fun a => by
    match a with
    | ⟨0, _⟩ => rfl
    | ⟨1, _⟩ => rfl
    | ⟨2, _⟩ => rfl)).trans ?_
  unfold refTerm.v4
  refine (broadcastInDim_apply _ _ _ (ix3 (0 : Fin 1) p (0 : Fin 1)) (ix1 p) (fun a => by
    match a with
    | ⟨0, _⟩ => rfl)).trans ?_
  rfl

/-- The fields of the weight words: entry (q, p, o) is field p of word (q, o). -/
theorem v9_apply (a1 : (⟨S512x4096, .i32⟩ : BufTy).Contents (Elt Ideal)) (q : Fin 512) (p : Fin 8) (o : Fin 4096) :
    refTerm.v9 (F := Ideal) a1 (ix3 q p o) = Cert.Gptq.nib (a1 (ix2 q o)) p := by
  have e : refTerm.v9 (F := Ideal) a1 (ix3 q p o)
      = IntOp.andi (IntOp.shrsi .host (refTerm.v5 (F := Ideal) a1 (ix3 q p o)) (refTerm.v6 (F := Ideal) (ix3 q p o))) 15#32 := rfl
  rw [e, v5_apply, v6_apply, field_eq_nib]

/-- The integer weight matrix: entry (i, o) is field i % 8 of packed row i / 8. -/
theorem v10_apply (a1 : (⟨S512x4096, .i32⟩ : BufTy).Contents (Elt Ideal)) (i o : Fin 4096) :
    refTerm.v10 (F := Ideal) a1 (ix2 i o) = Cert.Gptq.wq a1 i o := by
  unfold refTerm.v10
  refine (shapeCast_apply _ _ (ix2 i o) (ix3 (⟨i.val / 8, by omega⟩ : Fin 512) (⟨i.val % 8, by omega⟩ : Fin 8) o) ?_).trans ?_
  · rw [Shape.rowMajor_val_three, Shape.rowMajor_val_two]
    show (i.val / 8 * 8 + i.val % 8) * 4096 + o.val = i.val * 4096 + o.val
    omega
  · exact v9_apply a1 _ _ _

/-! ## The zero points -/

/-- The zero words spread over the eight fields: entry (g, q, p) is word (g, q). -/
theorem v16_apply (a2 : (⟨S32x512, .i32⟩ : BufTy).Contents (Elt Ideal)) (g : Fin 32) (q : Fin 512) (p : Fin 8) :
    refTerm.v16 (F := Ideal) a2 (ix3 g q p) = a2 (ix2 g q) := by
  unfold refTerm.v16
  refine (broadcastInDim_apply _ _ _ (ix3 g q p) (ix3 g q (0 : Fin 1)) (fun a => by
    match a with
    | ⟨0, _⟩ => rfl
    | ⟨1, _⟩ => rfl
    | ⟨2, _⟩ => rfl)).trans ?_
  unfold refTerm.v14
  exact broadcastInDim_apply _ _ _ (ix3 g q (0 : Fin 1)) (ix2 g q) (fun a => by
    match a with
    | ⟨0, _⟩ => rfl
    | ⟨1, _⟩ => rfl)

/-- The shift amounts spread over the zero words: entry (g, q, p) is four times p. -/
theorem v17_apply (g : Fin 32) (q : Fin 512) (p : Fin 8) :
    refTerm.v17 (F := Ideal) (ix3 g q p) = IntOp.muli (BitVec.ofNat 32 p.val) 4#32 := by
  unfold refTerm.v17
  refine (broadcastInDim_apply _ _ _ (ix3 g q p) (ix3 (0 : Fin 1) (0 : Fin 1) p) (fun a => by
    match a with
    | ⟨0, _⟩ => rfl
    | ⟨1, _⟩ => rfl
    | ⟨2, _⟩ => rfl)).trans ?_
  unfold refTerm.v15
  refine (broadcastInDim_apply _ _ _ (ix3 (0 : Fin 1) (0 : Fin 1) p) (ix1 p) (fun a => by
    match a with
    | ⟨0, _⟩ => rfl)).trans ?_
  rfl

/-- The fields of the zero words: entry (g, q, p) is field p of word (g, q). -/
theorem v20_apply (a2 : (⟨S32x512, .i32⟩ : BufTy).Contents (Elt Ideal)) (g : Fin 32) (q : Fin 512) (p : Fin 8) :
    refTerm.v20 (F := Ideal) a2 (ix3 g q p) = Cert.Gptq.nib (a2 (ix2 g q)) p := by
  have e : refTerm.v20 (F := Ideal) a2 (ix3 g q p)
      = IntOp.andi (IntOp.shrsi .host (refTerm.v16 (F := Ideal) a2 (ix3 g q p)) (refTerm.v17 (F := Ideal) (ix3 g q p))) 15#32 := rfl
  rw [e, v16_apply, v17_apply, field_eq_nib]

/-- The zero points: entry (g, o) is field o % 8 of packed zero word (g, o / 8), plus one. -/
theorem v23_apply (a2 : (⟨S32x512, .i32⟩ : BufTy).Contents (Elt Ideal)) (g : Fin 32) (o : Fin 4096) :
    refTerm.v23 (F := Ideal) a2 (ix2 g o) = Cert.Gptq.zq a2 g o := by
  have e : refTerm.v23 (F := Ideal) a2 (ix2 g o) = refTerm.v21 (F := Ideal) a2 (ix2 g o) + 1#32 := rfl
  rw [e]
  unfold refTerm.v21 Cert.Gptq.zq
  congr 1
  refine (shapeCast_apply _ _ (ix2 g o) (ix3 g (⟨o.val / 8, by omega⟩ : Fin 512) (⟨o.val % 8, by omega⟩ : Fin 8)) ?_).trans ?_
  · rw [Shape.rowMajor_val_three, Shape.rowMajor_val_two]
    show (g.val * 512 + o.val / 8) * 8 + o.val % 8 = g.val * 4096 + o.val
    omega
  · exact v20_apply a2 _ _ _

/-! ## The group of a row -/

/-- The floor division of the row numbers by 128: entry i is i / 128. -/
theorem v25_apply (i : Fin 4096) : refTerm.v25 (F := Ideal) (ix1 i) = BitVec.ofNat 32 (i.val / 128) := by
  have e : refTerm.v25 (F := Ideal) (ix1 i) = floorDivW (BitVec.ofNat 32 i.val) 128#32 := rfl
  rw [e, floorDivW_128 i.val i.isLt]

/-- The row numbers for the scales, a column: entry (i, 0) is i / 128, the wrap of a negative number not taken. -/
theorem v31_apply (i : Fin 4096) : refTerm.v31 (F := Ideal) (ix2 i (⟨0, Nat.one_pos⟩ : Fin 1)) = BitVec.ofNat 32 (i.val / 128) := by
  unfold refTerm.v31
  refine (broadcastInDim_apply _ _ _ (ix2 i (⟨0, Nat.one_pos⟩ : Fin 1)) (ix1 i) (fun a => by
    match a with
    | ⟨0, _⟩ => rfl)).trans ?_
  have e : refTerm.v30 (F := Ideal) (ix1 i) = wrapW (refTerm.v25 (F := Ideal) (ix1 i)) := rfl
  rw [e, v25_apply, wrapW_small _ (by have := i.isLt; omega)]

/-- The row numbers for the zero points, a column: the same. -/
theorem v38_apply (i : Fin 4096) : refTerm.v38 (F := Ideal) (ix2 i (⟨0, Nat.one_pos⟩ : Fin 1)) = BitVec.ofNat 32 (i.val / 128) := by
  unfold refTerm.v38
  refine (broadcastInDim_apply _ _ _ (ix2 i (⟨0, Nat.one_pos⟩ : Fin 1)) (ix1 i) (fun a => by
    match a with
    | ⟨0, _⟩ => rfl)).trans ?_
  have e : refTerm.v37 (F := Ideal) (ix1 i) = wrapW (refTerm.v25 (F := Ideal) (ix1 i)) := rfl
  rw [e, v25_apply, wrapW_small _ (by have := i.isLt; omega)]

/-! ## The two gathers of whole rows -/

/-- The rows of a 32-row table taken by a column of row numbers i / 128: entry (i, o) is the table at the group of i. -/
theorem take_group {α : Type} (x : S32x4096.Idx → α) (idx : IVec S4096x1 32)
    (hidx : ∀ i : Fin 4096, idx (ix2 i (⟨0, Nat.one_pos⟩ : Fin 1)) = BitVec.ofNat 32 (i.val / 128)) (i o : Fin 4096) :
    Host.gather gather_S32x4096_S4096x1_S4096x4096_1_0_n_n_0_1_14096 x idx (ix2 i o) = x (ix2 (Cert.Gptq.grp i) o) := by
  have hd : gather_S32x4096_S4096x1_S4096x4096_1_0_n_n_0_1_14096
      = TakeRows.rowDims 32 4096 4096 gather_S32x4096_S4096x1_S4096x4096_1_0_n_n_0_1_14096_wf := rfl
  rw [hd]
  refine (TakeRows.gather_rows_apply (by decide) _ x idx i o).trans ?_
  congr 1
  have : (⟨min (idx (ix2 i (⟨0, Nat.one_pos⟩ : Fin 1))).toInt.toNat (32 - 1), by omega⟩ : Fin 32) = Cert.Gptq.grp i := by
    apply Fin.ext
    show min (idx (ix2 i (⟨0, Nat.one_pos⟩ : Fin 1))).toInt.toNat (32 - 1) = i.val / 128
    rw [hidx, clamp_small _ (by have := i.isLt; omega)]
  rw [this]

/-- The scales gathered by group: entry (i, o) is the scale of i's group at column o. -/
theorem v32_apply (a3 : (⟨S32x4096, .f32⟩ : BufTy).Contents (Elt Ideal)) (i o : Fin 4096) :
    refTerm.v32 (F := Ideal) a3 (ix2 i o) = a3 (ix2 (Cert.Gptq.grp i) o) := by
  unfold refTerm.v32
  exact take_group a3 _ v31_apply i o

/-- The zero points gathered by group: entry (i, o) is the zero point of i's group at column o. -/
theorem v39_apply (a2 : (⟨S32x512, .i32⟩ : BufTy).Contents (Elt Ideal)) (i o : Fin 4096) :
    refTerm.v39 (F := Ideal) a2 (ix2 i o) = Cert.Gptq.zq a2 (Cert.Gptq.grp i) o := by
  unfold refTerm.v39
  rw [take_group _ _ v38_apply i o, v23_apply]

/-! ## The dequantised weight -/

/-- The reference's weight matrix: entry (i, o) is the scale times the converted difference of integer weight and
    zero point. -/
theorem v42_apply (a1 : (⟨S512x4096, .i32⟩ : BufTy).Contents (Elt Ideal)) (a2 : (⟨S32x512, .i32⟩ : BufTy).Contents (Elt Ideal))
    (a3 : (⟨S32x4096, .f32⟩ : BufTy).Contents (Elt Ideal)) (i o : Fin 4096) :
    refTerm.v42 (F := Ideal) a1 a2 a3 (ix2 i o) = Cert.Gptq.Wref a1 a2 a3 i o := by
  have e : refTerm.v42 (F := Ideal) a1 a2 a3 (ix2 i o)
      = refTerm.v32 (F := Ideal) a3 (ix2 i o)
        * ((((refTerm.v10 (F := Ideal) a1 (ix2 i o) - refTerm.v39 (F := Ideal) a2 (ix2 i o)).toInt : ℝ)) : EReal) := rfl
  rw [e, v32_apply, v10_apply, v39_apply]
  rfl

end Cert.ReferenceIdeal.Hand

end
-- ==== Proof.RefValue3.lean ====
/-
  The reference's contraction read at an entry: the product of the activations [4, 2048, 4096] with a weight
  matrix [4096, 4096], contracting the activations' last axis with the matrix's first, is at (b, t, o) the sum
  over the 4096 rows i of activation (b, t, i) times weight (i, o).
-/
import proofs.«401313_j39213051412616_3_alg».proof.ReferenceIdeal
import Idealize.ShloMosaic.PureOps.Ideal.Laws
import Idealize.ShloMosaic.Lib.ValueIdx

noncomputable section

open scoped BigOperators

namespace Cert.ReferenceIdeal.Hand

open Idealize.ShloMosaic Idealize.ShloMosaic.ValueIdx Idealize.SL.Sem
open Cert.ReferenceIdeal

variable [Facts]
open Facts₀ Facts

/-- The left operand's first axis is free: it reads the result's first coordinate. -/
theorem lhs_dot_0 (j : S4x2048x4096.Idx) (q : dot_S4x2048x4096_S4096x4096_S4x2048x4096_2_0_01_1_n_n.contr.Idx) :
    (dot_S4x2048x4096_S4096x4096_S4x2048x4096_2_0_01_1_n_n.lhsIdx j q 0).val = (j 0).val := by
  unfold DotDims.lhsIdx
  rw [dif_neg (show ¬(0 : Fin S4x2048x4096.rank) ∈ dot_S4x2048x4096_S4096x4096_S4x2048x4096_2_0_01_1_n_n.lhsBatch from List.not_mem_nil),
    dif_pos (show (0 : Fin S4x2048x4096.rank) ∈ dot_S4x2048x4096_S4096x4096_S4x2048x4096_2_0_01_1_n_n.lhsNonContracting from (by decide : (0 : Fin 3) ∈ ([0, 1] : List (Fin 3))))]
  rfl

/-- The left operand's second axis is free: it reads the result's second coordinate. -/
theorem lhs_dot_1 (j : S4x2048x4096.Idx) (q : dot_S4x2048x4096_S4096x4096_S4x2048x4096_2_0_01_1_n_n.contr.Idx) :
    (dot_S4x2048x4096_S4096x4096_S4x2048x4096_2_0_01_1_n_n.lhsIdx j q 1).val = (j 1).val := by
  unfold DotDims.lhsIdx
  rw [dif_neg (show ¬(1 : Fin S4x2048x4096.rank) ∈ dot_S4x2048x4096_S4096x4096_S4x2048x4096_2_0_01_1_n_n.lhsBatch from List.not_mem_nil),
    dif_pos (show (1 : Fin S4x2048x4096.rank) ∈ dot_S4x2048x4096_S4096x4096_S4x2048x4096_2_0_01_1_n_n.lhsNonContracting from (by decide : (1 : Fin 3) ∈ ([0, 1] : List (Fin 3))))]
  rfl

/-- The left operand's last axis is the contracted one: it reads the contraction's coordinate. -/
theorem lhs_dot_2 (j : S4x2048x4096.Idx) (q : dot_S4x2048x4096_S4096x4096_S4x2048x4096_2_0_01_1_n_n.contr.Idx) :
    (dot_S4x2048x4096_S4096x4096_S4x2048x4096_2_0_01_1_n_n.lhsIdx j q 2).val = (q ⟨0, (Nat.one_pos : 0 < 1)⟩).val :=
  dot_S4x2048x4096_S4096x4096_S4x2048x4096_2_0_01_1_n_n.lhsIdx_val_of_single rfl j q

/-- The right operand's first axis is the contracted one: it reads the contraction's coordinate. -/
theorem rhs_dot_0 (j : S4x2048x4096.Idx) (q : dot_S4x2048x4096_S4096x4096_S4x2048x4096_2_0_01_1_n_n.contr.Idx) :
    (dot_S4x2048x4096_S4096x4096_S4x2048x4096_2_0_01_1_n_n.rhsIdx j q 0).val = (q ⟨0, (Nat.one_pos : 0 < 1)⟩).val :=
  dot_S4x2048x4096_S4096x4096_S4x2048x4096_2_0_01_1_n_n.rhsIdx_val_of_single rfl j q

/-- The right operand's second axis is free: it reads the result's last coordinate. -/
theorem rhs_dot_1 (j : S4x2048x4096.Idx) (q : dot_S4x2048x4096_S4096x4096_S4x2048x4096_2_0_01_1_n_n.contr.Idx) :
    (dot_S4x2048x4096_S4096x4096_S4x2048x4096_2_0_01_1_n_n.rhsIdx j q 1).val = (j 2).val := by
  unfold DotDims.rhsIdx
  rw [dif_neg (show ¬(1 : Fin S4096x4096.rank) ∈ dot_S4x2048x4096_S4096x4096_S4x2048x4096_2_0_01_1_n_n.rhsBatch from List.not_mem_nil),
    dif_pos (show (1 : Fin S4096x4096.rank) ∈ dot_S4x2048x4096_S4096x4096_S4x2048x4096_2_0_01_1_n_n.rhsNonContracting from (by decide : (1 : Fin 2) ∈ ([1] : List (Fin 2))))]
  rfl

/-- The contraction at (b, t, o): the sum over the rows i of activation (b, t, i) times weight (i, o). -/
theorem dot_apply (x : FVec Ideal S4x2048x4096 .f32) (W : FVec Ideal S4096x4096 .f32) (b : Fin 4) (t : Fin 2048) (o : Fin 4096) :
    Host.dotGeneral dot_S4x2048x4096_S4096x4096_S4x2048x4096_2_0_01_1_n_n none x W (ix3 b t o)
      = ∑ i : Fin 4096, x (ix3 b t i) * W (ix2 i o) := by
  simp only [Host.dotGeneral]
  rw [Ideal.dotGeneral_apply,
    ← Equiv.sum_comp (ValueIdx.contrEquiv1 dot_S4x2048x4096_S4096x4096_S4x2048x4096_2_0_01_1_n_n 4096 rfl rfl).symm]
  refine Finset.sum_congr rfl fun k _ => ?_
  have hk := ValueIdx.contrEquiv1_symm_val dot_S4x2048x4096_S4096x4096_S4x2048x4096_2_0_01_1_n_n 4096 rfl rfl k
  have el : dot_S4x2048x4096_S4096x4096_S4x2048x4096_2_0_01_1_n_n.lhsIdx (ix3 b t o)
      ((ValueIdx.contrEquiv1 dot_S4x2048x4096_S4096x4096_S4x2048x4096_2_0_01_1_n_n 4096 rfl rfl).symm k) = ix3 b t k :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S4x2048x4096_S4096x4096_S4x2048x4096_2_0_01_1_n_n.rhsIdx (ix3 b t o)
      ((ValueIdx.contrEquiv1 dot_S4x2048x4096_S4096x4096_S4x2048x4096_2_0_01_1_n_n 4096 rfl rfl).symm k) = ix2 k o :=
    funext fun a => Fin.ext (by
      match a with
      | ⟨0, _⟩ => exact (rhs_dot_0 _ _).trans hk
      | ⟨1, _⟩ => exact rhs_dot_1 _ _)
  rw [el, er]

end Cert.ReferenceIdeal.Hand

end
-- ==== Proof.RefValue.lean ====
/-
  The reference program's result is the layer of the specification: at (b, t, o) the contraction of the
  activations with the dequantised weight, which is the sum over the rows of activation times weight, plus the
  bias at column o.
-/
import proofs.«401313_j39213051412616_3_alg».proof.Proof.RefTerm
import proofs.«401313_j39213051412616_3_alg».proof.Proof.Spec
import proofs.«401313_j39213051412616_3_alg».proof.Proof.RefValue2
import proofs.«401313_j39213051412616_3_alg».proof.Proof.RefValue3
import Idealize.ShloMosaic.Lib.Pipeline.Value

noncomputable section

open scoped BigOperators

namespace Cert.ReferenceIdeal.Hand

open Idealize.ShloMosaic Idealize.ShloMosaic.ValueIdx Idealize.SL.Sem
open Cert.ReferenceIdeal

variable [Facts]
open Facts₀ Facts

/-- The bias spread over the batch: entry (b, t, o) is the bias at column o. -/
theorem v45_apply (a4 : (⟨S4096, .f32⟩ : BufTy).Contents (Elt Ideal)) (b : Fin 4) (t : Fin 2048) (o : Fin 4096) :
    refTerm.v45 (F := Ideal) a4 (ix3 b t o) = a4 (ix1 o) := by
  unfold refTerm.v45
  refine (broadcastInDim_apply _ _ _ (ix3 b t o) (ix3 (0 : Fin 1) (0 : Fin 1) o) (fun a => by
    match a with
    | ⟨0, _⟩ => rfl
    | ⟨1, _⟩ => rfl
    | ⟨2, _⟩ => rfl)).trans ?_
  unfold refTerm.v44
  exact broadcastInDim_apply _ _ _ (ix3 (0 : Fin 1) (0 : Fin 1) o) (ix1 o) (fun a => by
    match a with
    | ⟨0, _⟩ => rfl)

/-- The specification's result array at (b, t, o) is the layer there. -/
theorem Gref_apply (a0 : (⟨S4x2048x4096, .f32⟩ : BufTy).Contents (Elt Ideal)) (a1 : (⟨S512x4096, .i32⟩ : BufTy).Contents (Elt Ideal)) (a2 : (⟨S32x512, .i32⟩ : BufTy).Contents (Elt Ideal)) (a3 : (⟨S32x4096, .f32⟩ : BufTy).Contents (Elt Ideal)) (a4 : (⟨S4096, .f32⟩ : BufTy).Contents (Elt Ideal)) (b : Fin 4) (t : Fin 2048) (o : Fin 4096) :
    Cert.Gptq.Gref a0 a1 a2 a3 a4 (ix3 b t o) = Cert.Gptq.layerAt (Cert.Gptq.Wref a1 a2 a3) a0 a4 b t o := rfl

/-- The reference program's result array is the layer over the dequantised weight, subtracting on the integers. -/
theorem refTerm_eq_Gref (a0 : (⟨S4x2048x4096, .f32⟩ : BufTy).Contents (Elt Ideal)) (a1 : (⟨S512x4096, .i32⟩ : BufTy).Contents (Elt Ideal)) (a2 : (⟨S32x512, .i32⟩ : BufTy).Contents (Elt Ideal)) (a3 : (⟨S32x4096, .f32⟩ : BufTy).Contents (Elt Ideal)) (a4 : (⟨S4096, .f32⟩ : BufTy).Contents (Elt Ideal)) : refTerm (F := Ideal) a0 a1 a2 a3 a4 = Cert.Gptq.Gref a0 a1 a2 a3 a4 := by
  funext j
  obtain ⟨b, t, o, rfl⟩ : ∃ (b : Fin 4) (t : Fin 2048) (o : Fin 4096), j = ix3 b t o := ⟨j 0, j 1, j 2, eq_ix3 j⟩
  unfold refTerm refTerm.v46
  rw [addf_apply]
  unfold refTerm.v43
  rw [dot_apply, v45_apply, Gref_apply]
  unfold Cert.Gptq.layerAt
  congr 1
  exact Finset.sum_congr rfl fun i _ => by rw [v42_apply]

end Cert.ReferenceIdeal.Hand

end
-- ==== Proof.RefHand.lean ====
import proofs.«401313_j39213051412616_3_alg».proof.ReferenceIdeal
import proofs.«401313_j39213051412616_3_alg».proof.Proof.Gen.ReferenceIdeal
import proofs.«401313_j39213051412616_3_alg».proof.Proof.Spec
import proofs.«401313_j39213051412616_3_alg».proof.Proof.RefRead
import proofs.«401313_j39213051412616_3_alg».proof.Proof.RefValue
import Idealize.ShloMosaic.Lib.StableHlo.Run

noncomputable section

namespace Cert.ReferenceIdeal.Hand

open Idealize.ShloMosaic Idealize.ShloMosaic.TcCoe Idealize.SL.Sem
open Cert.ReferenceIdeal

/-- Every weakly fair execution of the reference terminates without a fault, its result array the layer
    of its argument arrays and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46)
        = Cert.Gptq.Gref (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c => ⟨(h c).1.trans (refTerm_eq_Gref ..), (h c).2⟩)
    (run_term (F := Ideal) m ρ)

end Cert.ReferenceIdeal.Hand

end
-- ==== Proof.lean ====
/-
  A linear layer over a weight matrix kept as packed four-bit words, computed by one tiled kernel and by a plain
  host program; the claim is that both run to the end without a fault leaving their arguments untouched, and that
  over the extended reals they return the same array.

  The mathematics (Proof/Spec.lean). Field p of a packed word w is (w >> 4p) & 15. Row i of the 4096 x 4096
  weight matrix is field i % 8 of packed row i / 8; rows come in 32 groups of 128, and group g has per column o
  a scale s[g, o] and a zero point zq[g, o] (a field of a packed zero word, plus one). The reference forms
  W[i, o] = s[g, o] * (wq[i, o] - zq[g, o]), subtracting on the integers, then y = x W + bias as one contraction
  over the 4096 rows. The kernel forms wq[i, o] * s[g, o] - zq[g, o] * s[g, o] (the second product made on the
  host beforehand), which on the extended reals is the same number wherever the scale is real — the precondition's
  finiteness of the scales is what is used, and the only place it is used. The sum over the rows is taken by the
  kernel group by group (32 partial products of 128 rows each, added to an accumulator that starts at zero) at the
  first row tile of each column tile, and as one product with the stored weights at the other row tiles; a sum of
  extended reals may be regrouped freely.

  The kernel's grid is 2 column tiles by 32 row tiles, the row tiles innermost. At the first row tile of a column
  tile the body dequantises the tile's weights into a scratch buffer that the later row tiles of the same column
  tile read; so the proof carries the scratch's contents from point to point (Proof/KData.lean, Proof/KPoints.lean):
  after every point it holds the dequantised weights of the point's column tile. The body is run once per branch
  (Proof/KRunA.lean, Proof/KRunB.lean); what the stores leave is read back as functions of the staged blocks
  (Proof/KPieces.lean), at an index (Proof/KValIdx.lean), block by block into the output array (Proof/KBlocks.lean),
  and through the host lines around the region (Proof/KHost.lean) to the result (Proof/KFinal.lean). The word-level
  program's frame is the same text at the other instance (Proof/B*.lean). The reference's run is read operation by
  operation (Proof/RefRun.lean, Proof/RefValue.lean, Proof/RefHand.lean).
-/
import proofs.«401313_j39213051412616_3_alg».proof.Defs
import proofs.«401313_j39213051412616_3_alg».proof.Proof.Gen.Kernel
import proofs.«401313_j39213051412616_3_alg».proof.Proof.Gen.KernelIdeal
import proofs.«401313_j39213051412616_3_alg».proof.Proof.Gen.ReferenceIdeal
import proofs.«401313_j39213051412616_3_alg».proof.Proof.Gen.Pre_finite_inputs
import proofs.«401313_j39213051412616_3_alg».proof.Proof.BFrame
import proofs.«401313_j39213051412616_3_alg».proof.Proof.KFrame
import proofs.«401313_j39213051412616_3_alg».proof.Proof.KFinal
import proofs.«401313_j39213051412616_3_alg».proof.Proof.RefHand
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- And the reference: its run with the result dropped. -/
theorem frame_ri : Cert.frame_ReferenceIdeal := fun m ρ _ =>
  (θ_run Cert.ReferenceIdeal.defs _ _).mono (fun _ h c => (h c).2) (Cert.ReferenceIdeal.Hand.run m ρ)

/-- The ideal pass rewrote nothing. -/
theorem preserves : Cert.preserves_Kernel_KernelIdeal := trivial

/-- From memories agreeing on the arguments both idealized programs end with the layer of the arguments. -/
theorem algebraic : Cert.algebraic_KernelIdeal_ReferenceIdeal := by
  intro m ρ m' ρ' hpre hagree
  refine ⟨fun c => Cert.Gptq.Gref (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Hand.run_value m ρ hpre, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
